-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg1 : IVec S3200000 32) (main_arg2 : IVec S3200000 32) (main_v48 : IVec S_ 1) (main_v50 : IVec S3200000 1) : IVec S_ 1 :=
  let main_c_19 : IVec S_ 32 := constantI S_ 32 100000#32
  let main_v51 : IVec S3200000 32 := broadcastInDim S3200000 ![] bcast_S_S3200000 main_c_19
  let main_v52 : IVec S3200000 1 := cmpi .slt main_arg1 main_v51
  let main_v53 : IVec S3200000 1 := andi main_v50 main_v52
  let main_c_20 : IVec S_ 1 := constantI S_ 1 1#1
  let main_v54 : IVec S_ 1 := (fun x v => Host.reduce IntOp.andi x v reducesTo_S3200000_S_d0 h_S_) main_v53 main_c_20
  let main_v55 : IVec S_ 1 := andi main_v48 main_v54
  let main_c_21 : IVec S_ 32 := constantI S_ 32 0#32
  let main_v56 : IVec S3200000 32 := broadcastInDim S3200000 ![] bcast_S_S3200000 main_c_21
  let main_v57 : IVec S3200000 1 := cmpi .sge main_arg2 main_v56
  let main_c_22 : IVec S_ 32 := constantI S_ 32 100000#32
  let main_v58 : IVec S3200000 32 := broadcastInDim S3200000 ![] bcast_S_S3200000 main_c_22
  let main_v59 : IVec S3200000 1 := cmpi .slt main_arg2 main_v58
  let main_v60 : IVec S3200000 1 := andi main_v57 main_v59
  let main_c_23 : IVec S_ 1 := constantI S_ 1 1#1
  let main_v61 : IVec S_ 1 := (fun x v => Host.reduce IntOp.andi x v reducesTo_S3200000_S_d0 h_S_) main_v60 main_c_23
  let main_v62 : IVec S_ 1 := andi main_v55 main_v61
  main_v62

def fn_part2 {F : FTy → Type} [FloatOps F] (main_arg1 : IVec S3200000 32) (main_arg2 : IVec S3200000 32) (main_arg9 : FVec F S64 .f32) (main_arg10 : FVec F S64x1 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S3200000 32 := broadcastInDim S3200000 ![] bcast_S_S3200000 main_c_18
  let main_v50 : IVec S3200000 1 := cmpi .sge main_arg1 main_v49
  fn_part3 (F := F) main_arg1 main_arg2 main_v48 main_v50

def fn_part1 {F : FTy → Type} [FloatOps F] (main_arg1 : IVec S3200000 32) (main_arg2 : IVec S3200000 32) (main_arg6 : FVec F S64x1 .f32) (main_arg7 : FVec F S1 .f32) (main_arg8 : FVec F S256x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg1 main_arg2 main_arg9 main_arg10 main_arg11 main_v33

def fn {F : FTy → Type} [FloatOps F] (main_arg0 : FVec F S100000x256 .f32) (main_arg1 : IVec S3200000 32) (main_arg2 : IVec S3200000 32) (main_arg3 : FVec F S3200000 .f32) (main_arg4 : FVec F S256x64 .f32) (main_arg5 : FVec F S64 .f32) (main_arg6 : FVec F S64x1 .f32) (main_arg7 : FVec F S1 .f32) (main_arg8 : FVec F S256x64 .f32) (main_arg9 : FVec F S64 .f32) (main_arg10 : FVec F S64x1 .f32) (main_arg11 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg6 main_arg7 main_arg8 main_arg9 main_arg10 main_arg11 main_v13 main_v16
-- ==== Kernel.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S256x128 : Shape := ⟨2, ![256, 128]⟩
abbrev S128 : Shape := ⟨1, ![128]⟩
abbrev S1x128 : Shape := ⟨2, ![1, 128]⟩
abbrev S_ : Shape := ⟨0, ![]⟩
abbrev S64x2 : Shape := ⟨2, ![64, 2]⟩
abbrev S128x2 : Shape := ⟨2, ![128, 2]⟩
abbrev S2 : Shape := ⟨1, ![2]⟩
abbrev S1x2 : Shape := ⟨2, ![1, 2]⟩
abbrev S100000x2 : Shape := ⟨2, ![100000, 2]⟩
abbrev S5000x256 : Shape := ⟨2, ![5000, 256]⟩
abbrev S5000x2 : Shape := ⟨2, ![5000, 2]⟩
abbrev S5000x128 : Shape := ⟨2, ![5000, 128]⟩
abbrev S100000x1 : Shape := ⟨2, ![100000, 1]⟩
abbrev S100000 : Shape := ⟨1, ![100000]⟩
abbrev S3200000x1 : Shape := ⟨2, ![3200000, 1]⟩
abbrev S1x1 : Shape := ⟨2, ![1, 1]⟩
abbrev S2x2x6250x128 : Shape := ⟨4, ![2, 2, 6250, 128]⟩
abbrev S2x8x128 : Shape := ⟨3, ![2, 8, 128]⟩
abbrev S1x1x6250x128 : Shape := ⟨4, ![1, 1, 6250, 128]⟩
abbrev S1x8x128 : Shape := ⟨3, ![1, 8, 128]⟩
abbrev S6250x128 : Shape := ⟨2, ![6250, 128]⟩
abbrev S6250 : Shape := ⟨1, ![6250]⟩
abbrev S6250x1 : Shape := ⟨2, ![6250, 1]⟩
abbrev S8x128 : Shape := ⟨2, ![8, 128]⟩
abbrev S2x1x1 : Shape := ⟨3, ![2, 1, 1]⟩
abbrev S3200000x1x1 : Shape := ⟨3, ![3200000, 1, 1]⟩

abbrev nBuf : Space → Nat
  | .hbm => 86
  | .vmem => 17
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S256x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S256x128, .f32⟩
  | .hbm, ⟨13, _⟩ => ⟨S128, .f32⟩
  | .hbm, ⟨14, _⟩ => ⟨S1x128, .f32⟩
  | .hbm, ⟨15, _⟩ => ⟨S_, .f32⟩
  | .hbm, ⟨16, _⟩ => ⟨S64x1, .f32⟩
  | .hbm, ⟨17, _⟩ => ⟨S64x2, .f32⟩
  | .hbm, ⟨18, _⟩ => ⟨S_, .f32⟩
  | .hbm, ⟨19, _⟩ => ⟨S64x1, .f32⟩
  | .hbm, ⟨20, _⟩ => ⟨S64x2, .f32⟩
  | .hbm, ⟨21, _⟩ => ⟨S128x2, .f32⟩
  | .hbm, ⟨22, _⟩ => ⟨S2, .f32⟩
  | .hbm, ⟨23, _⟩ => ⟨S1x2, .f32⟩
  | .hbm, ⟨24, _⟩ => ⟨S100000x2, .f32⟩
  | .hbm, ⟨25, _⟩ => ⟨S100000x1, .f32⟩
  | .hbm, ⟨26, _⟩ => ⟨S100000, .f32⟩
  | .hbm, ⟨27, _⟩ => ⟨S100000x1, .f32⟩
  | .hbm, ⟨28, _⟩ => ⟨S100000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S1, .i32⟩
  | .hbm, ⟨38, _⟩ => ⟨S_, .i32⟩
  | .hbm, ⟨39, _⟩ => ⟨S3200000x1, .i32⟩
  | .hbm, ⟨40, _⟩ => ⟨S3200000x1, .i1⟩
  | .hbm, ⟨41, _⟩ => ⟨S1x1, .i32⟩
  | .hbm, ⟨42, _⟩ => ⟨S3200000x1, .i32⟩
  | .hbm, ⟨43, _⟩ => ⟨S3200000x1, .i1⟩
  | .hbm, ⟨44, _⟩ => ⟨S3200000x1, .i1⟩
  | .hbm, ⟨45, _⟩ => ⟨S_, .i1⟩
  | .hbm, ⟨46, _⟩ => ⟨S3200000, .i1⟩
  | .hbm, ⟨47, _⟩ => ⟨S3200000, .f32⟩
  | .hbm, ⟨48, _⟩ => ⟨S_, .f32⟩
  | .hbm, ⟨49, _⟩ => ⟨S3200000, .f32⟩
  | .hbm, ⟨50, _⟩ => ⟨S3200000, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S1, .i32⟩
  | .hbm, ⟨60, _⟩ => ⟨S_, .i32⟩
  | .hbm, ⟨61, _⟩ => ⟨S3200000x1, .i32⟩
  | .hbm, ⟨62, _⟩ => ⟨S3200000x1, .i1⟩
  | .hbm, ⟨63, _⟩ => ⟨S1x1, .i32⟩
  | .hbm, ⟨64, _⟩ => ⟨S3200000x1, .i32⟩
  | .hbm, ⟨65, _⟩ => ⟨S3200000x1, .i1⟩
  | .hbm, ⟨66, _⟩ => ⟨S3200000x1, .i1⟩
  | .hbm, ⟨67, _⟩ => ⟨S_, .i1⟩
  | .hbm, ⟨68, _⟩ => ⟨S3200000, .i1⟩
  | .hbm, ⟨69, _⟩ => ⟨S3200000, .f32⟩
  | .hbm, ⟨70, _⟩ => ⟨S_, .f32⟩
  | .hbm, ⟨71, _⟩ => ⟨S3200000, .f32⟩
  | .hbm, ⟨72, _⟩ => ⟨S3200000, .f32⟩
  | .hbm, ⟨73, _⟩ => ⟨S3200000, .f32⟩
  | .hbm, ⟨74, _⟩ => ⟨S2x2x6250x128, .f32⟩
  | .hbm, ⟨75, _⟩ => ⟨S2x2x6250x128, .f32⟩
  | .hbm, ⟨76, _⟩ => ⟨S2x2x6250x128, .f32⟩
  | .hbm, ⟨77, _⟩ => ⟨S2x8x128, .f32⟩
  | .hbm, ⟨78, _⟩ => ⟨S3200000, .f32⟩
  | .hbm, ⟨79, _⟩ => ⟨S2x1x1, .f32⟩
  | .hbm, ⟨80, _⟩ => ⟨S2, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S3200000x1x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S128x2, .f32⟩
  | .local _ .vmem, ⟨5, _⟩ => ⟨S1x2, .f32⟩
  | .local _ .vmem, ⟨6, _⟩ => ⟨S5000x2, .f32⟩
  | .local _ .vmem, ⟨7, _⟩ => ⟨S5000x2, .f32⟩
  | .local _ .vmem, ⟨8, _⟩ => ⟨S1x1x6250x128, .f32⟩
  | .local _ .vmem, ⟨9, _⟩ => ⟨S1x1x6250x128, .f32⟩
  | .local _ .vmem, ⟨10, _⟩ => ⟨S1x1x6250x128, .f32⟩
  | .local _ .vmem, ⟨11, _⟩ => ⟨S1x1x6250x128, .f32⟩
  | .local _ .vmem, ⟨12, _⟩ => ⟨S1x1x6250x128, .f32⟩
  | .local _ .vmem, ⟨13, _⟩ => ⟨S1x1x6250x128, .f32⟩
  | .local _ .vmem, ⟨14, _⟩ => ⟨S1x8x128, .f32⟩
  | .local _ .vmem, ⟨15, _⟩ => ⟨S1x8x128, .f32⟩
  | .local _ .vmem, ⟨16, _⟩ => ⟨S1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_cst : Ref sig .tc := ⟨.hbm, 48, rfl⟩
abbrev main_call0_v14 : Ref sig .tc := ⟨.hbm, 49, rfl⟩
abbrev main_v15 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_cst : Ref sig .tc := ⟨.hbm, 70, rfl⟩
abbrev main_call1_v14 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20_0 : Ref sig .tc := ⟨.hbm, 76, rfl⟩
abbrev main_v20_1 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_cst_1 : Ref sig .tc := ⟨.hbm, 81, rfl⟩
abbrev main_v24 : Ref sig .tc := ⟨.hbm, 82, rfl⟩
abbrev main_cst_2 : Ref sig .tc := ⟨.hbm, 83, rfl⟩
abbrev main_v25 : Ref sig .tc := ⟨.hbm, 84, rfl⟩
abbrev main_v26 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v30 : BitVec 1 := Scalar.cmpi .eq arg1 c1_i32
  let v31 : BitVec 32 := Scalar.extui v30
  let c0_i32_20 : BitVec 32 := 0#32
  let v32 : BitVec 1 := Scalar.cmpi .ne v31 c0_i32_20
  v32

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x6250x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x6250x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x6250x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S256x64_S256x64_S256x128_d1 : Shape.Concatenates [S256x64, S256x64] S256x128 1
  concatenates_S64_S64_S128_d0 : Shape.Concatenates [S64, S64] S128 0
  shapeCasts_S128_S1x128 : S128.ShapeCasts S1x128
  bcast_S_S64x1 : S_.BroadcastsInDim S64x1 (![] : Fin 0 → Fin S64x1.rank)
  concatenates_S64x1_S64x1_S64x2_d1 : Shape.Concatenates [S64x1, S64x1] S64x2 1
  concatenates_S64x2_S64x2_S128x2_d0 : Shape.Concatenates [S64x2, S64x2] S128x2 0
  concatenates_S1_S1_S2_d0 : Shape.Concatenates [S1, S1] S2 0
  shapeCasts_S2_S1x2 : S2.ShapeCasts S1x2
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  shapeCasts_S3200000_S2x2x6250x128 : S3200000.ShapeCasts S2x2x6250x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x6250x128_S1x1x6250x128_0_0_0_0 : ∀ a, (![0, 0, 0, 0] : Fin 4 → Nat) a + S1x1x6250x128.size a ≤ S1x1x6250x128.size a
  h_S1x1x6250x128 : 0 < S1x1x6250x128.numel
  shapeCasts_S1x1x6250x128_S6250x128 : S1x1x6250x128.ShapeCasts S6250x128
  shapeCasts_S6250x128_S1x1x6250x128 : S6250x128.ShapeCasts S1x1x6250x128
  reduces_S6250x128_S6250 : S6250x128.Reduces [1] S6250
  shapeCasts_S6250_S6250x1 : S6250.ShapeCasts S6250x1
  reduces_S6250x1_S1 : S6250x1.Reduces [0] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  shapeCasts_S2x2x6250x128_S3200000 : S2x2x6250x128.ShapeCasts S3200000
  slices_S2x8x128_S2x1x1_0_0_0 : S2x8x128.Slices ![0, 0, 0] S2x1x1
  shapeCasts_S2x1x1_S2 : S2x1x1.ShapeCasts S2
  reducesTo_S2_S_d0 : S2.ReducesTo [0] S_
  bcast_S3200000_S3200000x1x1_0 : S3200000.BroadcastsInDim S3200000x1x1 (![0] : Fin 1 → Fin S3200000x1x1.rank)
  dot_S5000x256_S256x128_S5000x128_1_0_0_1_n_n_wf : DotDims.WF S5000x256 S256x128 S5000x128 [1] [0] [0] [1] [] []
  dot_S5000x128_S128x2_S5000x2_1_0_0_1_n_n_wf : DotDims.WF S5000x128 S128x2 S5000x2 [1] [0] [0] [1] [] []
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2.size a ≤ S128x2.size a
  hwx0_3 : ∀ i : grid0.Coords, EltTy.bits .f32 = 32 ∨ (Rect.block (s := S128x2) S128x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x2.size a ≤ S100000x2.size a
  hwx0_5 : ∀ i : grid0.Coords, EltTy.bits .f32 = 32 ∨ (Rect.block (s := S100000x2) S5000x2.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x6250x128.size a ≤ S2x2x6250x128.size a
  hwx1_0 : ∀ i : grid1.Coords, EltTy.bits .f32 = 32 ∨ (Rect.block (s := S2x2x6250x128) S1x1x6250x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x6250x128.size a ≤ S2x2x6250x128.size a
  hwx1_1 : ∀ i : grid1.Coords, EltTy.bits .f32 = 32 ∨ (Rect.block (s := S2x2x6250x128) S1x1x6250x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x6250x128.size a ≤ S2x2x6250x128.size a
  hwx1_2 : ∀ i : grid1.Coords, EltTy.bits .f32 = 32 ∨ (Rect.block (s := S2x2x6250x128) S1x1x6250x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x128.size a ≤ S2x8x128.size a
  hwx1_3 : ∀ i : grid1.Coords, EltTy.bits .f32 = 32 ∨ (Rect.block (s := S2x8x128) S1x8x128.size (cc1_transform_3 i) (hinb1_3 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5000x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v18) S1x1x6250x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x1x6250x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20_0) S1x1x6250x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_1) S1x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S100000x256 : Shape := ⟨2, ![100000, 256]⟩
abbrev S3200000 : Shape := ⟨1, ![3200000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S100000x1 : Shape := ⟨2, ![100000, 1]⟩
abbrev S1x1 : Shape := ⟨2, ![1, 1]⟩
abbrev S100000 : Shape := ⟨1, ![100000]⟩
abbrev S3200000x1 : Shape := ⟨2, ![3200000, 1]⟩
abbrev S3200000x1x1 : Shape := ⟨3, ![3200000, 1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S256x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x1, .f32⟩
  | .hbm, ⟨20, _⟩ => ⟨S1x1, .f32⟩
  | .hbm, ⟨21, _⟩ => ⟨S100000x1, .f32⟩
  | .hbm, ⟨22, _⟩ => ⟨S100000x1, .f32⟩
  | .hbm, ⟨23, _⟩ => ⟨S100000, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x1, .f32⟩
  | .hbm, ⟨32, _⟩ => ⟨S1x1, .f32⟩
  | .hbm, ⟨33, _⟩ => ⟨S100000x1, .f32⟩
  | .hbm, ⟨34, _⟩ => ⟨S100000x1, .f32⟩
  | .hbm, ⟨35, _⟩ => ⟨S100000, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000, .f32⟩
  | .hbm, ⟨54, _⟩ => ⟨S3200000, .f32⟩
  | .hbm, ⟨55, _⟩ => ⟨S3200000, .f32⟩
  | .hbm, ⟨56, _⟩ => ⟨S3200000, .f32⟩
  | .hbm, ⟨57, _⟩ => ⟨S3200000, .f32⟩
  | .hbm, ⟨58, _⟩ => ⟨S3200000, .f32⟩
  | .hbm, ⟨59, _⟩ => ⟨S3200000, .f32⟩
  | .hbm, ⟨60, _⟩ => ⟨S_, .f32⟩
  | .hbm, ⟨61, _⟩ => ⟨S3200000, .f32⟩
  | .hbm, ⟨62, _⟩ => ⟨S3200000, .f32⟩
  | .hbm, ⟨63, _⟩ => ⟨S3200000, .f32⟩
  | .hbm, ⟨64, _⟩ => ⟨S3200000, .f32⟩
  | .hbm, ⟨65, _⟩ => ⟨S_, .f32⟩
  | .hbm, ⟨66, _⟩ => ⟨S3200000, .f32⟩
  | .hbm, ⟨67, _⟩ => ⟨S3200000, .f32⟩
  | .hbm, ⟨68, _⟩ => ⟨S_, .f32⟩
  | .hbm, ⟨69, _⟩ => ⟨S3200000, .f32⟩
  | .hbm, ⟨70, _⟩ => ⟨S3200000, .f32⟩
  | .hbm, ⟨71, _⟩ => ⟨S_, .f32⟩
  | .hbm, ⟨72, _⟩ => ⟨S3200000, .f32⟩
  | .hbm, ⟨73, _⟩ => ⟨S3200000, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S3200000x1x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call1_cst : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_1 : Ref sig .tc := ⟨.hbm, 45, rfl⟩
abbrev main_v27 : Ref sig .tc := ⟨.hbm, 46, rfl⟩
abbrev main_v28 : Ref sig .tc := ⟨.hbm, 47, rfl⟩
abbrev main_c_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000_S_d0 : S3200000.ReducesTo [0] S_
  h_S_ : 0 < S_.numel
  bcast_S3200000_S3200000x1x1_0 : S3200000.BroadcastsInDim S3200000x1x1 (![0] : Fin 1 → Fin S3200000x1x1.rank)
  dot_S100000x256_S256x64_S100000x64_1_0_0_1_n_n_wf : DotDims.WF S100000x256 S256x64 S100000x64 [1] [0] [0] [1] [] []
  dot_S100000x64_S64x1_S100000x1_1_0_0_1_n_n_wf : DotDims.WF S100000x64 S64x1 S100000x1 [1] [0] [0] [1] [] []
  gather_S100000_S3200000x1_S3200000_n_0_n_n_0_1_1_wf : GatherDims.WF S100000 S3200000x1 S3200000 [] [0] [] [0] [] 1 ![1]

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

class Facts : Prop extends Facts₀ where

variable [Facts]
-- ==== Proof.Region0Defs.lean ====
/-
  Region 0 (the node scorer, twenty row blocks of 5000 nodes): what the pipeline needs to know of its body.

  At a parameter `V` — the core's buffer contents when the region is entered — window `w`'s block at grid point `t`
  is the part of its array the index map selects there. The body reads the five input blocks (the 5000×256 rows of
  node features, the fused 256×128 first-layer weights, its 1×128 bias, the block-diagonal 128×2 second-layer weights,
  its 1×2 bias) and stores ONE value into the whole 5000×2 output block: the two-layer perceptron of the rows, written
  here as the body's own arithmetic `k0_pay1` of the five blocks. Nothing is kept between points.
-/
import proofs.«422726_j71648644431894_3_alg».proof.Proof.Gen.KernelIdeal.Launch
import proofs.«422726_j71648644431894_3_alg».proof.Proof.Gen.KernelIdeal.Skeleton
import proofs.«422726_j71648644431894_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows and columns of its array the index map selects there, read off the
    array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: the perceptron of the five input blocks. -/
def out0_5 (x0 : Vec F S5000x256 .f32) (x1 : Vec F S256x128 .f32) (x2 : Vec F S1x128 .f32) (x3 : Vec F S128x2 .f32) (x4 : Vec F S1x2 .f32) :
    Vec F S5000x2 .f32 :=
  k0_pay1 x0 x1 x2 x3 x4

/-- The pipeline's proof data for region 0 on core `c`: the arrays as the region finds them; after the body at point
    `t` every input block in place and the output block at the perceptron of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

end Cert.KernelIdeal.Hand

end
-- ==== Proof.Region1Defs.lean ====
/-
  Region 1 (the edge gate, a 2×2 grid: for each half of the edges, two blocks of 6250×128 edges in turn): what the
  pipeline needs to know of its body.

  At every point the body reads the block of summed scores `w` and the block of noise `e` and stores into the gate's
  output block the logistic of `(log e − log1p(−e) + w) / 0.5` (`gate1`). It keeps ONE number between points, in a 1×1
  scratch: at the first block of a half it sets it to zero and then adds the block's total of `1 − gate`; at the
  second block it adds that block's total to what the first left (`acc1`, by recursion on the point), and then
  stores the number, broadcast over 8×128, into the half's block of the second output (`tot1`). That second output
  is untouched at the first block of a half and written back only after the second.
-/
import proofs.«422726_j71648644431894_3_alg».proof.Proof.Region0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch the kernel carries between points, as a whole memref. -/
abbrev scM1 : Memref sig .tc .vmem S1x1 .f32 := Memref.whole cc1_scratch0

/-- The gate's block from the score block and the noise block. -/
def gate1 (w e : Vec F S1x1x6250x128 .f32) : Vec F S1x1x6250x128 .f32 := k1_pay4 w e

/-- The running total after a block: what was there plus the block's total of `1 − gate`. -/
def step1 (w e : Vec F S1x1x6250x128 .f32) (a : Vec F S1x1 .f32) : Vec F S1x1 .f32 := k1_pay5 w e a

/-- The scratch after point `n`: at the first block of a half (even `n`) the block's total over zero, at the second
    the block's total over what the first left. -/
def acc1 (c : Dev nD) : (n : ℕ) → n < cfg1.N → Vec F S1x1 .f32
  | 0, h => step1 (iblk1 V c 0 ⟨0, h⟩) (iblk1 V c 1 ⟨0, h⟩) (k1_pay2 (F := F))
  | n + 1, h =>
    if (n + 1) % 2 = 0 then step1 (iblk1 V c 0 ⟨n + 1, h⟩) (iblk1 V c 1 ⟨n + 1, h⟩) (k1_pay2 (F := F))
    else step1 (iblk1 V c 0 ⟨n + 1, h⟩) (iblk1 V c 1 ⟨n + 1, h⟩) (acc1 c n (Nat.lt_of_succ_lt h))

/-- The half's block of the second output: the running total broadcast over 8×128. -/
def tot1 (a : Vec F S1x1 .f32) : Vec F S1x8x128 .f32 := k1_pay1 a

/-- The core's scoped buffers that belong neither to region 1's staging nor to its scratch (region 0's staging
    buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region's invariant before point `n`: before the first point the scoped rest and the generator register, as
    the region is entered; after point `n` the same with the scratch at the running total `acc1`. -/
def Phi1 (c : Dev nD) : (n : ℕ) → n ≤ cfg1.N → sProp 𝕄
  | 0, _ => Pipeline.ΦA spec1 c
  | n + 1, hn => iprop(rest1 (F := F) c ∗ owns (c : Thread nD τ) scM1 fullShare (acc1 V c n hn) ∗ (∃ r, prngReg c r))

theorem Phi1_zero (c : Dev nD) (h : 0 ≤ cfg1.N) : Phi1 V c 0 h = Pipeline.ΦA spec1 c := rfl
theorem Phi1_succ (c : Dev nD) (n : ℕ) (hn : n < cfg1.N) :
    Phi1 V c (n + 1) hn = iprop(rest1 (F := F) c ∗ owns (c : Thread nD τ) scM1 fullShare (acc1 V c n hn) ∗ (∃ r, prngReg c r)) := rfl

/-- The pipeline's proof data for region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gate1 (iblk1 V c 0 t) (iblk1 V c 1 t)
    | ⟨3, _⟩ => tot1 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gate1 (iblk1 V c 0 t) (iblk1 V c 1 t) := by dsimp only [dat1]
theorem after1_3 (c : Dev nD) (t : Fin cfg1.N) : (dat1 V c).after 3 t = tot1 (acc1 V c t.val t.isLt) := by dsimp only [dat1]

end Cert.KernelIdeal.Hand

end
-- ==== Proof.RunDefs.lean ====
/-
  The buffer contents at every boundary of `@main`, as a fold from the launch memory: the host operations before the
  node scorer (the weights fused side by side), the scorer's arrays at what its write-backs leave, the two columns
  taken apart, the two index look-ups, their sum laid out by halves and blocks, the edge gate's arrays at what its
  write-backs leave, and the closing host operations (the gates laid flat again, the two halves' totals added and
  divided by the number of edges). Every region's proof data is taken at its own entry contents.
-/
import proofs.«422726_j71648644431894_3_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the node scorer's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the node scorer's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the columns are taken apart, after each look-up, after the sum is laid out (the edge gate's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
/-- At the edge gate's exit. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
/-- After the closing host stretch: what `@main` returns from. -/
abbrev W8 : Dev nD → Valuation τ sig (Elt F) := fun c => StableHlo.after hostOps2 (W7 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c

end Cert.KernelIdeal.Hand

end
-- ==== Proof.Region0Body.lean ====
/- The node scorer's body meets the pipeline's obligation at every grid point. -/
import proofs.«422726_j71648644431894_3_alg».proof.Proof.Region0Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current buffer holds its block at every point, fetched there or not: where it is not
    fetched its block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The body's triple -/

/-- The offsets at which the body loads and stores each whole block, `![0, 0]`, are the zero offsets. -/
theorem hz0_5 : (![0, 0] : Fin S5000x2.rank → Nat) = fun _ => 0 := by
  funext a; fin_cases a <;> rfl

/-- The one store covers the output block. -/
theorem cover0_5 (p : Vec F S5000x2 .f32) (y : S5000x2.Idx) :
    ∃ pc ∈ ([⟨Rect.unit (s := S5000x2) ![0, 0] S5000x2.size inb_S5000x2_S5000x2_0_0, p⟩] : List (View.Piece (Elt F) S5000x2 .f32)), y ∈ pc.1.set :=
  View.cover_of_tiled [⟨Rect.unit (s := S5000x2) ![0, 0] S5000x2.size inb_S5000x2_S5000x2_0_0, p⟩] S5000x2.size (by rfl) y

set_option maxHeartbeats 1000000 in
/-- The kernel body on whole staging memrefs, the five inputs' at read contents `x0 … x4` and the output's at anything,
    runs to the continuation holding the inputs' as they were and the output's at the perceptron of the inputs'. -/
theorem sound_kernel0 (c : Dev nD) (E : Set ℕ) (i : grid0.Coords)
    (arg1 : Memref sig .tc .vmem S5000x256 .f32) (harg1 : arg1.IsWhole)
    (arg2 : Memref sig .tc .vmem S256x128 .f32) (harg2 : arg2.IsWhole)
    (arg3 : Memref sig .tc .vmem S1x128 .f32) (harg3 : arg3.IsWhole)
    (arg4 : Memref sig .tc .vmem S128x2 .f32) (harg4 : arg4.IsWhole)
    (arg5 : Memref sig .tc .vmem S1x2 .f32) (harg5 : arg5.IsWhole)
    (arg6 : Memref sig .tc .vmem S5000x2 .f32) (harg6 : arg6.IsWhole)
    (x0 : Vec F S5000x256 .f32) (x1 : Vec F S256x128 .f32) (x2 : Vec F S1x128 .f32) (x3 : Vec F S128x2 .f32) (x4 : Vec F S1x2 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__node_mlp_kernel i arg1 harg1 arg2 harg2 arg3 harg3 arg4 harg4 arg5 harg5 arg6 harg6) K := by
  simp only [cc0__node_mlp_kernel_eq_skeleton]; unfold cc0__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _), View.canon_unit_zero hz0_5]
  simp only [View.readAt_eq_ld, View.ld_unit_zero (S := S5000x256) hz0_5, View.ld_unit_zero (S := S256x128) hz0_5,
    View.ld_unit_zero (S := S1x128) hz0_5, View.ld_unit_zero (S := S128x2) hz0_5, View.ld_unit_zero (S := S1x2) hz0_5]
  rfl

/-! ## The body obligation, at a generic point -/

/-- What the body is called with at point `t`: the invariant, nothing owed, and each window's current buffer as the
    pipeline hands it over, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the invariant, nothing owed, and each current buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so the kernel's triple applies at the blocks;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- At every point, from the invariant, nothing owed and every window's current buffer as the pipeline hands it over,
    the body runs to the invariant, nothing owed, the inputs in place and the output block at `out0_5` of them. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Body.lean ====
/- The edge gate's body meets the pipeline's obligation at every grid point, its running total carried in the scratch. -/
import proofs.«422726_j71648644431894_3_alg».proof.Proof.Region1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The first conditional's test: the block coordinate is zero. -/
abbrev cond1_0 (i : grid1.Coords) : Prop :=
  (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's test: the block coordinate is one. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs and the gate's output are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the second output is idle and is not written back. -/
theorem idleAt1_3 : ∀ t : Fin cfg1.N, t.val % 2 = 0 → cfg1.idle 3 (grid1.coords t) = true := by decide +kernel
theorem noFlush1_3 : ∀ t : Fin cfg1.N, t.val % 2 = 0 → (cfg1.win 3).flush t = false := by decide +kernel
/-- At an odd point it is live. -/
theorem liveAt1_3 : ∀ t : Fin cfg1.N, t.val % 2 = 1 → cfg1.idle 3 (grid1.coords t) = false := by decide +kernel

/-! ## The invariant on entry, with the scratch as an owned memref -/

theorem PhiA1_elim (c : Dev nD) :
    (Pipeline.ΦA spec1 c : sProp 𝕄)
      ⊢ iprop(rest1 (F := F) c ∗ (∃ d, owns (c : Thread nD τ) scM1 fullShare d) ∗ (∃ r, prngReg c r)) := by
  unfold Pipeline.ΦA; rw [scopedRest1_eq]; unfold rest1; simp only [scM1, owns_whole]
  iintro ⟨⟨H0, H1, H2, H3, H4, H5, H6, H7, HS⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  iexact Hg

theorem PhiA1_intro (c : Dev nD) :
    iprop(rest1 (F := F) c ∗ (∃ d, owns (c : Thread nD τ) scM1 fullShare d) ∗ (∃ r, prngReg c r))
      ⊢ (Pipeline.ΦA spec1 c : sProp 𝕄) := by
  unfold Pipeline.ΦA; rw [scopedRest1_eq]; unfold rest1; simp only [scM1, owns_whole]
  iintro ⟨⟨H0, H1, H2, H3, H4, H5, H6, H7⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- What the region hands the body before the first point: region 0's staging buffers, the scratch at some contents,
    the generator register. -/
theorem PhiA1_eq (c : Dev nD) :
    (Pipeline.ΦA spec1 c : sProp 𝕄)
      = iprop(rest1 (F := F) c ∗ (∃ d, owns (c : Thread nD τ) scM1 fullShare d) ∗ (∃ r, prngReg c r)) :=
  BI.equiv_iff.mp ⟨PhiA1_elim c, PhiA1_intro c⟩

/-! ## Whole-block loads and stores: the zero offsets, however spelt -/

theorem hz2 : (![0, 0] : Fin S1x1.rank → Nat) = fun _ => 0 := funext fun a => by fin_cases a <;> rfl
theorem hz3 : (![0, 0, 0] : Fin S1x8x128.rank → Nat) = fun _ => 0 := funext fun a => by fin_cases a <;> rfl
theorem hz4 : (![0, 0, 0, 0] : Fin S1x1x6250x128.rank → Nat) = fun _ => 0 := funext fun a => by fin_cases a <;> rfl

/-! ## The body's run, case by case -/

set_option maxHeartbeats 1000000 in
/-- At a first block (the first conditional taken, the second not): from the score block `w`, the noise block `e`,
    the gate's buffer and the scratch at anything and the second output's buffer at `x5`, the body runs to the gate's
    buffer at `gate1 w e`, the scratch at the block's total over zero and the second output's buffer untouched. -/
theorem run1_A (c : Dev nD) (i : grid1.Coords)
    (arg2 : Memref sig .tc .vmem S1x1x6250x128 .f32) (harg2 : arg2.IsWhole)
    (arg3 : Memref sig .tc .vmem S1x1x6250x128 .f32) (harg3 : arg3.IsWhole)
    (arg4 : Memref sig .tc .vmem S1x1x6250x128 .f32) (harg4 : arg4.IsWhole)
    (arg5 : Memref sig .tc .vmem S1x8x128 .f32) (harg5 : arg5.IsWhole)
    (arg6 : Memref sig .tc .vmem S1x1 .f32) (harg6 : arg6.IsWhole)
    (hc0 : cond1_0 i) (hc1 : ¬cond1_1 i)
    (w e : Vec F S1x1x6250x128 .f32) (x5 : Vec F S1x8x128 .f32) (E : Set ℕ) (K : PUnit → sProp 𝕄) :
    iprop(owns (c : Thread nD τ) arg2 fullShare w ∗ owns (c : Thread nD τ) arg3 fullShare e
        ∗ (∃ d, owns (c : Thread nD τ) arg4 fullShare d) ∗ owns (c : Thread nD τ) arg5 fullShare x5
        ∗ (∃ d, owns (c : Thread nD τ) arg6 fullShare d)
        ∗ (iprop(owns (c : Thread nD τ) arg2 fullShare w ∗ owns (c : Thread nD τ) arg3 fullShare e
            ∗ owns (c : Thread nD τ) arg4 fullShare (gate1 w e) ∗ owns (c : Thread nD τ) arg5 fullShare x5
            ∗ owns (c : Thread nD τ) arg6 fullShare (step1 w e (k1_pay2 (F := F)))) -∗ K ⟨⟩))
      ⊢ wp frame (wpE (defs₀ (F := F)) Variants.none c none) E (cc1__edge_kernel i arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero hz4 inb_S1x1x6250x128_S1x1x6250x128_0_0_0_0 y⟩)]
    rw [View.canon_unit_zero hz4]
    simp only [View.readAt_eq_ld, harg2.read_unread, harg3.read_unread, View.ld_unit_zero (S := S1x1x6250x128) hz4]
    rfl
  isplitl [H3]
  · iexists _; isplitr; · ipureintro; exact harg5.read_unread _
    iexact H3
  iexists _; isplitr
  swap; · iexact HS
  ipureintro
  rw [View.read_writes_eq_canon _ _ _ (fun y => ⟨_, List.mem_cons_self, View.mem_set_unit_zero hz2 inb_S1x1_S1x1_0_0 y⟩)]
  sl_unfold_words
  rw [View.canon_cons_unit_zero (S := S1x1) hz2]
  simp only [View.readAt_eq_ld, harg2.read_unread, harg3.read_unread, View.ld_unit_zero (S := S1x1x6250x128) hz4, View.readCov_unit_zero (S := S1x1) _ hz2]
  rfl

set_option maxHeartbeats 1000000 in
/-- At a second block (the first conditional not taken, the second taken): from the score block `w`, the noise block
    `e`, the two outputs' buffers at anything and the scratch at `a`, the body runs to the gate's buffer at
    `gate1 w e`, the scratch at `a` plus the block's total, and the second output's buffer at that number broadcast. -/
theorem run1_B (c : Dev nD) (i : grid1.Coords)
    (arg2 : Memref sig .tc .vmem S1x1x6250x128 .f32) (harg2 : arg2.IsWhole)
    (arg3 : Memref sig .tc .vmem S1x1x6250x128 .f32) (harg3 : arg3.IsWhole)
    (arg4 : Memref sig .tc .vmem S1x1x6250x128 .f32) (harg4 : arg4.IsWhole)
    (arg5 : Memref sig .tc .vmem S1x8x128 .f32) (harg5 : arg5.IsWhole)
    (arg6 : Memref sig .tc .vmem S1x1 .f32) (harg6 : arg6.IsWhole)
    (hc0 : ¬cond1_0 i) (hc1 : cond1_1 i)
    (w e : Vec F S1x1x6250x128 .f32) (a : Vec F S1x1 .f32) (E : Set ℕ) (K : PUnit → sProp 𝕄) :
    iprop(owns (c : Thread nD τ) arg2 fullShare w ∗ owns (c : Thread nD τ) arg3 fullShare e
        ∗ (∃ d, owns (c : Thread nD τ) arg4 fullShare d) ∗ (∃ d, owns (c : Thread nD τ) arg5 fullShare d)
        ∗ owns (c : Thread nD τ) arg6 fullShare a
        ∗ (iprop(owns (c : Thread nD τ) arg2 fullShare w ∗ owns (c : Thread nD τ) arg3 fullShare e
            ∗ owns (c : Thread nD τ) arg4 fullShare (gate1 w e) ∗ owns (c : Thread nD τ) arg5 fullShare (tot1 (step1 w e a))
            ∗ owns (c : Thread nD τ) arg6 fullShare (step1 w e a)) -∗ K ⟨⟩))
      ⊢ wp frame (wpE (defs₀ (F := F)) Variants.none c none) E (cc1__edge_kernel i arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero hz4 inb_S1x1x6250x128_S1x1x6250x128_0_0_0_0 y⟩)]
    rw [View.canon_unit_zero hz4]
    simp only [View.readAt_eq_ld, harg2.read_unread, harg3.read_unread, View.ld_unit_zero (S := S1x1x6250x128) hz4]
    rfl
  isplitl [H3]
  · iexists _; isplitr
    swap; · iexact H3
    ipureintro
    sl_unfold_words
    rw [View.read_writes_eq_canon _ _ _ (fun y => ⟨_, List.mem_cons_self, View.mem_set_unit_zero hz3 inb_S1x8x128_S1x8x128_0_0_0 y⟩)]
    rw [View.canon_unit_zero hz3]
    simp only [View.readAt_eq_ld, harg2.read_unread, harg3.read_unread, harg6.read_unread, View.ld_unit_zero (S := S1x1x6250x128) hz4, View.ld_unit_zero (S := S1x1) hz2, View.readCov_unit_zero (S := S1x1) _ hz2]
    rfl
  iexists _; isplitr
  swap; · iexact HS
  ipureintro
  sl_unfold_words
  rw [View.read_writes_eq_canon _ _ _ (fun y => ⟨_, List.mem_cons_self, View.mem_set_unit_zero hz2 inb_S1x1_S1x1_0_0 y⟩)]
  rw [View.canon_unit_zero hz2]
  simp only [View.readAt_eq_ld, harg2.read_unread, harg3.read_unread, harg6.read_unread, View.ld_unit_zero (S := S1x1x6250x128) hz4, View.ld_unit_zero (S := S1x1) hz2]
  rfl

/-! ## What the body finds and what the recursion leaves -/

/-- The score block is fetched at every point: its buffer holds the block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)

/-- So is the noise block. -/
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-- The running total after a first block: the block's total over zero. -/
theorem acc1_even (c : Dev nD) (t : Fin cfg1.N) (h : t.val % 2 = 0) :
    acc1 V c t.val t.isLt = step1 (iblk1 V c 0 t) (iblk1 V c 1 t) (k1_pay2 (F := F)) := by
  obtain ⟨n, hn⟩ := t
  cases n with
  | zero => rfl
  | succ n => exact if_pos h

/-- The running total after a second block: the block's total over what the first block left. -/
theorem acc1_odd (c : Dev nD) (t : Fin cfg1.N) (h : t.val % 2 = 1) :
    acc1 V c t.val t.isLt
      = step1 (iblk1 V c 0 t) (iblk1 V c 1 t) (acc1 V c (t.val - 1) (Nat.lt_of_le_of_lt (Nat.sub_le _ _) t.isLt)) := by
  obtain ⟨n, hn⟩ := t
  cases n with
  | zero => exfalso; dsimp only at h; omega
  | succ n => exact if_neg (fun h0 => by dsimp only at h h0; omega)

/-- Before a point that is not the first the scratch holds what the point before left. -/
theorem Phi1_pos (c : Dev nD) (n : ℕ) (h : n ≤ cfg1.N) (hz : n ≠ 0) :
    Phi1 V c n h = iprop(rest1 (F := F) c ∗ owns (c : Thread nD τ) scM1 fullShare (acc1 V c (n - 1) (by omega)) ∗ (∃ r, prngReg c r)) := by
  cases n with
  | zero => exact absurd rfl hz
  | succ n => rfl

/-- Before any point the invariant gives the scratch at some contents. -/
theorem Phi1_any (c : Dev nD) (n : ℕ) (h : n ≤ cfg1.N) :
    Phi1 V c n h ⊢ iprop(rest1 (F := F) c ∗ (∃ d, owns (c : Thread nD τ) scM1 fullShare d) ∗ (∃ r, prngReg c r)) := by
  cases n with
  | zero => exact PhiA1_elim c
  | succ n =>
    rw [Phi1_succ]
    iintro ⟨Hr, HS, Hg⟩
    isplitl [Hr]; · iexact Hr
    isplitl [HS]; · iexists _; iexact HS
    iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The input buffers hold their blocks. At a first block the scratch is taken at whatever it
    holds and left at the block's total over zero, the second output's buffer handed back as found; at a second block the
    scratch is taken at what the first block left and left at the sum, which the second output's buffer receives. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).Φ t.castSucc = Phi1 V c t.val (Nat.le_of_lt t.isLt) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 4 := lt_of_lt_of_eq t.isLt (show cfg1.N = 4 from N_1)
  by_cases h0 : t.val % 2 = 0
  · have h1 : ¬t.val % 2 = 1 := by omega
    rw [Dat.leavesExact_idle (dat1 V c) 3 t (idleAt1_3 t h0) (noFlush1_3 t h0)]
    rw [acc1_even V c t h0]
    refine (sep_mono_left (Phi1_any V c t.val _)).trans ?_
    iintro ⟨⟨Hr, HS, Hg⟩, Ho, ⟨%d0, H0⟩, ⟨%d1, H1⟩, ⟨%d2, H2⟩, ⟨%d3, H3⟩⟩
    iapply (run1_A c (grid1.coords t) _ _ _ _ _ _ _ _ _ _ ((hcond1_0 t).mpr h0) (fun h => h1 ((hcond1_1 t).mp h))
      (iblk1 V c 0 t) (iblk1 V c 1 t) ((dat1 V c).before 3 t d3) Set.univ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (st1_3 t) fullShare ((dat1 V c).after 3 t) from by
      unfold Dat.leavesExact; rw [liveAt1_3 t h1], after1_3]
    rw [acc1_odd V c t h1, Phi1_pos V c _ _ hz]
    iintro ⟨⟨Hr, HS, Hg⟩, Ho, ⟨%d0, H0⟩, ⟨%d1, H1⟩, ⟨%d2, H2⟩, ⟨%d3, H3⟩⟩
    iapply (run1_B c (grid1.coords t) _ _ _ _ _ _ _ _ _ _ (fun h => h0 ((hcond1_0 t).mp h)) ((hcond1_1 t).mpr h1)
      (iblk1 V c 0 t) (iblk1 V c 1 t) (acc1 V c (t.val - 1) (Nat.lt_of_le_of_lt (Nat.sub_le _ _) t.isLt)) Set.univ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

/-- Before the first point the invariant is the scoped rest and the generator register, as the region is entered. -/
theorem Phi1_first (c : Dev nD) : (dat1 (F := F) V c).Φ 0 = Pipeline.ΦA spec1 c := rfl

/-- After the last point the invariant gives the scoped rest (the scratch at some contents again) and the generator
    register back. -/
theorem Phi1_last (c : Dev nD) : (dat1 (F := F) V c).Φ (Fin.last _) ⊢ (Pipeline.ΦA spec1 c : sProp 𝕄) := by
  rw [show (dat1 V c).Φ (Fin.last _) = Phi1 V c (Fin.last cfg1.N).val (Nat.le_of_lt_succ (Fin.last cfg1.N).isLt) from rfl]
  exact (Phi1_any V c _ _).trans (PhiA1_intro c)

end Cert.KernelIdeal.Hand

end
-- ==== Proof.Run.lean ====
/- The launch: `@main` as host stretches and the two kernel regions in order, every unscoped buffer read at the end. -/
import proofs.«422726_j71648644431894_3_alg».proof.Proof.RunDefs
import proofs.«422726_j71648644431894_3_alg».proof.Proof.Region0Body
import proofs.«422726_j71648644431894_3_alg».proof.Proof.Region1Body
import proofs.«422726_j71648644431894_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each boundary leaves of a buffer no host stretch writes and no region has for an array -/

/-- At a region's exit each of its arrays holds what the pipeline leaves and every other buffer what it held at entry. -/
theorem runF0 (c : Dev nD) (w : Fin cfg0.W) : (dat0 (V1 m) c).arrAt w cfg0.N = V2 m c (Pipeline.arrRef spec0 w) :=
  (W2_arr m c w).symm
theorem runRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem runF1 (c : Dev nD) (w : Fin cfg1.W) : (dat1 (V6 m) c).arrAt w cfg1.N = V7 m c (Pipeline.arrRef spec1 w) :=
  (W7_arr m c w).symm
theorem runRest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-- A buffer that no host stretch writes and that is an array of neither region ends as launched: the fold walked
    back boundary by boundary. -/
theorem W8_of_untouched (c : Dev nD) (r : Ref sig .tc)
    (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc)))
    (h13 : r ∉ (hostOps1_3_W : List (Ref sig .tc))) (h2 : r ∉ (hostOps2_W : List (Ref sig .tc)))
    (hr0 : ∀ w, Pipeline.arrRef spec0 w ≠ r) (hr1 : ∀ w, Pipeline.arrRef spec1 w ≠ r) :
    W8 m c (Proc.devRef .tc r) = m ((c : Thread nD τ).loc r) :=
  calc W8 m c (Proc.devRef .tc r)
    _ = W7 m c (Proc.devRef .tc r) := StableHlo.after_of_writes_sub hostOps2 _ hostOps2_writes h2
    _ = W6 m c (Proc.devRef .tc r) := W7_of_ne m c r hr1
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

/-! ## The thread state -/

abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its dues,
    at nothing. -/
abbrev runR (c : Dev nD) : sProp 𝕄 := iprop((∃ r, prngReg c r) ∗ ∃ W, owes (c : Thread nD τ) (0 : CellTallies nD τ sig Unit) W)
/-- A host stretch as a segment over the unscoped references from the contents `W`, `runR` riding along. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- The last thread state without the dues: every unscoped buffer at the last boundary's contents, the generator
    register at some state. -/
abbrev runTn (c : Dev nD) : sProp 𝕄 := iprop(StableHlo.held (c : Thread nD τ) (Pipeline.ucRefs τ sig) (W8 m c) ∗ ∃ r, prngReg c r)

set_option backward.isDefEq.respectTransparency.types false in
/-- Region 0 over the thread state: entered from every unscoped buffer at `W1`, left at `W2`. Its arrays are
    split out of the unscoped buffers and put back at the exit contents; the generator register goes into the
    invariant and comes back; nothing is owed; the kernel has no semaphore of its own. -/
def runReg0 : Pipeline.RegionSeg (pcfgs (F := F)) adm (pdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ runL runLv 0 fun _ _ => rfl
  pre c := iprop(StableHlo.held (c : Thread nD τ) (Pipeline.ucRefs τ sig) (W1 m c) ∗ runR c)
  post c := iprop(StableHlo.held (c : Thread nD τ) (Pipeline.ucRefs τ sig) (W2 m c) ∗ runR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (runF0 m c) (runRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are
    split out of the unscoped buffers and put back at the exit contents; the generator register goes into the
    invariant and comes back; nothing is owed; the kernel has no semaphore of its own. -/
def runReg1 : Pipeline.RegionSeg (pcfgs (F := F)) adm (pdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ runL runLv 1 fun _ _ => rfl
  pre c := iprop(StableHlo.held (c : Thread nD τ) (Pipeline.ucRefs τ sig) (W6 m c) ∗ runR c)
  post c := iprop(StableHlo.held (c : Thread nD τ) (Pipeline.ucRefs τ sig) (W7 m c) ∗ runR c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V6 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (V6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (runF1 m c) (runRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order: a host segment per stretch from its boundary's contents, a region per kernel. -/
abbrev runSegs : List (Pipeline.Seg (pcfgs (F := F)) adm (pdats m) () defs₀ run𝒱 runL runLv) :=
  [ .host (runHseg hostOps0 hostOps0_sub hostOps0_fresh (W0 m)),
    .region (runReg0 m),
    .host (runHseg hostOps1 hostOps1_sub hostOps1_fresh (W2 m)),
    .host (runHseg hostOps1_1 hostOps1_1_sub hostOps1_1_fresh (W3 m)),
    .host (runHseg hostOps1_2 hostOps1_2_sub hostOps1_2_fresh (W4 m)),
    .host (runHseg hostOps1_3 hostOps1_3_sub hostOps1_3_fresh (W5 m)),
    .region (runReg1 m),
    .host (runHseg hostOps2 hostOps2_sub hostOps2_fresh (W7 m)) ]

set_option backward.isDefEq.respectTransparency.types false in
/-- Every weakly fair execution of `@main` from `m` with zero counters terminates, and every unscoped buffer of every
    core ends at the last boundary's contents `W8`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) adm (pdats m) () cellOf_inj emb₁ defs₀ run𝒱 runL runLv m ρ main (runSegs m)
    (fun c Q => by
      rewrite [main_chain c, Pipeline.Seg.run_eq_chain,
        show (runSegs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runR c)) (Tₙ := runTn m)
    (hch := ⟨fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W8 m c) ∗ runR c)
          ⊢ iprop(runTn m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The node features are the node scorer's first input window: the pipeline leaves an input's array as it found it, and
    no host stretch writes it, nor is it an array of the edge gate. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- No host operation writes an argument and no other argument is an array of either region: at the end it holds
    its launch contents. -/
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_of_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_of_untouched m c main_arg5 (by decide) (by decide) (by decide) (by decide) (by decide) (by decide) (by decide) (by decide)
theorem W8_main_arg6 (c : Dev nD) : W8 m c (Proc.devRef .tc main_arg6) = m ((c : Thread nD τ).loc main_arg6) :=
  W8_of_untouched m c main_arg6 (by decide) (by decide) (by decide) (by decide) (by decide) (by decide) (by decide) (by decide)
theorem W8_main_arg7 (c : Dev nD) : W8 m c (Proc.devRef .tc main_arg7) = m ((c : Thread nD τ).loc main_arg7) :=
  W8_of_untouched m c main_arg7 (by decide) (by decide) (by decide) (by decide) (by decide) (by decide) (by decide) (by decide)
theorem W8_main_arg8 (c : Dev nD) : W8 m c (Proc.devRef .tc main_arg8) = m ((c : Thread nD τ).loc main_arg8) :=
  W8_of_untouched m c main_arg8 (by decide) (by decide) (by decide) (by decide) (by decide) (by decide) (by decide) (by decide)
theorem W8_main_arg9 (c : Dev nD) : W8 m c (Proc.devRef .tc main_arg9) = m ((c : Thread nD τ).loc main_arg9) :=
  W8_of_untouched m c main_arg9 (by decide) (by decide) (by decide) (by decide) (by decide) (by decide) (by decide) (by decide)
theorem W8_main_arg10 (c : Dev nD) : W8 m c (Proc.devRef .tc main_arg10) = m ((c : Thread nD τ).loc main_arg10) :=
  W8_of_untouched m c main_arg10 (by decide) (by decide) (by decide) (by decide) (by decide) (by decide) (by decide) (by decide)
theorem W8_main_arg11 (c : Dev nD) : W8 m c (Proc.devRef .tc main_arg11) = m ((c : Thread nD τ).loc main_arg11) :=
  W8_of_untouched m c main_arg11 (by decide) (by decide) (by decide) (by decide) (by decide) (by decide) (by decide) (by decide)

end Cert.KernelIdeal.Hand

end
-- ==== Proof.Frame.lean ====
/- The frame: every argument array ends as launched, read off the run's last boundary. -/
import proofs.«422726_j71648644431894_3_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of `@main` terminates, nothing faulting, and every argument array holds its launch
    contents at the end: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c)⟩)
    (run_all m ρ)

end Cert.KernelIdeal.Hand

end
-- ==== Proof.KRegion0Defs.lean ====
/-
  Region 0 (the node scorer, twenty row blocks of 5000 nodes): what the pipeline needs to know of its body.

  At a parameter `V` — the core's buffer contents when the region is entered — window `w`'s block at grid point `t`
  is the part of its array the index map selects there. The body reads the five input blocks (the 5000×256 rows of
  node features, the fused 256×128 first-layer weights, its 1×128 bias, the block-diagonal 128×2 second-layer weights,
  its 1×2 bias) and stores ONE value into the whole 5000×2 output block: the two-layer perceptron of the rows, written
  here as the body's own arithmetic `k0_pay1` of the five blocks. Nothing is kept between points.
-/
import proofs.«422726_j71648644431894_3_alg».proof.Proof.Gen.Kernel.Launch
import proofs.«422726_j71648644431894_3_alg».proof.Proof.Gen.Kernel.Skeleton
import proofs.«422726_j71648644431894_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`: the rows and columns of its array the index map selects there, read off the
    array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the body leaves in the output block: the perceptron of the five input blocks. -/
def out0_5 (x0 : Vec F S5000x256 .f32) (x1 : Vec F S256x128 .f32) (x2 : Vec F S1x128 .f32) (x3 : Vec F S128x2 .f32) (x4 : Vec F S1x2 .f32) :
    Vec F S5000x2 .f32 :=
  k0_pay1 x0 x1 x2 x3 x4

/-- The pipeline's proof data for region 0 on core `c`: the arrays as the region finds them; after the body at point
    `t` every input block in place and the output block at the perceptron of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by
  dsimp only [dat0]

end Cert.Kernel.Hand

end
-- ==== Proof.KRegion1Defs.lean ====
/-
  Region 1 (the edge gate, a 2×2 grid: for each half of the edges, two blocks of 6250×128 edges in turn): what the
  pipeline needs to know of its body.

  At every point the body reads the block of summed scores `w` and the block of noise `e` and stores into the gate's
  output block the logistic of `(log e − log1p(−e) + w) / 0.5` (`gate1`). It keeps ONE number between points, in a 1×1
  scratch: at the first block of a half it sets it to zero and then adds the block's total of `1 − gate`; at the
  second block it adds that block's total to what the first left (`acc1`, by recursion on the point), and then
  stores the number, broadcast over 8×128, into the half's block of the second output (`tot1`). That second output
  is untouched at the first block of a half and written back only after the second.
-/
import proofs.«422726_j71648644431894_3_alg».proof.Proof.KRegion0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch the kernel carries between points, as a whole memref. -/
abbrev scM1 : Memref sig .tc .vmem S1x1 .f32 := Memref.whole cc1_scratch0

/-- The gate's block from the score block and the noise block. -/
def gate1 (w e : Vec F S1x1x6250x128 .f32) : Vec F S1x1x6250x128 .f32 := k1_pay4 w e

/-- The running total after a block: what was there plus the block's total of `1 − gate`. -/
def step1 (w e : Vec F S1x1x6250x128 .f32) (a : Vec F S1x1 .f32) : Vec F S1x1 .f32 := k1_pay5 w e a

/-- The scratch after point `n`: at the first block of a half (even `n`) the block's total over zero, at the second
    the block's total over what the first left. -/
def acc1 (c : Dev nD) : (n : ℕ) → n < cfg1.N → Vec F S1x1 .f32
  | 0, h => step1 (iblk1 V c 0 ⟨0, h⟩) (iblk1 V c 1 ⟨0, h⟩) (k1_pay2 (F := F))
  | n + 1, h =>
    if (n + 1) % 2 = 0 then step1 (iblk1 V c 0 ⟨n + 1, h⟩) (iblk1 V c 1 ⟨n + 1, h⟩) (k1_pay2 (F := F))
    else step1 (iblk1 V c 0 ⟨n + 1, h⟩) (iblk1 V c 1 ⟨n + 1, h⟩) (acc1 c n (Nat.lt_of_succ_lt h))

/-- The half's block of the second output: the running total broadcast over 8×128. -/
def tot1 (a : Vec F S1x1 .f32) : Vec F S1x8x128 .f32 := k1_pay1 a

/-- The core's scoped buffers that belong neither to region 1's staging nor to its scratch (region 0's staging
    buffers), each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f))

/-- The region's invariant before point `n`: before the first point the scoped rest and the generator register, as
    the region is entered; after point `n` the same with the scratch at the running total `acc1`. -/
def Phi1 (c : Dev nD) : (n : ℕ) → n ≤ cfg1.N → sProp 𝕄
  | 0, _ => Pipeline.ΦA spec1 c
  | n + 1, hn => iprop(rest1 (F := F) c ∗ owns (c : Thread nD τ) scM1 fullShare (acc1 V c n hn) ∗ (∃ r, prngReg c r))

theorem Phi1_zero (c : Dev nD) (h : 0 ≤ cfg1.N) : Phi1 V c 0 h = Pipeline.ΦA spec1 c := rfl
theorem Phi1_succ (c : Dev nD) (n : ℕ) (hn : n < cfg1.N) :
    Phi1 V c (n + 1) hn = iprop(rest1 (F := F) c ∗ owns (c : Thread nD τ) scM1 fullShare (acc1 V c n hn) ∗ (∃ r, prngReg c r)) := rfl

/-- The pipeline's proof data for region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gate1 (iblk1 V c 0 t) (iblk1 V c 1 t)
    | ⟨3, _⟩ => tot1 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gate1 (iblk1 V c 0 t) (iblk1 V c 1 t) := by dsimp only [dat1]
theorem after1_3 (c : Dev nD) (t : Fin cfg1.N) : (dat1 V c).after 3 t = tot1 (acc1 V c t.val t.isLt) := by dsimp only [dat1]

end Cert.Kernel.Hand

end
-- ==== Proof.KRunDefs.lean ====
/-
  The buffer contents at every boundary of `@main`, as a fold from the launch memory: the host operations before the
  node scorer (the weights fused side by side), the scorer's arrays at what its write-backs leave, the two columns
  taken apart, the two index look-ups, their sum laid out by halves and blocks, the edge gate's arrays at what its
  write-backs leave, and the closing host operations (the gates laid flat again, the two halves' totals added and
  divided by the number of edges). Every region's proof data is taken at its own entry contents.
-/
import proofs.«422726_j71648644431894_3_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the node scorer's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the node scorer's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the columns are taken apart, after each look-up, after the sum is laid out (the edge gate's entry). -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev V6 : (c : Dev nD) → (b : Ref sig .tc) → Buf (Elt F) ((c : Thread nD τ).loc b) := fun c b => W6 m c b
/-- At the edge gate's exit. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
/-- After the closing host stretch: what `@main` returns from. -/
abbrev W8 : Dev nD → Valuation τ sig (Elt F) := fun c => StableHlo.after hostOps2 (W7 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-- No pipeline has a prefetched table. -/
abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c

end Cert.Kernel.Hand

end
-- ==== Proof.KRegion0Body.lean ====
/- The node scorer's body meets the pipeline's obligation at every grid point. -/
import proofs.«422726_j71648644431894_3_alg».proof.Proof.KRegion0Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's current buffer holds its block at every point, fetched there or not: where it is not
    fetched its block index has not moved, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The body's triple -/

/-- The offsets at which the body loads and stores each whole block, `![0, 0]`, are the zero offsets. -/
theorem hz0_5 : (![0, 0] : Fin S5000x2.rank → Nat) = fun _ => 0 := by
  funext a; fin_cases a <;> rfl

/-- The one store covers the output block. -/
theorem cover0_5 (p : Vec F S5000x2 .f32) (y : S5000x2.Idx) :
    ∃ pc ∈ ([⟨Rect.unit (s := S5000x2) ![0, 0] S5000x2.size inb_S5000x2_S5000x2_0_0, p⟩] : List (View.Piece (Elt F) S5000x2 .f32)), y ∈ pc.1.set :=
  View.cover_of_tiled [⟨Rect.unit (s := S5000x2) ![0, 0] S5000x2.size inb_S5000x2_S5000x2_0_0, p⟩] S5000x2.size (by rfl) y

set_option maxHeartbeats 1000000 in
/-- The kernel body on whole staging memrefs, the five inputs' at read contents `x0 … x4` and the output's at anything,
    runs to the continuation holding the inputs' as they were and the output's at the perceptron of the inputs'. -/
theorem sound_kernel0 (c : Dev nD) (E : Set ℕ) (i : grid0.Coords)
    (arg1 : Memref sig .tc .vmem S5000x256 .f32) (harg1 : arg1.IsWhole)
    (arg2 : Memref sig .tc .vmem S256x128 .f32) (harg2 : arg2.IsWhole)
    (arg3 : Memref sig .tc .vmem S1x128 .f32) (harg3 : arg3.IsWhole)
    (arg4 : Memref sig .tc .vmem S128x2 .f32) (harg4 : arg4.IsWhole)
    (arg5 : Memref sig .tc .vmem S1x2 .f32) (harg5 : arg5.IsWhole)
    (arg6 : Memref sig .tc .vmem S5000x2 .f32) (harg6 : arg6.IsWhole)
    (x0 : Vec F S5000x256 .f32) (x1 : Vec F S256x128 .f32) (x2 : Vec F S1x128 .f32) (x3 : Vec F S128x2 .f32) (x4 : Vec F S1x2 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__node_mlp_kernel i arg1 harg1 arg2 harg2 arg3 harg3 arg4 harg4 arg5 harg5 arg6 harg6) K := by
  simp only [cc0__node_mlp_kernel_eq_skeleton]; unfold cc0__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover0_5 _), View.canon_unit_zero hz0_5]
  simp only [View.readAt_eq_ld, View.ld_unit_zero (S := S5000x256) hz0_5, View.ld_unit_zero (S := S256x128) hz0_5,
    View.ld_unit_zero (S := S1x128) hz0_5, View.ld_unit_zero (S := S128x2) hz0_5, View.ld_unit_zero (S := S1x2) hz0_5]
  rfl

/-! ## The body obligation, at a generic point -/

/-- What the body is called with at point `t`: the invariant, nothing owed, and each window's current buffer as the
    pipeline hands it over, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: the invariant, nothing owed, and each current buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, so the kernel's triple applies at the blocks;
    the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- At every point, from the invariant, nothing owed and every window's current buffer as the pipeline hands it over,
    the body runs to the invariant, nothing owed, the inputs in place and the output block at `out0_5` of them. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Body.lean ====
/- The edge gate's body meets the pipeline's obligation at every grid point, its running total carried in the scratch. -/
import proofs.«422726_j71648644431894_3_alg».proof.Proof.KRegion1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The first conditional's test: the block coordinate is zero. -/
abbrev cond1_0 (i : grid1.Coords) : Prop :=
  (Scalar.cmpi .ne (Scalar.extui (Scalar.cmpi .eq (BitVec.ofNat 32 (i 1).val) 0#32)) 0#32) = 1#1
/-- It holds at the even points. -/
theorem hcond1_0 : ∀ t : Fin cfg1.N, cond1_0 (grid1.coords t) ↔ t.val % 2 = 0 :=
  (by decide +kernel : ∀ t : Fin grid1.N, cond1_0 (grid1.coords t) ↔ t.val % 2 = 0)

/-- The second conditional's test: the block coordinate is one. -/
abbrev cond1_1 (i : grid1.Coords) : Prop := k1_cond2 i = 1#1
/-- It holds at the odd points. -/
theorem hcond1_1 : ∀ t : Fin cfg1.N, cond1_1 (grid1.coords t) ↔ t.val % 2 = 1 :=
  (by decide +kernel : ∀ t : Fin grid1.N, cond1_1 (grid1.coords t) ↔ t.val % 2 = 1)

/-- The inputs and the gate's output are live at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At an even point the second output is idle and is not written back. -/
theorem idleAt1_3 : ∀ t : Fin cfg1.N, t.val % 2 = 0 → cfg1.idle 3 (grid1.coords t) = true := by decide +kernel
theorem noFlush1_3 : ∀ t : Fin cfg1.N, t.val % 2 = 0 → (cfg1.win 3).flush t = false := by decide +kernel
/-- At an odd point it is live. -/
theorem liveAt1_3 : ∀ t : Fin cfg1.N, t.val % 2 = 1 → cfg1.idle 3 (grid1.coords t) = false := by decide +kernel

/-! ## The invariant on entry, with the scratch as an owned memref -/

theorem PhiA1_elim (c : Dev nD) :
    (Pipeline.ΦA spec1 c : sProp 𝕄)
      ⊢ iprop(rest1 (F := F) c ∗ (∃ d, owns (c : Thread nD τ) scM1 fullShare d) ∗ (∃ r, prngReg c r)) := by
  unfold Pipeline.ΦA; rw [scopedRest1_eq]; unfold rest1; simp only [scM1, owns_whole]
  iintro ⟨⟨H0, H1, H2, H3, H4, H5, H6, H7, HS⟩, Hg⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS]; · iexact HS
  iexact Hg

theorem PhiA1_intro (c : Dev nD) :
    iprop(rest1 (F := F) c ∗ (∃ d, owns (c : Thread nD τ) scM1 fullShare d) ∗ (∃ r, prngReg c r))
      ⊢ (Pipeline.ΦA spec1 c : sProp 𝕄) := by
  unfold Pipeline.ΦA; rw [scopedRest1_eq]; unfold rest1; simp only [scM1, owns_whole]
  iintro ⟨⟨H0, H1, H2, H3, H4, H5, H6, H7⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- What the region hands the body before the first point: region 0's staging buffers, the scratch at some contents,
    the generator register. -/
theorem PhiA1_eq (c : Dev nD) :
    (Pipeline.ΦA spec1 c : sProp 𝕄)
      = iprop(rest1 (F := F) c ∗ (∃ d, owns (c : Thread nD τ) scM1 fullShare d) ∗ (∃ r, prngReg c r)) :=
  BI.equiv_iff.mp ⟨PhiA1_elim c, PhiA1_intro c⟩

/-! ## Whole-block loads and stores: the zero offsets, however spelt -/

theorem hz2 : (![0, 0] : Fin S1x1.rank → Nat) = fun _ => 0 := funext fun a => by fin_cases a <;> rfl
theorem hz3 : (![0, 0, 0] : Fin S1x8x128.rank → Nat) = fun _ => 0 := funext fun a => by fin_cases a <;> rfl
theorem hz4 : (![0, 0, 0, 0] : Fin S1x1x6250x128.rank → Nat) = fun _ => 0 := funext fun a => by fin_cases a <;> rfl

/-! ## The body's run, case by case -/

set_option maxHeartbeats 1000000 in
/-- At a first block (the first conditional taken, the second not): from the score block `w`, the noise block `e`,
    the gate's buffer and the scratch at anything and the second output's buffer at `x5`, the body runs to the gate's
    buffer at `gate1 w e`, the scratch at the block's total over zero and the second output's buffer untouched. -/
theorem run1_A (c : Dev nD) (i : grid1.Coords)
    (arg2 : Memref sig .tc .vmem S1x1x6250x128 .f32) (harg2 : arg2.IsWhole)
    (arg3 : Memref sig .tc .vmem S1x1x6250x128 .f32) (harg3 : arg3.IsWhole)
    (arg4 : Memref sig .tc .vmem S1x1x6250x128 .f32) (harg4 : arg4.IsWhole)
    (arg5 : Memref sig .tc .vmem S1x8x128 .f32) (harg5 : arg5.IsWhole)
    (arg6 : Memref sig .tc .vmem S1x1 .f32) (harg6 : arg6.IsWhole)
    (hc0 : cond1_0 i) (hc1 : ¬cond1_1 i)
    (w e : Vec F S1x1x6250x128 .f32) (x5 : Vec F S1x8x128 .f32) (E : Set ℕ) (K : PUnit → sProp 𝕄) :
    iprop(owns (c : Thread nD τ) arg2 fullShare w ∗ owns (c : Thread nD τ) arg3 fullShare e
        ∗ (∃ d, owns (c : Thread nD τ) arg4 fullShare d) ∗ owns (c : Thread nD τ) arg5 fullShare x5
        ∗ (∃ d, owns (c : Thread nD τ) arg6 fullShare d)
        ∗ (iprop(owns (c : Thread nD τ) arg2 fullShare w ∗ owns (c : Thread nD τ) arg3 fullShare e
            ∗ owns (c : Thread nD τ) arg4 fullShare (gate1 w e) ∗ owns (c : Thread nD τ) arg5 fullShare x5
            ∗ owns (c : Thread nD τ) arg6 fullShare (step1 w e (k1_pay2 (F := F)))) -∗ K ⟨⟩))
      ⊢ wp frame (wpE (defs₀ (F := F)) Variants.none c none) E (cc1__edge_kernel i arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%d2, %f2, -, H2⟩, ⟨%f3, %hf3, H3⟩, ⟨%ds, %fs, -, HS⟩, Hk⟩
  obtain rfl := harg2.eq_unread hf0; obtain rfl := harg3.eq_unread hf1; obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero hz4 inb_S1x1x6250x128_S1x1x6250x128_0_0_0_0 y⟩)]
    rw [View.canon_unit_zero hz4]
    simp only [View.readAt_eq_ld, harg2.read_unread, harg3.read_unread, View.ld_unit_zero (S := S1x1x6250x128) hz4]
    rfl
  isplitl [H3]
  · iexists _; isplitr; · ipureintro; exact harg5.read_unread _
    iexact H3
  iexists _; isplitr
  swap; · iexact HS
  ipureintro
  rw [View.read_writes_eq_canon _ _ _ (fun y => ⟨_, List.mem_cons_self, View.mem_set_unit_zero hz2 inb_S1x1_S1x1_0_0 y⟩)]
  sl_unfold_words
  rw [View.canon_cons_unit_zero (S := S1x1) hz2]
  simp only [View.readAt_eq_ld, harg2.read_unread, harg3.read_unread, View.ld_unit_zero (S := S1x1x6250x128) hz4, View.readCov_unit_zero (S := S1x1) _ hz2]
  rfl

set_option maxHeartbeats 1000000 in
/-- At a second block (the first conditional not taken, the second taken): from the score block `w`, the noise block
    `e`, the two outputs' buffers at anything and the scratch at `a`, the body runs to the gate's buffer at
    `gate1 w e`, the scratch at `a` plus the block's total, and the second output's buffer at that number broadcast. -/
theorem run1_B (c : Dev nD) (i : grid1.Coords)
    (arg2 : Memref sig .tc .vmem S1x1x6250x128 .f32) (harg2 : arg2.IsWhole)
    (arg3 : Memref sig .tc .vmem S1x1x6250x128 .f32) (harg3 : arg3.IsWhole)
    (arg4 : Memref sig .tc .vmem S1x1x6250x128 .f32) (harg4 : arg4.IsWhole)
    (arg5 : Memref sig .tc .vmem S1x8x128 .f32) (harg5 : arg5.IsWhole)
    (arg6 : Memref sig .tc .vmem S1x1 .f32) (harg6 : arg6.IsWhole)
    (hc0 : ¬cond1_0 i) (hc1 : cond1_1 i)
    (w e : Vec F S1x1x6250x128 .f32) (a : Vec F S1x1 .f32) (E : Set ℕ) (K : PUnit → sProp 𝕄) :
    iprop(owns (c : Thread nD τ) arg2 fullShare w ∗ owns (c : Thread nD τ) arg3 fullShare e
        ∗ (∃ d, owns (c : Thread nD τ) arg4 fullShare d) ∗ (∃ d, owns (c : Thread nD τ) arg5 fullShare d)
        ∗ owns (c : Thread nD τ) arg6 fullShare a
        ∗ (iprop(owns (c : Thread nD τ) arg2 fullShare w ∗ owns (c : Thread nD τ) arg3 fullShare e
            ∗ owns (c : Thread nD τ) arg4 fullShare (gate1 w e) ∗ owns (c : Thread nD τ) arg5 fullShare (tot1 (step1 w e a))
            ∗ owns (c : Thread nD τ) arg6 fullShare (step1 w e a)) -∗ K ⟨⟩))
      ⊢ wp frame (wpE (defs₀ (F := F)) Variants.none c none) E (cc1__edge_kernel i arg2 harg2 arg3 harg3 arg4 harg4 arg5 harg5 arg6 harg6) K := by
  simp only [cc1__edge_kernel_eq_skeleton]; unfold cc1__edge_kernel_skel
  unfold owns
  iintro ⟨⟨%f0, %hf0, H0⟩, ⟨%f1, %hf1, H1⟩, ⟨%d2, %f2, -, H2⟩, ⟨%d3, %f3, -, H3⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    rw [View.read_writes_eq_canon _ _ _ (fun y => ⟨_, List.mem_cons_self, View.mem_set_unit_zero hz4 inb_S1x1x6250x128_S1x1x6250x128_0_0_0_0 y⟩)]
    rw [View.canon_unit_zero hz4]
    simp only [View.readAt_eq_ld, harg2.read_unread, harg3.read_unread, View.ld_unit_zero (S := S1x1x6250x128) hz4]
    rfl
  isplitl [H3]
  · iexists _; isplitr
    swap; · iexact H3
    ipureintro
    sl_unfold_words
    rw [View.read_writes_eq_canon _ _ _ (fun y => ⟨_, List.mem_cons_self, View.mem_set_unit_zero hz3 inb_S1x8x128_S1x8x128_0_0_0 y⟩)]
    rw [View.canon_unit_zero hz3]
    simp only [View.readAt_eq_ld, harg2.read_unread, harg3.read_unread, harg6.read_unread, View.ld_unit_zero (S := S1x1x6250x128) hz4, View.ld_unit_zero (S := S1x1) hz2, View.readCov_unit_zero (S := S1x1) _ hz2]
    rfl
  iexists _; isplitr
  swap; · iexact HS
  ipureintro
  sl_unfold_words
  rw [View.read_writes_eq_canon _ _ _ (fun y => ⟨_, List.mem_cons_self, View.mem_set_unit_zero hz2 inb_S1x1_S1x1_0_0 y⟩)]
  rw [View.canon_unit_zero hz2]
  simp only [View.readAt_eq_ld, harg2.read_unread, harg3.read_unread, harg6.read_unread, View.ld_unit_zero (S := S1x1x6250x128) hz4, View.ld_unit_zero (S := S1x1) hz2]
  rfl

/-! ## What the body finds and what the recursion leaves -/

/-- The score block is fetched at every point: its buffer holds the block. -/
theorem before1_0 (c : Dev nD) (t : Fin cfg1.N) (d) : (dat1 V c).before 0 t d = iblk1 V c 0 t :=
  ((dat1 V c).before_fetched 0 t (fetch1_0 t) d).trans (by unfold Dat.fetched Dat.blockOf iblk1; rw [A_eq1]; try rfl)

/-- So is the noise block. -/
theorem before1_1 (c : Dev nD) (t : Fin cfg1.N) (d) : (dat1 V c).before 1 t d = iblk1 V c 1 t :=
  ((dat1 V c).before_fetched 1 t (fetch1_1 t) d).trans (by unfold Dat.fetched Dat.blockOf iblk1; rw [A_eq1]; try rfl)

/-- The running total after a first block: the block's total over zero. -/
theorem acc1_even (c : Dev nD) (t : Fin cfg1.N) (h : t.val % 2 = 0) :
    acc1 V c t.val t.isLt = step1 (iblk1 V c 0 t) (iblk1 V c 1 t) (k1_pay2 (F := F)) := by
  obtain ⟨n, hn⟩ := t
  cases n with
  | zero => rfl
  | succ n => exact if_pos h

/-- The running total after a second block: the block's total over what the first block left. -/
theorem acc1_odd (c : Dev nD) (t : Fin cfg1.N) (h : t.val % 2 = 1) :
    acc1 V c t.val t.isLt
      = step1 (iblk1 V c 0 t) (iblk1 V c 1 t) (acc1 V c (t.val - 1) (Nat.lt_of_le_of_lt (Nat.sub_le _ _) t.isLt)) := by
  obtain ⟨n, hn⟩ := t
  cases n with
  | zero => exfalso; dsimp only at h; omega
  | succ n => exact if_neg (fun h0 => by dsimp only at h h0; omega)

/-- Before a point that is not the first the scratch holds what the point before left. -/
theorem Phi1_pos (c : Dev nD) (n : ℕ) (h : n ≤ cfg1.N) (hz : n ≠ 0) :
    Phi1 V c n h = iprop(rest1 (F := F) c ∗ owns (c : Thread nD τ) scM1 fullShare (acc1 V c (n - 1) (by omega)) ∗ (∃ r, prngReg c r)) := by
  cases n with
  | zero => exact absurd rfl hz
  | succ n => rfl

/-- Before any point the invariant gives the scratch at some contents. -/
theorem Phi1_any (c : Dev nD) (n : ℕ) (h : n ≤ cfg1.N) :
    Phi1 V c n h ⊢ iprop(rest1 (F := F) c ∗ (∃ d, owns (c : Thread nD τ) scM1 fullShare d) ∗ (∃ r, prngReg c r)) := by
  cases n with
  | zero => exact PhiA1_elim c
  | succ n =>
    rw [Phi1_succ]
    iintro ⟨Hr, HS, Hg⟩
    isplitl [Hr]; · iexact Hr
    isplitl [HS]; · iexists _; iexact HS
    iexact Hg

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The input buffers hold their blocks. At a first block the scratch is taken at whatever it
    holds and left at the block's total over zero, the second output's buffer handed back as found; at a second block the
    scratch is taken at what the first block left and left at the sum, which the second output's buffer receives. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).Φ t.castSucc = Phi1 V c t.val (Nat.le_of_lt t.isLt) from rfl]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 4 := lt_of_lt_of_eq t.isLt (show cfg1.N = 4 from N_1)
  by_cases h0 : t.val % 2 = 0
  · have h1 : ¬t.val % 2 = 1 := by omega
    rw [Dat.leavesExact_idle (dat1 V c) 3 t (idleAt1_3 t h0) (noFlush1_3 t h0)]
    rw [acc1_even V c t h0]
    refine (sep_mono_left (Phi1_any V c t.val _)).trans ?_
    iintro ⟨⟨Hr, HS, Hg⟩, Ho, ⟨%d0, H0⟩, ⟨%d1, H1⟩, ⟨%d2, H2⟩, ⟨%d3, H3⟩⟩
    iapply (run1_A c (grid1.coords t) _ _ _ _ _ _ _ _ _ _ ((hcond1_0 t).mpr h0) (fun h => h1 ((hcond1_1 t).mp h))
      (iblk1 V c 0 t) (iblk1 V c 1 t) ((dat1 V c).before 3 t d3) Set.univ _)
    isplitl [H0]; · iexact H0
    isplitl [H1]; · iexact H1
    isplitl [H2]; · iexists _; iexact H2
    isplitl [H3]; · iexact H3
    isplitl [HS]; · iexact HS
    iintro ⟨H0, H1, H2, H3, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    iexists _; iexact H3
  · have h1 : t.val % 2 = 1 := by omega
    have hz : t.val ≠ 0 := by omega
    rw [show (dat1 V c).leavesExact 3 t = owns (c : Thread nD τ) (st1_3 t) fullShare ((dat1 V c).after 3 t) from by
      unfold Dat.leavesExact; rw [liveAt1_3 t h1], after1_3]
    rw [acc1_odd V c t h1, Phi1_pos V c _ _ hz]
    iintro ⟨⟨Hr, HS, Hg⟩, Ho, ⟨%d0, H0⟩, ⟨%d1, H1⟩, ⟨%d2, H2⟩, ⟨%d3, H3⟩⟩
    iapply (run1_B c (grid1.coords t) _ _ _ _ _ _ _ _ _ _ (fun h => h0 ((hcond1_0 t).mp h)) ((hcond1_1 t).mpr h1)
      (iblk1 V c 0 t) (iblk1 V c 1 t) (acc1 V c (t.val - 1) (Nat.lt_of_le_of_lt (Nat.sub_le _ _) t.isLt)) Set.univ _)
    isplitl [H0]; · iexact H0
    isplitl [H1]; · iexact H1
    isplitl [H2]; · iexists _; iexact H2
    isplitl [H3]; · iexists _; iexact H3
    isplitl [HS]; · iexact HS
    iintro ⟨H0, H1, H2, H3, HS⟩
    isplitl [Hr HS Hg]
    · isplitl [Hr]; · iexact Hr
      isplitl [HS]; · iexact HS
      iexact Hg
    isplitl [Ho]; · iexact Ho
    isplitl [H0]; · iexact H0
    isplitl [H1]; · iexact H1
    isplitl [H2]; · iexact H2
    iexact H3

theorem body_obligation1 (c : Dev nD) : BodyObligation (dat1 (F := F) V c) (defs₀ (F := F)) Variants.none () Set.univ := fun t => by
  rw [bigSep_W1, bigSep_W1]
  exact sound_body1 V c t

/-- Before the first point the invariant is the scoped rest and the generator register, as the region is entered. -/
theorem Phi1_first (c : Dev nD) : (dat1 (F := F) V c).Φ 0 = Pipeline.ΦA spec1 c := rfl

/-- After the last point the invariant gives the scoped rest (the scratch at some contents again) and the generator
    register back. -/
theorem Phi1_last (c : Dev nD) : (dat1 (F := F) V c).Φ (Fin.last _) ⊢ (Pipeline.ΦA spec1 c : sProp 𝕄) := by
  rw [show (dat1 V c).Φ (Fin.last _) = Phi1 V c (Fin.last cfg1.N).val (Nat.le_of_lt_succ (Fin.last cfg1.N).isLt) from rfl]
  exact (Phi1_any V c _ _).trans (PhiA1_intro c)

end Cert.Kernel.Hand

end
-- ==== Proof.KRun.lean ====
/- The launch: `@main` as host stretches and the two kernel regions in order, every unscoped buffer read at the end. -/
import proofs.«422726_j71648644431894_3_alg».proof.Proof.KRunDefs
import proofs.«422726_j71648644431894_3_alg».proof.Proof.KRegion0Body
import proofs.«422726_j71648644431894_3_alg».proof.Proof.KRegion1Body
import proofs.«422726_j71648644431894_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each boundary leaves of a buffer no host stretch writes and no region has for an array -/

/-- At a region's exit each of its arrays holds what the pipeline leaves and every other buffer what it held at entry. -/
theorem runF0 (c : Dev nD) (w : Fin cfg0.W) : (dat0 (V1 m) c).arrAt w cfg0.N = V2 m c (Pipeline.arrRef spec0 w) :=
  (W2_arr m c w).symm
theorem runRest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem runF1 (c : Dev nD) (w : Fin cfg1.W) : (dat1 (V6 m) c).arrAt w cfg1.N = V7 m c (Pipeline.arrRef spec1 w) :=
  (W7_arr m c w).symm
theorem runRest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-- A buffer that no host stretch writes and that is an array of neither region ends as launched: the fold walked
    back boundary by boundary. -/
theorem W8_of_untouched (c : Dev nD) (r : Ref sig .tc)
    (h0 : r ∉ (hostOps0_W : List (Ref sig .tc))) (h1 : r ∉ (hostOps1_W : List (Ref sig .tc)))
    (h11 : r ∉ (hostOps1_1_W : List (Ref sig .tc))) (h12 : r ∉ (hostOps1_2_W : List (Ref sig .tc)))
    (h13 : r ∉ (hostOps1_3_W : List (Ref sig .tc))) (h2 : r ∉ (hostOps2_W : List (Ref sig .tc)))
    (hr0 : ∀ w, Pipeline.arrRef spec0 w ≠ r) (hr1 : ∀ w, Pipeline.arrRef spec1 w ≠ r) :
    W8 m c (Proc.devRef .tc r) = m ((c : Thread nD τ).loc r) :=
  calc W8 m c (Proc.devRef .tc r)
    _ = W7 m c (Proc.devRef .tc r) := StableHlo.after_of_writes_sub hostOps2 _ hostOps2_writes h2
    _ = W6 m c (Proc.devRef .tc r) := W7_of_ne m c r hr1
    _ = W5 m c (Proc.devRef .tc r) := StableHlo.after_of_writes_sub hostOps1_3 _ hostOps1_3_writes h13
    _ = W4 m c (Proc.devRef .tc r) := StableHlo.after_of_writes_sub hostOps1_2 _ hostOps1_2_writes h12
    _ = W3 m c (Proc.devRef .tc r) := StableHlo.after_of_writes_sub hostOps1_1 _ hostOps1_1_writes h11
    _ = W2 m c (Proc.devRef .tc r) := StableHlo.after_of_writes_sub hostOps1 _ hostOps1_writes h1
    _ = W1 m c (Proc.devRef .tc r) := W2_of_ne m c r hr0
    _ = W0 m c (Proc.devRef .tc r) := StableHlo.after_of_writes_sub hostOps0 _ hostOps0_writes h0
    _ = m ((c : Thread nD τ).loc r) := rfl

/-! ## The thread state -/

abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every segment: the core's generator register at some state and its dues,
    at nothing. -/
abbrev runR (c : Dev nD) : sProp 𝕄 := iprop((∃ r, prngReg c r) ∗ ∃ W, owes (c : Thread nD τ) (0 : CellTallies nD τ sig Unit) W)
/-- A host stretch as a segment over the unscoped references from the contents `W`, `runR` riding along. -/
abbrev runHseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ run𝒱 runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W runR

/-- The last thread state without the dues: every unscoped buffer at the last boundary's contents, the generator
    register at some state. -/
abbrev runTn (c : Dev nD) : sProp 𝕄 := iprop(StableHlo.held (c : Thread nD τ) (Pipeline.ucRefs τ sig) (W8 m c) ∗ ∃ r, prngReg c r)

set_option backward.isDefEq.respectTransparency.types false in
/-- Region 0 over the thread state: entered from every unscoped buffer at `W1`, left at `W2`. Its arrays are
    split out of the unscoped buffers and put back at the exit contents; the generator register goes into the
    invariant and comes back; nothing is owed; the kernel has no semaphore of its own. -/
def runReg0 : Pipeline.RegionSeg (pcfgs (F := F)) adm (pdats m) () defs₀ run𝒱 runL runLv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ runL runLv 0 fun _ _ => rfl
  pre c := iprop(StableHlo.held (c : Thread nD τ) (Pipeline.ucRefs τ sig) (W1 m c) ∗ runR c)
  post c := iprop(StableHlo.held (c : Thread nD τ) (Pipeline.ucRefs τ sig) (W2 m c) ∗ runR c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (runF0 m c) (runRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are
    split out of the unscoped buffers and put back at the exit contents; the generator register goes into the
    invariant and comes back; nothing is owed; the kernel has no semaphore of its own. -/
def runReg1 : Pipeline.RegionSeg (pcfgs (F := F)) adm (pdats m) () defs₀ run𝒱 runL runLv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ runL runLv 1 fun _ _ => rfl
  pre c := iprop(StableHlo.held (c : Thread nD τ) (Pipeline.ucRefs τ sig) (W6 m c) ∗ runR c)
  post c := iprop(StableHlo.held (c : Thread nD τ) (Pipeline.ucRefs τ sig) (W7 m c) ∗ runR c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V6 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from Phi1_last (V6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (runF1 m c) (runRest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order: a host segment per stretch from its boundary's contents, a region per kernel. -/
abbrev runSegs : List (Pipeline.Seg (pcfgs (F := F)) adm (pdats m) () defs₀ run𝒱 runL runLv) :=
  [ .host (runHseg hostOps0 hostOps0_sub hostOps0_fresh (W0 m)),
    .region (runReg0 m),
    .host (runHseg hostOps1 hostOps1_sub hostOps1_fresh (W2 m)),
    .host (runHseg hostOps1_1 hostOps1_1_sub hostOps1_1_fresh (W3 m)),
    .host (runHseg hostOps1_2 hostOps1_2_sub hostOps1_2_fresh (W4 m)),
    .host (runHseg hostOps1_3 hostOps1_3_sub hostOps1_3_fresh (W5 m)),
    .region (runReg1 m),
    .host (runHseg hostOps2 hostOps2_sub hostOps2_fresh (W7 m)) ]

set_option backward.isDefEq.respectTransparency.types false in
/-- Every weakly fair execution of `@main` from `m` with zero counters terminates, and every unscoped buffer of every
    core ends at the last boundary's contents `W8`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W8 m c b) :=
  Pipeline.θ_run_regions_kit (pcfgs (F := F)) adm (pdats m) () cellOf_inj emb₁ defs₀ run𝒱 runL runLv m ρ main (runSegs m)
    (fun c Q => by
      rewrite [main_chain c, Pipeline.Seg.run_eq_chain,
        show (runSegs m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()),
          StableHlo.seq hostOps2 ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ runR c)) (Tₙ := runTn m)
    (hch := ⟨fun _ => .rfl, fun _ => .rfl, fun _ => .rfl, fun _ => .rfl, fun _ => .rfl, fun _ => .rfl, fun _ => .rfl,
      fun _ => .rfl, fun c => by
        show iprop(StableHlo.held (c : Thread nD τ) (Pipeline.ucRefs τ sig) (W8 m c) ∗ runR c)
          ⊢ iprop(runTn m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun _ h => h)

/-- An unscoped TensorCore reference is among those read at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The node features are the node scorer's first input window: the pipeline leaves an input's array as it found it, and
    no host stretch writes it, nor is it an array of the edge gate. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps2 _ hostOps2_writes (by decide)
    _ = W6 m c (Proc.devRef .tc main_arg0) := W7_of_ne m c main_arg0 (by decide)
    _ = W5 m c (Proc.devRef .tc main_arg0) := StableHlo.after_of_writes_sub hostOps1_3 _ hostOps1_3_writes (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

/-- No host operation writes an argument and no other argument is an array of either region: at the end it holds
    its launch contents. -/
theorem W8_main_arg1 (c : Dev nD) : W8 m c (Proc.devRef .tc main_arg1) = m ((c : Thread nD τ).loc main_arg1) :=
  W8_of_untouched m c main_arg1 (by decide) (by decide) (by decide) (by decide) (by decide) (by decide) (by decide) (by decide)
theorem W8_main_arg2 (c : Dev nD) : W8 m c (Proc.devRef .tc main_arg2) = m ((c : Thread nD τ).loc main_arg2) :=
  W8_of_untouched m c main_arg2 (by decide) (by decide) (by decide) (by decide) (by decide) (by decide) (by decide) (by decide)
theorem W8_main_arg3 (c : Dev nD) : W8 m c (Proc.devRef .tc main_arg3) = m ((c : Thread nD τ).loc main_arg3) :=
  W8_of_untouched m c main_arg3 (by decide) (by decide) (by decide) (by decide) (by decide) (by decide) (by decide) (by decide)
theorem W8_main_arg4 (c : Dev nD) : W8 m c (Proc.devRef .tc main_arg4) = m ((c : Thread nD τ).loc main_arg4) :=
  W8_of_untouched m c main_arg4 (by decide) (by decide) (by decide) (by decide) (by decide) (by decide) (by decide) (by decide)
theorem W8_main_arg5 (c : Dev nD) : W8 m c (Proc.devRef .tc main_arg5) = m ((c : Thread nD τ).loc main_arg5) :=
  W8_of_untouched m c main_arg5 (by decide) (by decide) (by decide) (by decide) (by decide) (by decide) (by decide) (by decide)
theorem W8_main_arg6 (c : Dev nD) : W8 m c (Proc.devRef .tc main_arg6) = m ((c : Thread nD τ).loc main_arg6) :=
  W8_of_untouched m c main_arg6 (by decide) (by decide) (by decide) (by decide) (by decide) (by decide) (by decide) (by decide)
theorem W8_main_arg7 (c : Dev nD) : W8 m c (Proc.devRef .tc main_arg7) = m ((c : Thread nD τ).loc main_arg7) :=
  W8_of_untouched m c main_arg7 (by decide) (by decide) (by decide) (by decide) (by decide) (by decide) (by decide) (by decide)
theorem W8_main_arg8 (c : Dev nD) : W8 m c (Proc.devRef .tc main_arg8) = m ((c : Thread nD τ).loc main_arg8) :=
  W8_of_untouched m c main_arg8 (by decide) (by decide) (by decide) (by decide) (by decide) (by decide) (by decide) (by decide)
theorem W8_main_arg9 (c : Dev nD) : W8 m c (Proc.devRef .tc main_arg9) = m ((c : Thread nD τ).loc main_arg9) :=
  W8_of_untouched m c main_arg9 (by decide) (by decide) (by decide) (by decide) (by decide) (by decide) (by decide) (by decide)
theorem W8_main_arg10 (c : Dev nD) : W8 m c (Proc.devRef .tc main_arg10) = m ((c : Thread nD τ).loc main_arg10) :=
  W8_of_untouched m c main_arg10 (by decide) (by decide) (by decide) (by decide) (by decide) (by decide) (by decide) (by decide)
theorem W8_main_arg11 (c : Dev nD) : W8 m c (Proc.devRef .tc main_arg11) = m ((c : Thread nD τ).loc main_arg11) :=
  W8_of_untouched m c main_arg11 (by decide) (by decide) (by decide) (by decide) (by decide) (by decide) (by decide) (by decide)

end Cert.Kernel.Hand

end
-- ==== Proof.KFrame.lean ====
/- The frame: every argument array ends as launched, read off the run's last boundary. -/
import proofs.«422726_j71648644431894_3_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution of `@main` terminates, nothing faulting, and every argument array holds its launch
    contents at the end: no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c)⟩)
    (run_all m ρ)

end Cert.Kernel.Hand

end
-- ==== Proof.Scores2.lean ====
/-
  The node scorer's result array, index by index, over the FUSED weights: row `n`, column `q` holds
  `Σ_k max(Σ_d x[n,d]·W₁[d,k] + b₁[0,k], 0) · W₂[k,q] + b₂[0,q]`, with `W₁` the 256×128 first layers side by side and `W₂`
  the 128×2 second layers block-diagonally. Sums and products are those of the extended reals.
-/
import proofs.«422726_j71648644431894_3_alg».proof.KernelIdeal
import Idealize.ShloMosaic.PureOps.Ideal
import Idealize.ShloMosaic.Lib.ValueIdx

noncomputable section

namespace Cert.KernelIdeal.Hand

open Cert.KernelIdeal Idealize.ShloMosaic Idealize.ShloMosaic.ValueIdx

/-- One hidden unit `k` of node `n`: the rectified first layer. -/
def hidden2 (x : FVec Ideal S100000x256 .f32) (w1 : FVec Ideal S256x128 .f32) (b1 : FVec Ideal S1x128 .f32)
    (n : Fin 100000) (k : Fin 128) : EReal :=
  max ((∑ d : Fin 256, x (ix2 n d) * w1 (ix2 d k)) + b1 (ix2 (0 : Fin 1) k)) 0

/-- Entry `(n, q)` of the scorer's result. -/
def scoreAt2 (x : FVec Ideal S100000x256 .f32) (w1 : FVec Ideal S256x128 .f32) (b1 : FVec Ideal S1x128 .f32)
    (w2 : FVec Ideal S128x2 .f32) (b2 : FVec Ideal S1x2 .f32) (n : Fin 100000) (q : Fin 2) : EReal :=
  (∑ k : Fin 128, hidden2 x w1 b1 n k * w2 (ix2 k q)) + b2 (ix2 (0 : Fin 1) q)

/-- The scorer's whole result array. -/
def scores2 (x : FVec Ideal S100000x256 .f32) (w1 : FVec Ideal S256x128 .f32) (b1 : FVec Ideal S1x128 .f32)
    (w2 : FVec Ideal S128x2 .f32) (b2 : FVec Ideal S1x2 .f32) : FVec Ideal S100000x2 .f32 :=
  fun j => scoreAt2 x w1 b1 w2 b2 (j 0) (j 1)

theorem scores2_apply (x : FVec Ideal S100000x256 .f32) (w1 : FVec Ideal S256x128 .f32) (b1 : FVec Ideal S1x128 .f32)
    (w2 : FVec Ideal S128x2 .f32) (b2 : FVec Ideal S1x2 .f32) (n : Fin 100000) (q : Fin 2) :
    scores2 x w1 b1 w2 b2 (ix2 n q) = scoreAt2 x w1 b1 w2 b2 n q := rfl

end Cert.KernelIdeal.Hand

end
-- ==== Proof.ScoresArr.lean ====
/- The node scorer's result array, read off its twenty blocks: entry (n, q) is `scoreAt2` of the region-entry arrays. -/
import proofs.«422726_j71648644431894_3_alg».proof.Proof.Region0Defs
import proofs.«422726_j71648644431894_3_alg».proof.Proof.Scores2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! First the body's arithmetic at one entry, then each block read off its array, then the twenty blocks tiling the result array. -/
namespace ScoresArr

/-! ## The two products of the body, read at an index

Each product contracts the left operand's columns with the right operand's rows, into a zero accumulator: at the
extended reals its entry `(p, k)` is the plain sum of the products. The operand indices of the dimension numbers are
read axis by axis. -/

theorem lhsFirst_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhsFirst_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhsFirst_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhsFirst_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem lhsSecond_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhsSecond_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhsSecond_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhsSecond_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The first product at `(p, k)`: row `p` of the left operand against column `k` of the right. -/
theorem firstProduct_apply {φ₁ φ₂ : FTy} (x : FVec Ideal S5000x256 φ₁) (w : FVec Ideal S256x128 φ₂) (p : Fin 5000) (k : Fin 128) :
    matmul dot_S5000x256_S256x128_S5000x128_1_0_0_1_n_n none x w (constant S5000x128 .f32 0x00000000#32) (ix2 p k)
      = ∑ d : Fin 256, x (ix2 p d) * w (ix2 d k) := by
  simp only [matmul]
  rw [Ideal.matmul_constant_zero_apply, ← Equiv.sum_comp (contrEquiv1 dot_S5000x256_S256x128_S5000x128_1_0_0_1_n_n 256 rfl rfl).symm]
  refine Finset.sum_congr rfl fun d _ => ?_
  have hd := contrEquiv1_symm_val dot_S5000x256_S256x128_S5000x128_1_0_0_1_n_n 256 rfl rfl d
  have el : dot_S5000x256_S256x128_S5000x128_1_0_0_1_n_n.lhsIdx (ix2 p k) ((contrEquiv1 dot_S5000x256_S256x128_S5000x128_1_0_0_1_n_n 256 rfl rfl).symm d) = ix2 p d := funext fun a => Fin.ext (by
    match a with
    | ⟨0, _⟩ => exact lhsFirst_0 _ _
    | ⟨1, _⟩ => exact (lhsFirst_1 _ _).trans hd)
  have er : dot_S5000x256_S256x128_S5000x128_1_0_0_1_n_n.rhsIdx (ix2 p k) ((contrEquiv1 dot_S5000x256_S256x128_S5000x128_1_0_0_1_n_n 256 rfl rfl).symm d) = ix2 d k := funext fun a => Fin.ext (by
    match a with
    | ⟨0, _⟩ => exact (rhsFirst_0 _ _).trans hd
    | ⟨1, _⟩ => exact rhsFirst_1 _ _)
  rw [el, er]

/-- The second product at `(p, q)`: row `p` of the hidden layer against column `q` of the second weights. -/
theorem secondProduct_apply {φ₁ φ₂ : FTy} (h : FVec Ideal S5000x128 φ₁) (w : FVec Ideal S128x2 φ₂) (p : Fin 5000) (q : Fin 2) :
    matmul dot_S5000x128_S128x2_S5000x2_1_0_0_1_n_n none h w (constant S5000x2 .f32 0x00000000#32) (ix2 p q)
      = ∑ k : Fin 128, h (ix2 p k) * w (ix2 k q) := by
  simp only [matmul]
  rw [Ideal.matmul_constant_zero_apply, ← Equiv.sum_comp (contrEquiv1 dot_S5000x128_S128x2_S5000x2_1_0_0_1_n_n 128 rfl rfl).symm]
  refine Finset.sum_congr rfl fun k _ => ?_
  have hk := contrEquiv1_symm_val dot_S5000x128_S128x2_S5000x2_1_0_0_1_n_n 128 rfl rfl k
  have el : dot_S5000x128_S128x2_S5000x2_1_0_0_1_n_n.lhsIdx (ix2 p q) ((contrEquiv1 dot_S5000x128_S128x2_S5000x2_1_0_0_1_n_n 128 rfl rfl).symm k) = ix2 p k := funext fun a => Fin.ext (by
    match a with
    | ⟨0, _⟩ => exact lhsSecond_0 _ _
    | ⟨1, _⟩ => exact (lhsSecond_1 _ _).trans hk)
  have er : dot_S5000x128_S128x2_S5000x2_1_0_0_1_n_n.rhsIdx (ix2 p q) ((contrEquiv1 dot_S5000x128_S128x2_S5000x2_1_0_0_1_n_n 128 rfl rfl).symm k) = ix2 k q := funext fun a => Fin.ext (by
    match a with
    | ⟨0, _⟩ => exact (rhsSecond_0 _ _).trans hk
    | ⟨1, _⟩ => exact rhsSecond_1 _ _)
  rw [el, er]

/-- A one-row bias spread over the 5000 rows reads its own column. -/
theorem biasHidden_apply (b : FVec Ideal S1x128 .f32) (p : Fin 5000) (k : Fin 128) :
    broadcastTo S5000x128 b broadcasts_S1x128_S5000x128 (ix2 p k) = b (ix2 (0 : Fin 1) k) :=
  broadcastTo_apply b broadcasts_S1x128_S5000x128 (ix2 p k) (ix2 (0 : Fin 1) k) (fun a => by
    match a with
    | ⟨0, _⟩ => rfl
    | ⟨1, _⟩ => rfl)

theorem biasOut_apply (b : FVec Ideal S1x2 .f32) (p : Fin 5000) (q : Fin 2) :
    broadcastTo S5000x2 b broadcasts_S1x2_S5000x2 (ix2 p q) = b (ix2 (0 : Fin 1) q) :=
  broadcastTo_apply b broadcasts_S1x2_S5000x2 (ix2 p q) (ix2 (0 : Fin 1) q) (fun a => by
    match a with
    | ⟨0, _⟩ => rfl
    | ⟨1, _⟩ => rfl)

/-- THE BODY'S RESULT AT `(p, q)`: the two-layer perceptron of row `p` of the feature block. -/
theorem out0_5_apply (x0 : Vec Ideal S5000x256 .f32) (x1 : Vec Ideal S256x128 .f32) (x2 : Vec Ideal S1x128 .f32)
    (x3 : Vec Ideal S128x2 .f32) (x4 : Vec Ideal S1x2 .f32) (p : Fin 5000) (q : Fin 2) :
    out0_5 (F := Ideal) x0 x1 x2 x3 x4 (ix2 p q)
      = (∑ k : Fin 128, max ((∑ d : Fin 256, x0 (ix2 p d) * x1 (ix2 d k)) + x2 (ix2 (0 : Fin 1) k)) 0 * x3 (ix2 k q))
        + x4 (ix2 (0 : Fin 1) q) := by
  unfold out0_5 k0_pay1
  simp only [shapeCast_self]
  rw [addf_apply, secondProduct_apply, biasOut_apply]
  congr 1
  refine Finset.sum_congr rfl fun k _ => ?_
  rw [truncf_apply, maximumf_apply, addf_apply, firstProduct_apply, biasHidden_apply, broadcast_apply, truncf_apply]
  congr 2
  exact Ideal.ofBits_zero_f32

/-- One row of a block against the arrays: when row `p` of the feature block is row `n` of the features and the four
    weight blocks are the weight arrays, the body's result at `(p, q)` is the scorer's entry `(n, q)`. -/
theorem out0_5_eq_scores2 (X : FVec Ideal S100000x256 .f32) (W1 : FVec Ideal S256x128 .f32) (B1 : FVec Ideal S1x128 .f32)
    (W2 : FVec Ideal S128x2 .f32) (B2 : FVec Ideal S1x2 .f32)
    (x0 : Vec Ideal S5000x256 .f32) (x1 : Vec Ideal S256x128 .f32) (x2 : Vec Ideal S1x128 .f32)
    (x3 : Vec Ideal S128x2 .f32) (x4 : Vec Ideal S1x2 .f32) (n : Fin 100000) (p : Fin 5000) (q : Fin 2)
    (h0 : ∀ d : Fin 256, x0 (ix2 p d) = X (ix2 n d)) (h1 : x1 = W1) (h2 : x2 = B1) (h3 : x3 = W2) (h4 : x4 = B2) :
    out0_5 (F := Ideal) x0 x1 x2 x3 x4 (ix2 p q) = scores2 X W1 B1 W2 B2 (ix2 n q) := by
  subst h1 h2 h3 h4
  rw [out0_5_apply, scores2_apply]
  unfold scoreAt2 hidden2
  simp only [h0]

/-! ## From the twenty blocks to the array -/

/-- The printed index maps over the grid: the feature window and the result window are at row block `t`, column block
    `0`; the four weight windows stay at block `(0, 0)`. -/
theorem blockIndex0 : ∀ t : Fin cfg0.N, win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- A weight window's block is its whole array at every point: the first-layer weights. -/
theorem iblk0_1_eq (c : Dev nD) (t : Fin cfg0.N) : iblk0 V c 1 t = V c main_v0 := by
  obtain ⟨-, -, -, -, e0, e1, -⟩ := blockIndex0 t
  funext j
  show V c main_v0 (((cfg0.win 1).blk t).view.emb j) = V c main_v0 j
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 128 + 1 * (j 1).val = (j 1).val; omega

/-- The first-layer bias. -/
theorem iblk0_2_eq (c : Dev nD) (t : Fin cfg0.N) : iblk0 V c 2 t = V c main_v2 := by
  obtain ⟨-, -, -, -, -, -, e0, e1, -⟩ := blockIndex0 t
  funext j
  show V c main_v2 (((cfg0.win 2).blk t).view.emb j) = V c main_v2 j
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The second-layer weights. -/
theorem iblk0_3_eq (c : Dev nD) (t : Fin cfg0.N) : iblk0 V c 3 t = V c main_v7 := by
  obtain ⟨-, -, -, -, -, -, -, -, e0, e1, -⟩ := blockIndex0 t
  funext j
  show V c main_v7 (((cfg0.win 3).blk t).view.emb j) = V c main_v7 j
  refine congrArg _ (funext fun a => Fin.ext ?_)
  match a with
  | ⟨0, _⟩ => show win0_3.index t (0 : Fin 2) * 128 + 1 * (j 0).val = (j 0).val; omega
  | ⟨1, _⟩ => show win0_3.index t (1 : Fin 2) * 2 + 1 * (j 1).val = (j 1).val; omega

/-- The second-layer bias. -/
theorem iblk0_4_eq (c : Dev nD) (t : Fin cfg0.N) : iblk0 V c 4 t = V c main_v9 := by
  obtain ⟨-, -, -, -, -, -, -, -, -, -, e0, e1⟩ := blockIndex0 t
  funext j
  show V c main_v9 (((cfg0.win 4).blk t).view.emb j) = V c main_v9 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 2 + 1 * (j 1).val = (j 1).val; omega

/-- Row `p` of the feature block at point `t` is row `5000·t + p` of the features. -/
theorem iblk0_0_apply (c : Dev nD) (t : Fin cfg0.N) (p : Fin 5000) (d : Fin 256) (hn : 5000 * t.val + p.val < 100000) :
    iblk0 V c 0 t (ix2 p d) = V c main_arg0 (ix2 (⟨5000 * t.val + p.val, hn⟩ : Fin 100000) d) := by
  obtain ⟨e0, e1, -⟩ := blockIndex0 t
  show V c main_arg0 (((cfg0.win 0).blk t).view.emb (ix2 p d)) = _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 256 + 1 * d.val = d.val; omega

/-- WHAT POINT `t` WRITES BACK is block `t` of the perceptron of the arrays as the region finds them. -/
theorem flushed0_5_eq (c : Dev nD) (t : Fin cfg0.N) :
    (dat0 (F := Ideal) V c).flushed 5 t = ((cfg0.win 5).blk t).view.read (Elt Ideal)
      (scores2 (V c main_arg0) (V c main_v0) (V c main_v2) (V c main_v7) (V c main_v9)) := by
  show (cfg0.win 5).cut (grid0.coords t) ((dat0 (F := Ideal) V c).after 5 t) = _
  rw [after0_5]
  obtain ⟨-, -, e0, e1, -⟩ := blockIndex0 t
  have ht : t.val < 20 := lt_of_lt_of_eq t.isLt N_0
  funext j
  obtain ⟨p, q, rfl⟩ : ∃ (p : Fin 5000) (q : Fin 2), j = ix2 p q := ⟨j 0, j 1, eq_ix2 j⟩
  have hp : p.val < 5000 := p.isLt
  have hn : 5000 * t.val + p.val < 100000 := by omega
  have h5 : ((cfg0.win 5).blk t).view.emb (ix2 p q) = ix2 (⟨5000 * t.val + p.val, hn⟩ : Fin 100000) q := by
    refine funext fun a => Fin.ext ?_
    match a with
    | ⟨0, _⟩ => show win0_5.index t (0 : Fin 2) * 5000 + 1 * p.val = 5000 * t.val + p.val; omega
    | ⟨1, _⟩ => show win0_5.index t (1 : Fin 2) * 2 + 1 * q.val = q.val; omega
  show out0_5 (iblk0 V c 0 t) (iblk0 V c 1 t) (iblk0 V c 2 t) (iblk0 V c 3 t) (iblk0 V c 4 t) (ix2 p q)
    = scores2 (V c main_arg0) (V c main_v0) (V c main_v2) (V c main_v7) (V c main_v9) (((cfg0.win 5).blk t).view.emb (ix2 p q))
  rw [h5]
  exact out0_5_eq_scores2 (V c main_arg0) (V c main_v0) (V c main_v2) (V c main_v7) (V c main_v9)
    (iblk0 V c 0 t) (iblk0 V c 1 t) (iblk0 V c 2 t) (iblk0 V c 3 t) (iblk0 V c 4 t) ⟨5000 * t.val + p.val, hn⟩ p q
    (fun d => iblk0_0_apply V c t p d hn) (iblk0_1_eq V c t) (iblk0_2_eq V c t) (iblk0_3_eq V c t) (iblk0_4_eq V c t)

/-- An index of the result array is in point `t`'s block iff each coordinate is in the block's range on its axis. -/
theorem mem_blk0_5 (t : Fin cfg0.N) (i : S100000x2.Idx) :
    i ∈ ((cfg0.win 5).blk t).view.set ↔ ∀ a : Fin 2, win0_5.index t a * S5000x2.size a ≤ (i a).val ∧ (i a).val < win0_5.index t a * S5000x2.size a + S5000x2.size a := by
  show i ∈ ((View.whole main_v10).slice (win0_5.rect t)).set ↔ _
  rw [View.set_slice_whole, Rect.mem_set_unit]
  exact Iff.rfl

/-- THE BLOCKS TILE THE ARRAY: row `n` is in the block of point `n / 5000`, which writes back. -/
theorem cover0_5 (i : S100000x2.Idx) : ∃ t : Fin cfg0.N, (cfg0.win 5).flush t = true ∧ i ∈ ((cfg0.win 5).blk t).view.set := by
  have hi0 : (i 0).val < 100000 := (i 0).isLt
  have hi1 : (i 1).val < 2 := (i 1).isLt
  have hN : (i 0).val / 5000 < cfg0.N := lt_of_lt_of_eq (by omega : (i 0).val / 5000 < 20) N_0.symm
  obtain ⟨-, -, e0, e1, -⟩ := blockIndex0 ⟨(i 0).val / 5000, hN⟩
  refine ⟨⟨(i 0).val / 5000, hN⟩, flush0_5 _, ?_⟩
  rw [mem_blk0_5]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hN⟩ (1 : Fin 2) * 2 ≤ (i 1).val ∧ (i 1).val < win0_5.index ⟨(i 0).val / 5000, hN⟩ (1 : Fin 2) * 2 + 2
    rw [e1]
    omega

end ScoresArr

/-- After the last point the result array holds the perceptron of the features and the fused weights, row by row. -/
theorem arr0_5 (c : Dev nD) :
    (dat0 (F := Ideal) V c).arrAt 5 cfg0.N = scores2 (V c main_arg0) (V c main_v0) (V c main_v2) (V c main_v7) (V c main_v9) := by
  exact (dat0 (F := Ideal) V c).arrAt_eq_of_cover 5 (scores2 (V c main_arg0) (V c main_v0) (V c main_v2) (V c main_v7) (V c main_v9))
    (fun t _ => ScoresArr.flushed0_5_eq V c t) ScoresArr.cover0_5

end Cert.KernelIdeal.Hand

end
-- ==== Proof.Spec.lean ====
/-
  What both programs compute, as the reference spells it, cut into stages.

  `score`   — a node's score: the two-layer perceptron `relu(x·W₁ + b₁)·W₂ + b₂` of every row of the node features,
              one number per node.
  `lookup`  — an edge's end score: the node table read at the edge's index (a negative index counted from the end).
  `gate`    — an edge's gate: the logistic `1 / (1 + exp(−z))` of `z = (log ε − log1p(−ε) + w) / 0.5`.
  `mean1m`  — the regulariser: the total of `1 − gate` over all edges, divided by the number of edges.
  `out2`    — the gates laid out as a column of 1×1 cells.
-/
import proofs.«422726_j71648644431894_3_alg».proof.Proof.Gen.ReferenceIdeal
import Idealize.ShloMosaic.PureOps.Ideal

noncomputable section

namespace Cert.Spec

open Cert.ReferenceIdeal Cert.ReferenceIdeal.Gen Idealize.ShloMosaic

abbrev FV (S : Shape) : Type := FVec Ideal S .f32
abbrev IV (S : Shape) : Type := IVec S 32

/-- Every node's score from the node features and one head's weights. -/
def score (x : FV S100000x256) (w1 : FV S256x64) (b1 : FV S64) (w2 : FV S64x1) (b2 : FV S1) : FV S100000 :=
  shapeCast S100000 (addf (F := Ideal) (Host.dotGeneral (F := Ideal) dot_S100000x64_S64x1_S100000x1_1_0_0_1_n_n none
      (maximumf (F := Ideal) (addf (F := Ideal) (Host.dotGeneral (F := Ideal) dot_S100000x256_S256x64_S100000x64_1_0_0_1_n_n none x w1)
          (broadcastInDim S100000x64 ![0, 1] bcast_S1x64_S100000x64_0_1 (broadcastInDim S1x64 ![1] bcast_S64_S1x64_1 b1)))
        (broadcastInDim S100000x64 ![] bcast_S_S100000x64 (constant (F := Ideal) S_ .f32 0x00000000#32))) w2)
    (broadcastInDim S100000x1 ![0, 1] bcast_S1x1_S100000x1_0_1 (broadcastInDim S1x1 ![1] bcast_S1_S1x1_1 b2))) shapeCasts_S100000x1_S100000

/-- An index vector with its negative entries counted from the end, as a column. -/
def wrapIdx (i : IV S3200000) : IV S3200000x1 :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- The node table read at every edge's index. -/
def lookup (v : FV S100000) (i : IV S3200000) : FV S3200000 :=
  Host.gather gather_S100000_S3200000x1_S3200000_n_0_n_n_0_1_1 v (wrapIdx i)

/-- Every edge's gate from its noise and its summed end scores. -/
def gate (eps w : FV S3200000) : FV S3200000 :=
  Host.divf (F := Ideal) (broadcastInDim S3200000 ![] bcast_S_S3200000 (constant (F := Ideal) S_ .f32 0x3F800000#32))
    (addf (F := Ideal) (broadcastInDim S3200000 ![] bcast_S_S3200000 (constant (F := Ideal) S_ .f32 0x3F800000#32))
      (Host.exp (F := Ideal) (Host.negf (F := Ideal) (Host.divf (F := Ideal) (addf (F := Ideal) (subf (F := Ideal) (Host.log (F := Ideal) eps) (Host.log1p (F := Ideal) (Host.negf (F := Ideal) eps))) w)
        (broadcastInDim S3200000 ![] bcast_S_S3200000 (constant (F := Ideal) S_ .f32 0x3F000000#32))))))

/-- The mean of `1 − gate` over the edges. -/
def mean1m (g : FV S3200000) : FV S_ :=
  Host.divf (F := Ideal) (Host.reduceAdd (F := Ideal) (subf (F := Ideal) (broadcastInDim S3200000 ![] bcast_S_S3200000 (constant (F := Ideal) S_ .f32 0x3F800000#32)) g)
    (constant (F := Ideal) S_ .f32 0x00000000#32) reducesTo_S3200000_S_d0 h_S_) (constant (F := Ideal) S_ .f32 0x4A435000#32)

/-- The gates as a column of 1×1 cells. -/
def out2 (g : FV S3200000) : FV S3200000x1x1 :=
  broadcastInDim S3200000x1x1 ![0] bcast_S3200000_S3200000x1x1_0 g

end Cert.Spec

end
-- ==== Proof.ScoresAlg.lean ====
/- The two columns of the fused scorer are the two heads' scores as the reference computes them. -/
import proofs.«422726_j71648644431894_3_alg».proof.Proof.RunDefs
import proofs.«422726_j71648644431894_3_alg».proof.Proof.ScoresArr
import proofs.«422726_j71648644431894_3_alg».proof.Proof.Spec
import proofs.«422726_j71648644431894_3_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

/-! ### The fused weights, as the first host stretch writes them -/

/-- The two heads' first layers side by side: columns 0–63 the source head's, 64–127 the destination head's. -/
def fusedW1 (a b : FVec Ideal S256x64 .f32) : FVec Ideal S256x128 .f32 :=
  concatenate S256x128 1 [⟨S256x64, a⟩, ⟨S256x64, b⟩] concatenates_S256x64_S256x64_S256x128_d1

/-- The two first-layer biases end to end, as one row. -/
def fusedB1 (p q : FVec Ideal S64 .f32) : FVec Ideal S1x128 .f32 :=
  shapeCast S1x128 (concatenate S128 0 [⟨S64, p⟩, ⟨S64, q⟩] concatenates_S64_S64_S128_d0) shapeCasts_S128_S1x128

/-- A column of 64 zeros. -/
def zeroCol : FVec Ideal S64x1 .f32 :=
  broadcastInDim S64x1 ![] bcast_S_S64x1 (constant (F := Ideal) S_ .f32 0x00000000#32)

/-- The two second layers block-diagonally: rows 0–63 are `[a | 0]`, rows 64–127 are `[0 | b]`. -/
def fusedW2 (a b : FVec Ideal S64x1 .f32) : FVec Ideal S128x2 .f32 :=
  concatenate S128x2 0
    [⟨S64x2, concatenate S64x2 1 [⟨S64x1, a⟩, ⟨S64x1, zeroCol⟩] concatenates_S64x1_S64x1_S64x2_d1⟩,
     ⟨S64x2, concatenate S64x2 1 [⟨S64x1, zeroCol⟩, ⟨S64x1, b⟩] concatenates_S64x1_S64x1_S64x2_d1⟩]
    concatenates_S64x2_S64x2_S128x2_d0

/-- The two second-layer biases end to end, as one row. -/
def fusedB2 (r s : FVec Ideal S1 .f32) : FVec Ideal S1x2 .f32 :=
  shapeCast S1x2 (concatenate S2 0 [⟨S1, r⟩, ⟨S1, s⟩] concatenates_S1_S1_S2_d0) shapeCasts_S2_S1x2

theorem fusedW1_left (a b : FVec Ideal S256x64 .f32) (d : Fin 256) (k : Fin 64) :
    fusedW1 a b (ix2 d (Fin.castAdd 64 k)) = a (ix2 d k) :=
  concatenate_pair_apply_left (t := S256x128) (s₁ := S256x64) (s₂ := S256x64) 1 a b _ _ rfl (ix2 d k)
    (fun e => match e with | ⟨0, _⟩ => rfl | ⟨1, _⟩ => rfl)

theorem fusedW1_right (a b : FVec Ideal S256x64 .f32) (d : Fin 256) (k : Fin 64) :
    fusedW1 a b (ix2 d (Fin.natAdd 64 k)) = b (ix2 d k) :=
  concatenate_pair_apply_right (t := S256x128) (s₁ := S256x64) (s₂ := S256x64) 1 a b _ _ rfl rfl (ix2 d k)
    (fun e he => match e, he with | ⟨0, _⟩, _ => rfl | ⟨1, _⟩, he => absurd rfl he) (Nat.add_comm _ _)

theorem fusedB1_left (p q : FVec Ideal S64 .f32) (u : Fin 1) (k : Fin 64) :
    fusedB1 p q (ix2 u (Fin.castAdd 64 k)) = p (ix1 k) :=
  (shapeCast_a_1a_apply _ _ u _).trans
    (concatenate_pair_apply_left (t := S128) (s₁ := S64) (s₂ := S64) 0 p q _ _ rfl (ix1 k)
      (fun e => match e with | ⟨0, _⟩ => rfl))

theorem fusedB1_right (p q : FVec Ideal S64 .f32) (u : Fin 1) (k : Fin 64) :
    fusedB1 p q (ix2 u (Fin.natAdd 64 k)) = q (ix1 k) :=
  (shapeCast_a_1a_apply _ _ u _).trans
    (concatenate_pair_apply_right (t := S128) (s₁ := S64) (s₂ := S64) 0 p q _ _ rfl rfl (ix1 k)
      (fun e he => match e, he with | ⟨0, _⟩, he => absurd rfl he) (Nat.add_comm _ _))

theorem zeroCol_apply (j : S64x1.Idx) : zeroCol j = 0 :=
  (broadcastInDim_apply _ bcast_S_S64x1 _ j ix0 (fun a => a.elim0)).trans Ideal.ofBits_zero_f32

/-- Two 64×2 blocks stacked: a row of the upper half. -/
theorem stack_top (A B : FVec Ideal S64x2 .f32) (k : Fin 64) (q : Fin 2) :
    concatenate S128x2 0 [⟨S64x2, A⟩, ⟨S64x2, B⟩] concatenates_S64x2_S64x2_S128x2_d0 (ix2 (Fin.castAdd 64 k) q) = A (ix2 k q) :=
  concatenate_pair_apply_left (t := S128x2) (s₁ := S64x2) (s₂ := S64x2) 0 A B _ _ rfl (ix2 k q)
    (fun e => match e with | ⟨0, _⟩ => rfl | ⟨1, _⟩ => rfl)

/-- Two 64×2 blocks stacked: a row of the lower half. -/
theorem stack_bot (A B : FVec Ideal S64x2 .f32) (k : Fin 64) (q : Fin 2) :
    concatenate S128x2 0 [⟨S64x2, A⟩, ⟨S64x2, B⟩] concatenates_S64x2_S64x2_S128x2_d0 (ix2 (Fin.natAdd 64 k) q) = B (ix2 k q) :=
  concatenate_pair_apply_right (t := S128x2) (s₁ := S64x2) (s₂ := S64x2) 0 A B _ _ rfl rfl (ix2 k q)
    (fun e he => match e, he with | ⟨0, _⟩, he => absurd rfl he | ⟨1, _⟩, _ => rfl) (Nat.add_comm _ _)

/-- Two columns side by side: the left one. -/
theorem pair_col0 (a b : FVec Ideal S64x1 .f32) (k : Fin 64) :
    concatenate S64x2 1 [⟨S64x1, a⟩, ⟨S64x1, b⟩] concatenates_S64x1_S64x1_S64x2_d1 (ix2 k 0) = a (ix2 k 0) :=
  concatenate_pair_apply_left (t := S64x2) (s₁ := S64x1) (s₂ := S64x1) 1 a b _ _ rfl (ix2 k 0)
    (fun e => match e with | ⟨0, _⟩ => rfl | ⟨1, _⟩ => rfl)

/-- Two columns side by side: the right one. -/
theorem pair_col1 (a b : FVec Ideal S64x1 .f32) (k : Fin 64) :
    concatenate S64x2 1 [⟨S64x1, a⟩, ⟨S64x1, b⟩] concatenates_S64x1_S64x1_S64x2_d1 (ix2 k 1) = b (ix2 k 0) :=
  concatenate_pair_apply_right (t := S64x2) (s₁ := S64x1) (s₂ := S64x1) 1 a b _ _ rfl rfl (ix2 k 0)
    (fun e he => match e, he with | ⟨0, _⟩, _ => rfl | ⟨1, _⟩, he => absurd rfl he) rfl

theorem fusedW2_top0 (a b : FVec Ideal S64x1 .f32) (k : Fin 64) : fusedW2 a b (ix2 (Fin.castAdd 64 k) 0) = a (ix2 k 0) :=
  (stack_top _ _ k 0).trans (pair_col0 _ _ k)
theorem fusedW2_top1 (a b : FVec Ideal S64x1 .f32) (k : Fin 64) : fusedW2 a b (ix2 (Fin.castAdd 64 k) 1) = 0 :=
  (stack_top _ _ k 1).trans ((pair_col1 _ _ k).trans (zeroCol_apply _))
theorem fusedW2_bot0 (a b : FVec Ideal S64x1 .f32) (k : Fin 64) : fusedW2 a b (ix2 (Fin.natAdd 64 k) 0) = 0 :=
  (stack_bot _ _ k 0).trans ((pair_col0 _ _ k).trans (zeroCol_apply _))
theorem fusedW2_bot1 (a b : FVec Ideal S64x1 .f32) (k : Fin 64) : fusedW2 a b (ix2 (Fin.natAdd 64 k) 1) = b (ix2 k 0) :=
  (stack_bot _ _ k 1).trans (pair_col1 _ _ k)

theorem fusedB2_0 (r s : FVec Ideal S1 .f32) (u : Fin 1) : fusedB2 r s (ix2 u 0) = r (ix1 0) :=
  (shapeCast_a_1a_apply _ _ u _).trans
    (concatenate_pair_apply_left (t := S2) (s₁ := S1) (s₂ := S1) 0 r s _ _ rfl (ix1 0)
      (fun e => match e with | ⟨0, _⟩ => rfl))

theorem fusedB2_1 (r s : FVec Ideal S1 .f32) (u : Fin 1) : fusedB2 r s (ix2 u 1) = s (ix1 0) :=
  (shapeCast_a_1a_apply _ _ u _).trans
    (concatenate_pair_apply_right (t := S2) (s₁ := S1) (s₂ := S1) 0 r s _ _ rfl rfl (ix1 0)
      (fun e he => match e, he with | ⟨0, _⟩, he => absurd rfl he) rfl)

/-! ### The reference's score at a node -/

/-- One head's score of node `n`, written out: the rectified first layer's 64 units against the second layer's column, plus its bias. -/
theorem idx2_ext {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

theorem idx1_ext {n0 : Nat} (j : (⟨1, ![n0]⟩ : Shape).Idx) (a : Fin n0) (h0 : (j 0).val = a.val) : j = ix1 a := by
  funext d
  match d with
  | ⟨0, _⟩ => exact Fin.ext h0

theorem score_apply (x : FVec Ideal S100000x256 .f32) (w1 : FVec Ideal S256x64 .f32) (b1 : FVec Ideal S64 .f32)
    (w2 : FVec Ideal S64x1 .f32) (b2 : FVec Ideal S1 .f32) (n : Fin 100000) :
    Cert.Spec.score x w1 b1 w2 b2 (ix1 n)
      = (∑ k : Fin 64, max ((∑ d : Fin 256, x (ix2 n d) * w1 (ix2 d k)) + b1 (ix1 k)) 0 * w2 (ix2 k 0)) + b2 (ix1 0) := by
  have hi : Cert.ReferenceIdeal.Read.idx_main_v9 (ix1 n) = ix2 n 0 := by
    funext a
    match a with
    | ⟨0, _⟩ => exact Fin.ext (Nat.div_one _)
    | ⟨1, _⟩ => rfl
  show Cert.ReferenceIdeal.Read.val_main_v9 (F := Ideal) x w1 b1 w2 b2 (ix1 n) = _
  rw [Cert.ReferenceIdeal.Read.val_main_v9_apply, hi, Cert.ReferenceIdeal.Read.val_main_v8_apply,
    Cert.ReferenceIdeal.Read.val_main_v5_apply, Cert.ReferenceIdeal.Read.val_main_v7_apply,
    Cert.ReferenceIdeal.Read.val_main_v6_apply]
  refine congrArg₂ (· + ·) (Finset.sum_congr rfl fun k _ => ?_)
    (congrArg b2 (funext fun a => match a with | ⟨0, _⟩ => rfl))
  rw [Cert.ReferenceIdeal.Read.val_main_v4_apply, Cert.ReferenceIdeal.Read.val_main_v3_apply,
    Cert.ReferenceIdeal.Read.val_main_v0_apply, Cert.ReferenceIdeal.Read.val_main_v2_apply,
    Cert.ReferenceIdeal.Read.val_main_v1_apply, Cert.ReferenceIdeal.Read.val_main_call0_v0_apply,
    Cert.ReferenceIdeal.Read.val_main_call0_cst_apply]
  have hz : (FloatOps.ofBits (F := Ideal) FTy.f32 0x00000000#32 : EReal) = 0 := Ideal.ofBits_zero_f32
  have e1 : ∀ d : Fin 256, Cert.ReferenceIdeal.Read.lidx_main_v0 (Cert.ReferenceIdeal.Read.lidx_main_v5 (ix2 n 0) k) d = ix2 n d :=
    fun d => idx2_ext _ _ _ rfl rfl
  have e2 : ∀ d : Fin 256, Cert.ReferenceIdeal.Read.ridx_main_v0 (Cert.ReferenceIdeal.Read.lidx_main_v5 (ix2 n 0) k) d = ix2 d k :=
    fun d => idx2_ext _ _ _ rfl rfl
  have e3 : Cert.ReferenceIdeal.Read.idx_main_v1 (Cert.ReferenceIdeal.Read.idx_main_v2 (Cert.ReferenceIdeal.Read.lidx_main_v5 (ix2 n 0) k)) = ix1 k :=
    idx1_ext _ _ rfl
  have e4 : Cert.ReferenceIdeal.Read.ridx_main_v5 (ix2 n 0) k = ix2 k 0 := idx2_ext _ _ _ rfl rfl
  rw [e3, e4, hz]
  simp only [e1, e2]
  rfl

/-! ### The fused scorer's two columns -/

/-- A sum over 128 indices, by halves. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

theorem hidden2_left (x : FVec Ideal S100000x256 .f32) (w1s w1d : FVec Ideal S256x64 .f32) (b1s b1d : FVec Ideal S64 .f32)
    (n : Fin 100000) (k : Fin 64) :
    hidden2 x (fusedW1 w1s w1d) (fusedB1 b1s b1d) n (Fin.castAdd 64 k)
      = max ((∑ d : Fin 256, x (ix2 n d) * w1s (ix2 d k)) + b1s (ix1 k)) 0 := by
  unfold hidden2
  rw [fusedB1_left]
  simp only [fusedW1_left]

theorem hidden2_right (x : FVec Ideal S100000x256 .f32) (w1s w1d : FVec Ideal S256x64 .f32) (b1s b1d : FVec Ideal S64 .f32)
    (n : Fin 100000) (k : Fin 64) :
    hidden2 x (fusedW1 w1s w1d) (fusedB1 b1s b1d) n (Fin.natAdd 64 k)
      = max ((∑ d : Fin 256, x (ix2 n d) * w1d (ix2 d k)) + b1d (ix1 k)) 0 := by
  unfold hidden2
  rw [fusedB1_right]
  simp only [fusedW1_right]

/-- Column 0 of the fused scorer: the lower half of the second layer's column is zero, so only the source head's units count. -/
theorem scoreAt2_col0 (x : FVec Ideal S100000x256 .f32) (w1s w1d : FVec Ideal S256x64 .f32) (b1s b1d : FVec Ideal S64 .f32)
    (w2s w2d : FVec Ideal S64x1 .f32) (b2s b2d : FVec Ideal S1 .f32) (n : Fin 100000) :
    scoreAt2 x (fusedW1 w1s w1d) (fusedB1 b1s b1d) (fusedW2 w2s w2d) (fusedB2 b2s b2d) n 0
      = Cert.Spec.score x w1s b1s w2s b2s (ix1 n) := by
  rw [score_apply]
  unfold scoreAt2
  rw [fusedB2_0, sum_halves]
  have h2 : ∑ k : Fin 64, hidden2 x (fusedW1 w1s w1d) (fusedB1 b1s b1d) n (Fin.natAdd 64 k)
      * fusedW2 w2s w2d (ix2 (Fin.natAdd 64 k) 0) = 0 :=
    Finset.sum_eq_zero fun k _ => by rw [fusedW2_bot0, mul_zero]
  rw [h2, add_zero]
  refine congrArg (· + _) (Finset.sum_congr rfl fun k _ => ?_)
  rw [fusedW2_top0, hidden2_left]

/-- Column 1: the upper half of the second layer's column is zero, so only the destination head's units count. -/
theorem scoreAt2_col1 (x : FVec Ideal S100000x256 .f32) (w1s w1d : FVec Ideal S256x64 .f32) (b1s b1d : FVec Ideal S64 .f32)
    (w2s w2d : FVec Ideal S64x1 .f32) (b2s b2d : FVec Ideal S1 .f32) (n : Fin 100000) :
    scoreAt2 x (fusedW1 w1s w1d) (fusedB1 b1s b1d) (fusedW2 w2s w2d) (fusedB2 b2s b2d) n 1
      = Cert.Spec.score x w1d b1d w2d b2d (ix1 n) := by
  rw [score_apply]
  unfold scoreAt2
  rw [fusedB2_1, sum_halves]
  have h1 : ∑ k : Fin 64, hidden2 x (fusedW1 w1s w1d) (fusedB1 b1s b1d) n (Fin.castAdd 64 k)
      * fusedW2 w2s w2d (ix2 (Fin.castAdd 64 k) 1) = 0 :=
    Finset.sum_eq_zero fun k _ => by rw [fusedW2_top1, mul_zero]
  rw [h1, zero_add]
  refine congrArg (· + _) (Finset.sum_congr rfl fun k _ => ?_)
  rw [fusedW2_bot1, hidden2_right]

/-! ### What the buffers hold -/

variable (m : (ℓ : Loc nD τ sig) → Buf (Elt Ideal) ℓ)

theorem W1_arg0 (c : Dev nD) :
    (W1 (F := Ideal) m c (Proc.devRef .tc main_arg0) : S100000x256.Idx → EReal) = m ((c : Thread nD τ).loc main_arg0) := by
  show StableHlo.after hostOps0 (fun b => m (c, b)) (Proc.devRef .tc main_arg0) = _
  after_results <;> rfl

theorem W1_v0 (c : Dev nD) :
    (W1 (F := Ideal) m c (Proc.devRef .tc main_v0) : S256x128.Idx → EReal)
      = fusedW1 (m ((c : Thread nD τ).loc main_arg4)) (m ((c : Thread nD τ).loc main_arg8)) := by
  show StableHlo.after hostOps0 (fun b => m (c, b)) (Proc.devRef .tc main_v0) = _
  after_results <;> rfl

theorem W1_v2 (c : Dev nD) :
    (W1 (F := Ideal) m c (Proc.devRef .tc main_v2) : S1x128.Idx → EReal)
      = fusedB1 (m ((c : Thread nD τ).loc main_arg5)) (m ((c : Thread nD τ).loc main_arg9)) := by
  show StableHlo.after hostOps0 (fun b => m (c, b)) (Proc.devRef .tc main_v2) = _
  after_results <;> rfl

theorem W1_v7 (c : Dev nD) :
    (W1 (F := Ideal) m c (Proc.devRef .tc main_v7) : S128x2.Idx → EReal)
      = fusedW2 (m ((c : Thread nD τ).loc main_arg6)) (m ((c : Thread nD τ).loc main_arg10)) := by
  show StableHlo.after hostOps0 (fun b => m (c, b)) (Proc.devRef .tc main_v7) = _
  after_results <;> rfl

theorem W1_v9 (c : Dev nD) :
    (W1 (F := Ideal) m c (Proc.devRef .tc main_v9) : S1x2.Idx → EReal)
      = fusedB2 (m ((c : Thread nD τ).loc main_arg7)) (m ((c : Thread nD τ).loc main_arg11)) := by
  show StableHlo.after hostOps0 (fun b => m (c, b)) (Proc.devRef .tc main_v9) = _
  after_results <;> rfl

/-- The scorer's result array at the region's exit: the perceptron over the fused weights. -/
theorem W2_v10 (c : Dev nD) :
    (W2 (F := Ideal) m c (Proc.devRef .tc main_v10) : S100000x2.Idx → EReal)
      = scores2 (m ((c : Thread nD τ).loc main_arg0))
          (fusedW1 (m ((c : Thread nD τ).loc main_arg4)) (m ((c : Thread nD τ).loc main_arg8)))
          (fusedB1 (m ((c : Thread nD τ).loc main_arg5)) (m ((c : Thread nD τ).loc main_arg9)))
          (fusedW2 (m ((c : Thread nD τ).loc main_arg6)) (m ((c : Thread nD τ).loc main_arg10)))
          (fusedB2 (m ((c : Thread nD τ).loc main_arg7)) (m ((c : Thread nD τ).loc main_arg11))) := by
  refine (W2_arr m c 5).trans ((arr0_5 (V1 m) c).trans ?_)
  show scores2 (W1 (F := Ideal) m c (Proc.devRef .tc main_arg0)) (W1 (F := Ideal) m c (Proc.devRef .tc main_v0))
      (W1 (F := Ideal) m c (Proc.devRef .tc main_v2)) (W1 (F := Ideal) m c (Proc.devRef .tc main_v7))
      (W1 (F := Ideal) m c (Proc.devRef .tc main_v9)) = _
  rw [W1_arg0, W1_v0, W1_v2, W1_v7, W1_v9]

/-- A column of a two-column array, laid flat, read at a row. -/
theorem col0_apply (Y : FVec Ideal S100000x2 .f32) (n : Fin 100000) :
    shapeCast S100000 (extractStridedSlice S100000x1 ![0, 0] Y slices_S100000x2_S100000x1_0_0) shapeCasts_S100000x1_S100000 (ix1 n)
      = Y (ix2 n 0) :=
  (shapeCast_apply _ shapeCasts_S100000x1_S100000 (ix1 n) (ix2 n 0)
    (by rw [Shape.rowMajor_val_two, Shape.rowMajor_val_one]; show n.val * 1 + 0 = n.val; omega)).trans
    (slice2_axis1_apply 0 Y slices_S100000x2_S100000x1_0_0 n 0 0 rfl)

theorem col1_apply (Y : FVec Ideal S100000x2 .f32) (n : Fin 100000) :
    shapeCast S100000 (extractStridedSlice S100000x1 ![0, 1] Y slices_S100000x2_S100000x1_0_1) shapeCasts_S100000x1_S100000 (ix1 n)
      = Y (ix2 n 1) :=
  (shapeCast_apply _ shapeCasts_S100000x1_S100000 (ix1 n) (ix2 n 0)
    (by rw [Shape.rowMajor_val_two, Shape.rowMajor_val_one]; show n.val * 1 + 0 = n.val; omega)).trans
    (slice2_axis1_apply 1 Y slices_S100000x2_S100000x1_0_1 n 0 1 rfl)

theorem W3_v12 (c : Dev nD) :
    (W3 (F := Ideal) m c (Proc.devRef .tc main_v12) : S100000.Idx → EReal)
      = shapeCast S100000 (extractStridedSlice S100000x1 ![0, 0] (W2 (F := Ideal) m c (Proc.devRef .tc main_v10)) slices_S100000x2_S100000x1_0_0)
          shapeCasts_S100000x1_S100000 := by
  show StableHlo.after hostOps1 (W2 m c) (Proc.devRef .tc main_v12) = _
  after_results <;> rfl

theorem W3_v14 (c : Dev nD) :
    (W3 (F := Ideal) m c (Proc.devRef .tc main_v14) : S100000.Idx → EReal)
      = shapeCast S100000 (extractStridedSlice S100000x1 ![0, 1] (W2 (F := Ideal) m c (Proc.devRef .tc main_v10)) slices_S100000x2_S100000x1_0_1)
          shapeCasts_S100000x1_S100000 := by
  show StableHlo.after hostOps1 (W2 m c) (Proc.devRef .tc main_v14) = _
  after_results <;> rfl

/-- Column 0 of the scorer's result, laid flat, is the source head's score of every node. -/
theorem score_col0 (c : Dev nD) :
    W3 (F := Ideal) m c (Proc.devRef .tc main_v12)
      = Cert.Spec.score (m ((c : Thread nD τ).loc main_arg0)) (m ((c : Thread nD τ).loc main_arg4)) (m ((c : Thread nD τ).loc main_arg5))
          (m ((c : Thread nD τ).loc main_arg6)) (m ((c : Thread nD τ).loc main_arg7)) := by
  refine (W3_v12 m c).trans ?_
  funext i
  obtain ⟨n, rfl⟩ : ∃ n : Fin 100000, i = ix1 n := ⟨i 0, eq_ix1 i⟩
  rw [col0_apply, W2_v10, scores2_apply]
  exact scoreAt2_col0 _ _ _ _ _ _ _ _ _ n

/-- Column 1 is the destination head's. -/
theorem score_col1 (c : Dev nD) :
    W3 (F := Ideal) m c (Proc.devRef .tc main_v14)
      = Cert.Spec.score (m ((c : Thread nD τ).loc main_arg0)) (m ((c : Thread nD τ).loc main_arg8)) (m ((c : Thread nD τ).loc main_arg9))
          (m ((c : Thread nD τ).loc main_arg10)) (m ((c : Thread nD τ).loc main_arg11)) := by
  refine (W3_v14 m c).trans ?_
  funext i
  obtain ⟨n, rfl⟩ : ∃ n : Fin 100000, i = ix1 n := ⟨i 0, eq_ix1 i⟩
  rw [col1_apply, W2_v10, scores2_apply]
  exact scoreAt2_col1 _ _ _ _ _ _ _ _ _ n

end Cert.KernelIdeal.Hand

end
-- ==== Proof.Take.lean ====
/- With every index in range the guarded look-up is the plain one: the summed end scores of every edge. -/
import proofs.«422726_j71648644431894_3_alg».proof.Proof.RunDefs
import proofs.«422726_j71648644431894_3_alg».proof.Proof.Spec
import proofs.«422726_j71648644431894_3_alg».proof.Defs
import Idealize.ShloMosaic.Lib.StableHlo.Run
import Idealize.ShloMosaic.Lib.StableHlo.Predicate
import Idealize.ShloMosaic.Lib.ReduceAll

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Words -/

/-- A word in `[0, 100000)` read signed is not negative, so it is not wrapped; and it passes the look-up's guard. -/
theorem word_inRange (w : BitVec 32) (h0 : BitVec.sle 0#32 w = true) (h1 : BitVec.slt w 100000#32 = true) :
    Scalar.select (IntOp.cmpi .slt w 0#32) (IntOp.addi w 100000#32) w = w
      ∧ IntOp.andi (IntOp.cmpi .sge w 0#32) (IntOp.cmpi .sle w 99999#32) = 1#1 := by
  have z0 : (0#32 : BitVec 32).toInt = 0 := by decide
  have z1 : (100000#32 : BitVec 32).toInt = 100000 := by decide
  have z9 : (99999#32 : BitVec 32).toInt = 99999 := by decide
  simp only [BitVec.sle, BitVec.slt, decide_eq_true_eq, z0, z1] at h0 h1
  have a : w.slt 0#32 = false := by
    simp only [BitVec.slt, z0]; exact decide_eq_false (by omega)
  have b : (0#32 : BitVec 32).sle w = true := by
    simp only [BitVec.sle, z0]; exact decide_eq_true (by omega)
  have c : w.sle 99999#32 = true := by
    simp only [BitVec.sle, z9]; exact decide_eq_true (by omega)
  constructor
  · simp only [IntOp.cmpi, a, Scalar.select]
    rfl
  · simp only [IntOp.cmpi, b, c]
    rfl

/-- A fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a]
    exact foldl_andi_ones f hf l

/-! ## The precondition, decoded -/

variable (m : (ℓ : Loc nD τ sig) → Buf (Elt Ideal) ℓ)

/-- Every source and destination index lies in `[0, 100000)`, on every core. -/
def InRange : Prop :=
  ∀ c : Dev nD, ∀ e : S3200000.Idx,
    (BitVec.sle 0#32 (m ((c : Thread nD τ).loc main_arg1) e) = true ∧ BitVec.slt (m ((c : Thread nD τ).loc main_arg1) e) 100000#32 = true)
    ∧ (BitVec.sle 0#32 (m ((c : Thread nD τ).loc main_arg2) e) = true ∧ BitVec.slt (m ((c : Thread nD τ).loc main_arg2) e) 100000#32 = true)

theorem andi_apply_eq_one {s : Shape} (x y : IVec s 1) (i : s.Idx) : andi x y i = 1#1 ↔ x i = 1#1 ∧ y i = 1#1 :=
  IntOp.andi_eq_one

/-- The stated precondition gives it. -/
theorem inRange_of_pre [Cert.Pre_finite_inputs.Facts] (h : Cert.Pre_KernelIdeal m) : InRange m := by
  intro c e
  haveI : Subsingleton Cert.Pre_finite_inputs.S_.Idx := ⟨fun a b => funext fun d => d.elim0⟩
  have h0 := congrFun (h c) (fun a => a.elim0 : Cert.Pre_finite_inputs.S_.Idx)
  dsimp only [Cert.Pre_finite_inputs.fn, Cert.Pre_finite_inputs.fn_part1, Cert.Pre_finite_inputs.fn_part2,
    Cert.Pre_finite_inputs.fn_part3] at h0
  rw [andi_apply_eq_one] at h0
  obtain ⟨h1, hdst⟩ := h0
  rw [andi_apply_eq_one] at h1
  obtain ⟨-, hsrc⟩ := h1
  have hs := Host.reduce_andi_all _ _ _ _ _ hsrc e
  have hd := Host.reduce_andi_all _ _ _ _ _ hdst e
  rw [andi_apply_eq_one] at hs hd
  exact ⟨⟨(StableHlo.Predicate.ofBool_eq_one_iff _).1 hs.1, (StableHlo.Predicate.ofBool_eq_one_iff _).1 hs.2⟩,
    ⟨(StableHlo.Predicate.ofBool_eq_one_iff _).1 hd.1, (StableHlo.Predicate.ofBool_eq_one_iff _).1 hd.2⟩⟩

/-- A typed reference's two transports undo each other. -/
theorem ofBuf_toBuf {Val : EltTy → Type} {T : BufTy} (x : StableHlo.TRef sig T) (v : T.Contents Val) :
    x.ofBuf (x.toBuf v) = v := by
  obtain ⟨r, te, od, us⟩ := x
  subst te
  rfl

/-! ## The look-up, as printed -/

section Printed

variable {F : FTy → Type} [FloatOps F]

/-- An index vector with its negative entries counted from the end, as a column (the kernel's spelling). -/
def wrapK (i : IVec S3200000 32) : IVec S3200000x1 32 :=
  broadcastInDim S3200000x1 ![0] bcast_S3200000_S3200000x1_0
    (select (cmpi .slt i (broadcastInDim S3200000 ![] bcast_S_S3200000 (constantI S_ 32 0#32)))
      (addi i (broadcastInDim S3200000 ![] bcast_S_S3200000 (constantI S_ 32 100000#32))) i)

/-- The look-up's guard: every entry of the index column in `[0, 99999]`. -/
def guardK (j : IVec S3200000x1 32) : IVec S3200000 1 :=
  Host.reduce IntOp.andi
    (andi (cmpi .sge j (broadcastInDim S3200000x1 ![] bcast_S_S3200000x1 (constantI S_ 32 0#32)))
      (cmpi .sle j (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The guarded look-up: the table read at the wrapped index where the guard holds, a not-a-number elsewhere. -/
def takeK (v : FVec F S100000 .f32) (i : IVec S3200000 32) : FVec F S3200000 .f32 :=
  select (guardK (wrapK i)) (Host.gather gather_S100000_S3200000x1_S3200000_n_0_n_n_0_1_1 v (wrapK i))
    (broadcastInDim S3200000 ![] bcast_S_S3200000 (constant (F := F) S_ .f32 0x7FC00000#32))

/-- The look-ups' result references hold what is stored at their value's type. -/
theorem toBuf_v15 (X : FVec F S3200000 .f32) :
    (StableHlo.TRef.of main_v15 : StableHlo.TRef sig ⟨S3200000, .f32⟩).toBuf (Val := Elt F) X = X := rfl
theorem toBuf_v16 (X : FVec F S3200000 .f32) :
    (StableHlo.TRef.of main_v16 : StableHlo.TRef sig ⟨S3200000, .f32⟩).toBuf (Val := Elt F) X = X := rfl

set_option maxHeartbeats 4000000 in
/-- The first look-up's host stretch leaves the guarded look-up of its table and index vector. -/
theorem after1_v15 (V : Valuation τ sig (Elt F)) :
    StableHlo.after hostOps1_1 V (Proc.devRef .tc main_v15)
      = takeK (F := F) (V (Proc.devRef .tc main_v12)) (V (Proc.devRef .tc main_arg1)) := by
  after_results
  repeat rw [ofBuf_toBuf]
  have e1 : (StableHlo.TRef.of main_arg1 : StableHlo.TRef sig ⟨S3200000, .i32⟩).ofBuf (V (Proc.devRef .tc main_arg1))
      = V (Proc.devRef .tc main_arg1) := rfl
  have e2 : (StableHlo.TRef.of main_v12 : StableHlo.TRef sig ⟨S100000, .f32⟩).ofBuf (V (Proc.devRef .tc main_v12))
      = V (Proc.devRef .tc main_v12) := rfl
  rw [e1, e2, toBuf_v15]
  unfold takeK wrapK guardK
  rfl

set_option maxHeartbeats 4000000 in
/-- The second look-up's host stretch leaves the guarded look-up of its table and index vector. -/
theorem after2_v16 (V : Valuation τ sig (Elt F)) :
    StableHlo.after hostOps1_2 V (Proc.devRef .tc main_v16)
      = takeK (F := F) (V (Proc.devRef .tc main_v14)) (V (Proc.devRef .tc main_arg2)) := by
  after_results
  repeat rw [ofBuf_toBuf]
  have e1 : (StableHlo.TRef.of main_arg2 : StableHlo.TRef sig ⟨S3200000, .i32⟩).ofBuf (V (Proc.devRef .tc main_arg2))
      = V (Proc.devRef .tc main_arg2) := rfl
  have e2 : (StableHlo.TRef.of main_v14 : StableHlo.TRef sig ⟨S100000, .f32⟩).ofBuf (V (Proc.devRef .tc main_v14))
      = V (Proc.devRef .tc main_v14) := rfl
  rw [e1, e2, toBuf_v16]
  unfold takeK wrapK guardK
  rfl

set_option maxHeartbeats 4000000 in
/-- The first look-up's host stretch writes neither the second table nor the second index vector. -/
theorem after1_v14 (V : Valuation τ sig (Elt F)) :
    StableHlo.after hostOps1_1 V (Proc.devRef .tc main_v14) = V (Proc.devRef .tc main_v14) := by
  after_results
  try rfl

set_option maxHeartbeats 4000000 in
theorem after1_arg2 (V : Valuation τ sig (Elt F)) :
    StableHlo.after hostOps1_1 V (Proc.devRef .tc main_arg2) = V (Proc.devRef .tc main_arg2) := by
  after_results
  try rfl

set_option maxHeartbeats 4000000 in
/-- The second look-up's host stretch keeps the first's result. -/
theorem after2_v15 (V : Valuation τ sig (Elt F)) :
    StableHlo.after hostOps1_2 V (Proc.devRef .tc main_v15) = V (Proc.devRef .tc main_v15) := by
  after_results
  try rfl

/-- The sum of the two look-ups. -/
theorem after3_v17 (V : Valuation τ sig (Elt F)) :
    StableHlo.after hostOps1_3 V (Proc.devRef .tc main_v17)
      = addf (F := F) (s := S3200000) (φ := .f32) (V (Proc.devRef .tc main_v15)) (V (Proc.devRef .tc main_v16)) := by
  after_results
  try rfl

set_option maxHeartbeats 4000000 in
/-- No host stretch before the look-ups writes an index vector, and the node scorer has none among its arrays. -/
theorem W3_arg1 (m : (ℓ : Loc nD τ sig) → Buf (Elt F) ℓ) (c : Dev nD) :
    W3 (F := F) m c (Proc.devRef .tc main_arg1) = m ((c : Thread nD τ).loc main_arg1) := by
  have a : W3 (F := F) m c (Proc.devRef .tc main_arg1) = W2 (F := F) m c (Proc.devRef .tc main_arg1) := by
    show StableHlo.after hostOps1 (W2 (F := F) m c) (Proc.devRef .tc main_arg1) = _
    generalize W2 (F := F) m c = V
    after_results
    try rfl
  have b : W1 (F := F) m c (Proc.devRef .tc main_arg1) = m ((c : Thread nD τ).loc main_arg1) := by
    show StableHlo.after hostOps0 (W0 (F := F) m c) (Proc.devRef .tc main_arg1) = _
    after_results
    try rfl
  exact a.trans ((W2_of_ne m c main_arg1 (by decide)).trans b)

set_option maxHeartbeats 4000000 in
theorem W3_arg2 (m : (ℓ : Loc nD τ sig) → Buf (Elt F) ℓ) (c : Dev nD) :
    W3 (F := F) m c (Proc.devRef .tc main_arg2) = m ((c : Thread nD τ).loc main_arg2) := by
  have a : W3 (F := F) m c (Proc.devRef .tc main_arg2) = W2 (F := F) m c (Proc.devRef .tc main_arg2) := by
    show StableHlo.after hostOps1 (W2 (F := F) m c) (Proc.devRef .tc main_arg2) = _
    generalize W2 (F := F) m c = V
    after_results
    try rfl
  have b : W1 (F := F) m c (Proc.devRef .tc main_arg2) = m ((c : Thread nD τ).loc main_arg2) := by
    show StableHlo.after hostOps0 (W0 (F := F) m c) (Proc.devRef .tc main_arg2) = _
    after_results
    try rfl
  exact a.trans ((W2_of_ne m c main_arg2 (by decide)).trans b)

end Printed

/-! ## In range, the guard holds everywhere -/

/-- The kernel's wrapped index column is the reference's. -/
theorem wrapK_eq (i : IVec S3200000 32) : wrapK i = Cert.Spec.wrapIdx i := rfl

/-- The two programs' gather records are one record. -/
theorem gatherDims_eq :
    (gather_S100000_S3200000x1_S3200000_n_0_n_n_0_1_1 : GatherDims S100000 S3200000x1 S3200000)
      = Cert.ReferenceIdeal.gather_S100000_S3200000x1_S3200000_n_0_n_n_0_1_1 := rfl

/-- A vector laid as a column reads, at each index of the column, the vector at some index. -/
theorem col_apply_exists {α : Type} (x : S3200000.Idx → α) (j : S3200000x1.Idx) :
    ∃ e, broadcastInDim S3200000x1 ![0] bcast_S3200000_S3200000x1_0 x j = x e := ⟨_, rfl⟩

theorem guardK_one (i : IVec S3200000 32)
    (hi : ∀ e, BitVec.sle 0#32 (i e) = true ∧ BitVec.slt (i e) 100000#32 = true) (p : S3200000.Idx) :
    guardK (wrapK i) p = 1#1 := by
  unfold guardK
  rw [Host.reduce_eq_foldl]
  refine foldl_andi_ones _ (fun j => ?_) _
  obtain ⟨e, he⟩ := col_apply_exists
    (select (cmpi .slt i (broadcastInDim S3200000 ![] bcast_S_S3200000 (constantI S_ 32 0#32)))
      (addi i (broadcastInDim S3200000 ![] bcast_S_S3200000 (constantI S_ 32 100000#32))) i) j
  have hw := word_inRange (i e) (hi e).1 (hi e).2
  show IntOp.andi (IntOp.cmpi .sge (wrapK i j) 0#32) (IntOp.cmpi .sle (wrapK i j) 99999#32) = 1#1
  have hj : wrapK i j = i e := he.trans hw.1
  rw [hj]
  exact hw.2

theorem select_apply {s : Shape} {α : Type} (c : IVec s 1) (a b : s.Idx → α) (p : s.Idx) :
    select c a b p = Scalar.select (c p) (a p) (b p) := rfl
theorem scalar_select_one {α : Type} (a b : α) : Scalar.select 1#1 a b = a := if_pos rfl

/-- Where the guard holds everywhere the guarded look-up is the plain gather at the wrapped index. -/
theorem takeK_eq_gather {F : FTy → Type} [FloatOps F] (v : FVec F S100000 .f32) (i : IVec S3200000 32)
    (hg : ∀ p, guardK (wrapK i) p = 1#1) :
    takeK (F := F) v i = Host.gather gather_S100000_S3200000x1_S3200000_n_0_n_n_0_1_1 v (wrapK i) := by
  funext p
  unfold takeK
  rw [select_apply, hg p, scalar_select_one]

/-- With every index in range the guarded look-up is the reference's plain one. -/
theorem takeK_eq_lookup (v : FVec Ideal S100000 .f32) (i : IVec S3200000 32)
    (hi : ∀ e, BitVec.sle 0#32 (i e) = true ∧ BitVec.slt (i e) 100000#32 = true) :
    takeK (F := Ideal) v i = Cert.Spec.lookup v i := by
  unfold Cert.Spec.lookup
  rw [takeK_eq_gather v i (guardK_one i hi), gatherDims_eq, wrapK_eq]

/-- The summed end scores as the edge gate is handed them, flat. -/
theorem weight_eq (h : InRange m) (c : Dev nD) :
    W6 (F := Ideal) m c (Proc.devRef .tc main_v17)
      = addf (F := Ideal) (Cert.Spec.lookup (W3 (F := Ideal) m c (Proc.devRef .tc main_v12)) (m ((c : Thread nD τ).loc main_arg1)))
          (Cert.Spec.lookup (W3 (F := Ideal) m c (Proc.devRef .tc main_v14)) (m ((c : Thread nD τ).loc main_arg2))) := by
  have a : W6 (F := Ideal) m c (Proc.devRef .tc main_v17)
      = addf (F := Ideal) (s := S3200000) (φ := .f32) (W5 (F := Ideal) m c (Proc.devRef .tc main_v15)) (W5 (F := Ideal) m c (Proc.devRef .tc main_v16)) :=
    after3_v17 (W5 (F := Ideal) m c)
  have b15 : W5 (F := Ideal) m c (Proc.devRef .tc main_v15) = W4 (F := Ideal) m c (Proc.devRef .tc main_v15) :=
    after2_v15 (W4 (F := Ideal) m c)
  have t15 : W4 (F := Ideal) m c (Proc.devRef .tc main_v15)
      = takeK (F := Ideal) (W3 (F := Ideal) m c (Proc.devRef .tc main_v12)) (W3 (F := Ideal) m c (Proc.devRef .tc main_arg1)) :=
    after1_v15 (W3 (F := Ideal) m c)
  have t16 : W5 (F := Ideal) m c (Proc.devRef .tc main_v16)
      = takeK (F := Ideal) (W4 (F := Ideal) m c (Proc.devRef .tc main_v14)) (W4 (F := Ideal) m c (Proc.devRef .tc main_arg2)) :=
    after2_v16 (W4 (F := Ideal) m c)
  have k14 : W4 (F := Ideal) m c (Proc.devRef .tc main_v14) = W3 (F := Ideal) m c (Proc.devRef .tc main_v14) :=
    after1_v14 (W3 (F := Ideal) m c)
  have k2 : W4 (F := Ideal) m c (Proc.devRef .tc main_arg2) = W3 (F := Ideal) m c (Proc.devRef .tc main_arg2) :=
    after1_arg2 (W3 (F := Ideal) m c)
  rw [a, b15, t15, t16, k14, k2, W3_arg1 m c, W3_arg2 m c,
    takeK_eq_lookup _ _ (fun e => (h c e).1), takeK_eq_lookup _ _ (fun e => (h c e).2)]

end Cert.KernelIdeal.Hand

end
-- ==== Proof.GateOut.lean ====
/- The gate output: every block of the edge gate's first result, laid flat, is the reference's gate of the same edge. -/
import proofs.«422726_j71648644431894_3_alg».proof.Proof.RunDefs
import proofs.«422726_j71648644431894_3_alg».proof.Proof.Spec
import proofs.«422726_j71648644431894_3_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## One edge's gate -/

/-- One edge's gate on the extended reals: the logistic of `(log ε − log1p(0 − ε) + w) / 0.5`, the two float words
    kept as words. -/
def gateAt (e w : EReal) : EReal :=
  Ideal.logistic (Ideal.div (Ideal.log e - Ideal.log1p (Ideal.ofBits .f32 0x00000000#32 - e) + w) (Ideal.ofBits .f32 0x3F000000#32))

/-- The float word of `1.0` denotes the real one: the logistic's `1 / (1 + exp(−z))` is the reference's quotient. -/
theorem gate_word_one : Ideal.ofBits .f32 0x3F800000#32 = 1 := by
  simp [Ideal.ofBits, Ideal.ieee, -EReal.coe_mul]; norm_num

/-- The kernel's block of gates, entry by entry: the two casts between 1×1×6250×128 and 6250×128 keep every entry's
    row-major place, and everything between them is entrywise. -/
theorem gate1_at (w e : Vec Ideal S1x1x6250x128 .f32) (j : S1x1x6250x128.Idx) :
    gate1 (F := Ideal) w e j = gateAt (e j) (w j) := by
  have hj0 : (j 0).val < 1 := (j 0).isLt
  have hj1 : (j 1).val < 1 := (j 1).isLt
  have hj2 : (j 2).val < 6250 := (j 2).isLt
  have hj3 : (j 3).val < 128 := (j 3).isLt
  have hk : (S6250x128.rowMajor (ix2 (j 2) (j 3))).val = (S1x1x6250x128.rowMajor j).val := by
    rw [Shape.rowMajor_val_two, Shape.rowMajor_val_four]
    show (j 2).val * 128 + (j 3).val = (((j 0).val * 1 + (j 1).val) * 6250 + (j 2).val) * 128 + (j 3).val
    omega
  unfold gate1 k1_pay4
  refine (shapeCast_apply _ _ j (ix2 (j 2) (j 3)) hk).trans ?_
  unfold k1_pay3
  have e1 : shapeCast S6250x128 e shapeCasts_S1x1x6250x128_S6250x128 (ix2 (j 2) (j 3)) = e j :=
    shapeCast_apply _ _ _ j hk.symm
  have e2 : shapeCast S6250x128 w shapeCasts_S1x1x6250x128_S6250x128 (ix2 (j 2) (j 3)) = w j :=
    shapeCast_apply _ _ _ j hk.symm
  show Ideal.logistic (Ideal.div (Ideal.log (shapeCast S6250x128 e shapeCasts_S1x1x6250x128_S6250x128 (ix2 (j 2) (j 3))) - Ideal.log1p (Ideal.ofBits .f32 0x00000000#32 - shapeCast S6250x128 e shapeCasts_S1x1x6250x128_S6250x128 (ix2 (j 2) (j 3))) + shapeCast S6250x128 w shapeCasts_S1x1x6250x128_S6250x128 (ix2 (j 2) (j 3))) (Ideal.ofBits .f32 0x3F000000#32)) = _
  rw [e1, e2]
  rfl

/-- The reference's gate, edge by edge: its `1 / (1 + exp(−z))` is the logistic of `z`, and its `−ε` is `0 − ε`. -/
theorem specGate_at (eps w : Cert.Spec.FV Cert.ReferenceIdeal.S3200000) (i : Cert.ReferenceIdeal.S3200000.Idx) :
    Cert.Spec.gate eps w i = gateAt (eps i) (w i) := by
  unfold Cert.Spec.gate gateAt
  simp only [Host.divf, Host.exp, Host.negf, Host.log, Host.log1p, addf, subf, broadcastInDim, constant,
    Ideal.hostDivf_def, Ideal.hostUnary_exp_def, Ideal.hostUnary_log_def, Ideal.hostUnary_log1p_def, Ideal.hostNegf_def,
    Ideal.negf_def, Ideal.addf_def, Ideal.subf_def, Ideal.ofBits_def, Ideal.logistic, gate_word_one, Ideal.ofBits_zero_f32, zero_sub]

/-! ## The blocks of the 2×2 grid -/

/-- Point `t` of the 2×2 grid takes block `(t / 2, t % 2, 0, 0)` of each of the three arrays. -/
theorem gateGrid_index : ∀ t : Fin cfg1.N,
    (win1_0.index t (0 : Fin 4) = t.val / 2 ∧ win1_0.index t (1 : Fin 4) = t.val % 2 ∧ win1_0.index t (2 : Fin 4) = 0 ∧ win1_0.index t (3 : Fin 4) = 0)
    ∧ (win1_1.index t (0 : Fin 4) = t.val / 2 ∧ win1_1.index t (1 : Fin 4) = t.val % 2 ∧ win1_1.index t (2 : Fin 4) = 0 ∧ win1_1.index t (3 : Fin 4) = 0)
    ∧ (win1_2.index t (0 : Fin 4) = t.val / 2 ∧ win1_2.index t (1 : Fin 4) = t.val % 2 ∧ win1_2.index t (2 : Fin 4) = 0 ∧ win1_2.index t (3 : Fin 4) = 0) :=
  (by decide +kernel : ∀ t : Fin grid1.N, _)

/-- An entry of the score window's block at point `t`, read off any array, is the array's entry in half `t / 2`,
    block `t % 2`, at the same row and lane. -/
theorem gateScores_read (c : Dev nD) (A : Vec Ideal S2x2x6250x128 .f32) (t : Fin cfg1.N) (x : S1x1x6250x128.Idx) (k : S2x2x6250x128.Idx)
    (h0 : (k 0).val = t.val / 2) (h1 : (k 1).val = t.val % 2) (h2 : (k 2).val = (x 2).val) (h3 : (k 3).val = (x 3).val) :
    (((cfg1.win 0).blk t).view.read (Elt Ideal) A : Vec Ideal S1x1x6250x128 .f32) x = A k := by
  obtain ⟨⟨e0, e1, e2, e3⟩, -, -⟩ := gateGrid_index t
  have hx0 : (x 0).val < 1 := (x 0).isLt
  have hx1 : (x 1).val < 1 := (x 1).isLt
  rw [View.read_apply]
  refine congrArg A (funext fun a => Fin.ext ?_)
  match a with
  | ⟨0, _⟩ => show win1_0.index t 0 * 1 + 1 * (x 0).val = (k 0).val; rw [e0, h0]; omega
  | ⟨1, _⟩ => show win1_0.index t 1 * 1 + 1 * (x 1).val = (k 1).val; rw [e1, h1]; omega
  | ⟨2, _⟩ => show win1_0.index t 2 * 6250 + 1 * (x 2).val = (k 2).val; rw [e2, h2]; omega
  | ⟨3, _⟩ => show win1_0.index t 3 * 128 + 1 * (x 3).val = (k 3).val; rw [e3, h3]; omega

/-- The same for the noise window. -/
theorem gateNoise_read (c : Dev nD) (A : Vec Ideal S2x2x6250x128 .f32) (t : Fin cfg1.N) (x : S1x1x6250x128.Idx) (k : S2x2x6250x128.Idx)
    (h0 : (k 0).val = t.val / 2) (h1 : (k 1).val = t.val % 2) (h2 : (k 2).val = (x 2).val) (h3 : (k 3).val = (x 3).val) :
    (((cfg1.win 1).blk t).view.read (Elt Ideal) A : Vec Ideal S1x1x6250x128 .f32) x = A k := by
  obtain ⟨-, ⟨e0, e1, e2, e3⟩, -⟩ := gateGrid_index t
  have hx0 : (x 0).val < 1 := (x 0).isLt
  have hx1 : (x 1).val < 1 := (x 1).isLt
  rw [View.read_apply]
  refine congrArg A (funext fun a => Fin.ext ?_)
  match a with
  | ⟨0, _⟩ => show win1_1.index t 0 * 1 + 1 * (x 0).val = (k 0).val; rw [e0, h0]; omega
  | ⟨1, _⟩ => show win1_1.index t 1 * 1 + 1 * (x 1).val = (k 1).val; rw [e1, h1]; omega
  | ⟨2, _⟩ => show win1_1.index t 2 * 6250 + 1 * (x 2).val = (k 2).val; rw [e2, h2]; omega
  | ⟨3, _⟩ => show win1_1.index t 3 * 128 + 1 * (x 3).val = (k 3).val; rw [e3, h3]; omega

/-- Where an entry of the gate window's block at point `t` sits in the array: half `t / 2`, block `t % 2`, its own
    row and lane. -/
theorem gateOut_emb (c : Dev nD) (t : Fin cfg1.N) (j : ((cfg1.win 2).xblock (grid1.coords t)).Idx) :
    ((((cfg1.win 2).blk t).view.emb j : S2x2x6250x128.Idx) 0).val = t.val / 2
    ∧ ((((cfg1.win 2).blk t).view.emb j : S2x2x6250x128.Idx) 1).val = t.val % 2
    ∧ ((((cfg1.win 2).blk t).view.emb j : S2x2x6250x128.Idx) 2).val = (j 2).val
    ∧ ((((cfg1.win 2).blk t).view.emb j : S2x2x6250x128.Idx) 3).val = (j 3).val := by
  obtain ⟨-, -, ⟨e0, e1, e2, e3⟩⟩ := gateGrid_index t
  have hj0 : (j 0).val < 1 := (j 0).isLt
  have hj1 : (j 1).val < 1 := (j 1).isLt
  refine ⟨?_, ?_, ?_, ?_⟩
  · show win1_2.index t 0 * 1 + 1 * (j 0).val = _; rw [e0]; omega
  · show win1_2.index t 1 * 1 + 1 * (j 1).val = _; rw [e1]; omega
  · show win1_2.index t 2 * 6250 + 1 * (j 2).val = _; rw [e2]; omega
  · show win1_2.index t 3 * 128 + 1 * (j 3).val = _; rw [e3]; omega

/-- The gate's block at point `t` from any two arrays read through the score and noise windows: entry by entry the
    gate of the arrays' entries where the gate window's block sits. -/
theorem gateBlock_at (c : Dev nD) (A E : Vec Ideal S2x2x6250x128 .f32) (t : Fin cfg1.N) (j : ((cfg1.win 2).xblock (grid1.coords t)).Idx) :
    gate1 (F := Ideal) (((cfg1.win 0).blk t).view.read (Elt Ideal) A : Vec Ideal S1x1x6250x128 .f32)
        (((cfg1.win 1).blk t).view.read (Elt Ideal) E : Vec Ideal S1x1x6250x128 .f32) ((cfg1.win 2).xinj (grid1.coords t) j)
      = gateAt (E (((cfg1.win 2).blk t).view.emb j)) (A (((cfg1.win 2).blk t).view.emb j)) := by
  obtain ⟨k0, k1, k2, k3⟩ := gateOut_emb c t j
  refine (gate1_at _ _ ((cfg1.win 2).xinj (grid1.coords t) j)).trans ?_
  rw [gateScores_read c A t ((cfg1.win 2).xinj (grid1.coords t) j) (((cfg1.win 2).blk t).view.emb j) k0 k1 k2 k3,
    gateNoise_read c E t ((cfg1.win 2).xinj (grid1.coords t) j) (((cfg1.win 2).blk t).view.emb j) k0 k1 k2 k3]

/-! ## From the blocks to the array -/

variable (m : (ℓ : Loc nD τ sig) → Buf (Elt Ideal) ℓ)

/-- The summed scores as the edge gate finds them, by halves and blocks. -/
abbrev gateScores (c : Dev nD) : Vec Ideal S2x2x6250x128 .f32 := V6 (F := Ideal) m c main_v18
/-- The noise as the edge gate finds it, by halves and blocks. -/
abbrev gateNoise (c : Dev nD) : Vec Ideal S2x2x6250x128 .f32 := V6 (F := Ideal) m c main_v19

/-- The whole array of gates: every edge's gate at its place by half, block, row and lane. -/
def gateArr (c : Dev nD) : Vec Ideal S2x2x6250x128 .f32 := fun i => gateAt (gateNoise m c i) (gateScores m c i)

/-- What point `t` writes back is block `t` of the array of gates. -/
theorem gateFlushed_eq (c : Dev nD) (t : Fin cfg1.N) :
    (dat1 (V6 (F := Ideal) m) c).flushed 2 t = ((cfg1.win 2).blk t).view.read (Elt Ideal) (gateArr m c) := by
  show (cfg1.win 2).cut (grid1.coords t) ((dat1 (V6 (F := Ideal) m) c).after 2 t) = _
  rw [after1_2]
  funext j
  exact gateBlock_at c (gateScores m c) (gateNoise m c) t j

/-- An index of the array is in point `t`'s block iff each coordinate is in the block's range on its axis. -/
theorem gateOut_mem (t : Fin cfg1.N) (i : S2x2x6250x128.Idx) :
    i ∈ ((cfg1.win 2).blk t).view.set ↔ ∀ a : Fin 4, win1_2.index t a * S1x1x6250x128.size a ≤ (i a).val ∧ (i a).val < win1_2.index t a * S1x1x6250x128.size a + S1x1x6250x128.size a := by
  show i ∈ ((View.whole main_v20_0).slice (win1_2.rect t)).set ↔ _
  rw [View.set_slice_whole, Rect.mem_set_unit]
  exact Iff.rfl

/-- Every index of the array is in the block of the point its half and block name: point `2 · half + block`. -/
theorem gateOut_cover (i : S2x2x6250x128.Idx) : ∃ t : Fin cfg1.N, (cfg1.win 2).flush t = true ∧ i ∈ ((cfg1.win 2).blk t).view.set := by
  have hi0 : (i 0).val < 2 := (i 0).isLt
  have hi1 : (i 1).val < 2 := (i 1).isLt
  have hi2 : (i 2).val < 6250 := (i 2).isLt
  have hi3 : (i 3).val < 128 := (i 3).isLt
  have hN : cfg1.N = 4 := N_1
  obtain ⟨t, ht⟩ : ∃ t : Fin cfg1.N, t.val = (i 0).val * 2 + (i 1).val := ⟨⟨(i 0).val * 2 + (i 1).val, by omega⟩, rfl⟩
  obtain ⟨-, -, ⟨e0, e1, e2, e3⟩⟩ := gateGrid_index t
  refine ⟨t, flush1_2 t, ?_⟩
  rw [gateOut_mem]
  intro a
  match a with
  | ⟨0, _⟩ => show win1_2.index t 0 * 1 ≤ (i 0).val ∧ (i 0).val < win1_2.index t 0 * 1 + 1; rw [e0, ht]; omega
  | ⟨1, _⟩ => show win1_2.index t 1 * 1 ≤ (i 1).val ∧ (i 1).val < win1_2.index t 1 * 1 + 1; rw [e1, ht]; omega
  | ⟨2, _⟩ => show win1_2.index t 2 * 6250 ≤ (i 2).val ∧ (i 2).val < win1_2.index t 2 * 6250 + 6250; rw [e2]; omega
  | ⟨3, _⟩ => show win1_2.index t 3 * 128 ≤ (i 3).val ∧ (i 3).val < win1_2.index t 3 * 128 + 128; rw [e3]; omega

/-- The gate's array after the region is the array of gates: the four blocks tile it. -/
theorem gateArr_final (c : Dev nD) : (dat1 (V6 (F := Ideal) m) c).arrAt 2 cfg1.N = gateArr m c :=
  (dat1 (V6 (F := Ideal) m) c).arrAt_eq_of_cover 2 (gateArr m c) (fun t _ => gateFlushed_eq m c t) gateOut_cover

/-! ## The host stretches around the region -/

/-- The host stretch before the edge gate lays the flat sum out by halves and blocks … -/
theorem gateEntry_scores (X : Valuation τ sig (Elt Ideal)) :
    StableHlo.after hostOps1_3 X (Proc.devRef .tc main_v18)
      = shapeCast S2x2x6250x128 (StableHlo.after hostOps1_3 X (Proc.devRef .tc main_v17)) shapeCasts_S3200000_S2x2x6250x128 := by
  after_results
  rfl

/-- … and the noise argument the same way. -/
theorem gateEntry_noise (X : Valuation τ sig (Elt Ideal)) :
    StableHlo.after hostOps1_3 X (Proc.devRef .tc main_v19)
      = shapeCast S2x2x6250x128 (X (Proc.devRef .tc main_arg3)) shapeCasts_S3200000_S2x2x6250x128 := by
  after_results
  rfl

/-- The closing host stretch lays the gate's array flat and then out as a column of 1×1 cells. -/
theorem gateTail (X : Valuation τ sig (Elt Ideal)) :
    StableHlo.after hostOps2 X (Proc.devRef .tc main_v26)
      = broadcastInDim S3200000x1x1 ![0] bcast_S3200000_S3200000x1x1_0
          (shapeCast S3200000 (X (Proc.devRef .tc main_v20_0)) shapeCasts_S2x2x6250x128_S3200000) := by
  after_results
  rfl

/-- Nothing before the edge gate writes the noise argument. -/
theorem gateNoise_kept (c : Dev nD) : W5 (F := Ideal) m c (Proc.devRef .tc main_arg3) = m ((c : Thread nD τ).loc main_arg3) :=
  (StableHlo.after_of_writes_sub hostOps1_2 _ hostOps1_2_writes (by decide)).trans <|
  (StableHlo.after_of_writes_sub hostOps1_1 _ hostOps1_1_writes (by decide)).trans <|
  (StableHlo.after_of_writes_sub hostOps1 _ hostOps1_writes (by decide)).trans <|
  (W2_of_ne m c main_arg3 (by decide)).trans <|
  (StableHlo.after_of_writes_sub hostOps0 _ hostOps0_writes (by decide)).trans rfl

/-- The summed scores enter the edge gate as the flat sum laid out by halves and blocks. -/
theorem gateScores_eq (c : Dev nD) :
    gateScores m c = shapeCast S2x2x6250x128 (W6 (F := Ideal) m c (Proc.devRef .tc main_v17)) shapeCasts_S3200000_S2x2x6250x128 :=
  gateEntry_scores (W5 (F := Ideal) m c)

/-- The noise enters the edge gate as the noise argument laid out by halves and blocks. -/
theorem gateNoise_eq (c : Dev nD) :
    gateNoise m c = shapeCast S2x2x6250x128 (m ((c : Thread nD τ).loc main_arg3)) shapeCasts_S3200000_S2x2x6250x128 :=
  (gateEntry_noise (W5 (F := Ideal) m c)).trans (congrArg (fun v => shapeCast S2x2x6250x128 v shapeCasts_S3200000_S2x2x6250x128) (gateNoise_kept m c))

/-! ## Laid flat -/

/-- Edge `e` sits in half `e / 1600000`, block `(e / 800000) % 2`, row `(e / 128) % 6250`, lane `e % 128`. -/
theorem gateFlat_pos (e : Fin 3200000) (k : S2x2x6250x128.Idx)
    (h0 : (k 0).val = e.val / 1600000) (h1 : (k 1).val = (e.val / 800000) % 2) (h2 : (k 2).val = (e.val / 128) % 6250) (h3 : (k 3).val = e.val % 128) :
    (S2x2x6250x128.rowMajor k).val = (S3200000.rowMajor (ix1 e)).val := by
  have he : e.val < 3200000 := e.isLt
  rw [Shape.rowMajor_val_four, Shape.rowMajor_val_one]
  show (((k 0).val * 2 + (k 1).val) * 6250 + (k 2).val) * 128 + (k 3).val = e.val
  rw [h0, h1, h2, h3]
  omega

/-- The gate's array after the region, laid flat, is the reference's gate of the noise argument and the flat sum. -/
theorem gateFlat (c : Dev nD) :
    shapeCast S3200000 (W7 (F := Ideal) m c (Proc.devRef .tc main_v20_0)) shapeCasts_S2x2x6250x128_S3200000
      = Cert.Spec.gate (m ((c : Thread nD τ).loc main_arg3)) (W6 (F := Ideal) m c (Proc.devRef .tc main_v17)) := by
  have h7 : W7 (F := Ideal) m c (Proc.devRef .tc main_v20_0) = gateArr m c := (W7_arr m c 2).trans (gateArr_final m c)
  rw [h7]
  funext i
  obtain ⟨e, rfl⟩ : ∃ e : Fin 3200000, i = ix1 e := ⟨i 0, eq_ix1 i⟩
  have he : e.val < 3200000 := e.isLt
  have hk := gateFlat_pos e (ix4 ⟨e.val / 1600000, by omega⟩ ⟨(e.val / 800000) % 2, by omega⟩ ⟨(e.val / 128) % 6250, by omega⟩ ⟨e.val % 128, by omega⟩) rfl rfl rfl rfl
  refine (shapeCast_apply _ _ (ix1 e) _ hk).trans ?_
  refine Eq.trans ?_ (specGate_at _ _ (ix1 e)).symm
  unfold gateArr
  rw [gateScores_eq, gateNoise_eq, shapeCast_apply _ _ _ (ix1 e) hk.symm, shapeCast_apply _ _ _ (ix1 e) hk.symm]

theorem out_v26 (c : Dev nD) :
    W8 (F := Ideal) m c (Proc.devRef .tc main_v26)
      = Cert.Spec.out2 (Cert.Spec.gate (m ((c : Thread nD τ).loc main_arg3)) (W6 (F := Ideal) m c (Proc.devRef .tc main_v17))) := by
  refine (gateTail (W7 (F := Ideal) m c)).trans ?_
  rw [gateFlat m c]
  unfold Cert.Spec.out2
  rfl

end Cert.KernelIdeal.Hand

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.TotalOut.lean ====
/- The regulariser: the two halves' running totals, added and divided, are the reference's mean of `1 − gate`. -/
import proofs.«422726_j71648644431894_3_alg».proof.Proof.RunDefs
import proofs.«422726_j71648644431894_3_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import proofs.«422726_j71648644431894_3_alg».proof.Proof.LibSumBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Lemmas

open Idealize.ShloMosaic.ValueIdx

/-- One edge's share of the regulariser: one minus the logistic of `(log e − log1p(−e) + w) / 0.5`, the constants
    as the bit patterns both programs print. -/
def share (e w : EReal) : EReal :=
  Ideal.ofBits .f32 0x3F800000#32 - Ideal.div (Ideal.ofBits .f32 0x3F800000#32) (Ideal.ofBits .f32 0x3F800000#32 + Ideal.exp (-(Ideal.div (Ideal.log e - Ideal.log1p (-e) + w) (Ideal.ofBits .f32 0x3F000000#32))))

/-- The pattern of `1.0` denotes one. -/
theorem ofBits_one_f32 : Ideal.ofBits .f32 0x3F800000#32 = 1 := by
  simp [Ideal.ofBits, Ideal.ieee, -EReal.coe_mul]; norm_num

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One minus the gate the body computes, at an edge of the block: the edge's share. -/
theorem pay3_apply (w e : Vec Ideal S1x1x6250x128 .f32) (r : Fin 6250) (l : Fin 128) :
    Ideal.ofBits .f32 0x3F800000#32 - k1_pay3 (F := Ideal) w e (ix2 r l) = share (e (ix4 0 0 r l)) (w (ix4 0 0 r l)) := by
  unfold k1_pay3 share
  show Ideal.ofBits .f32 0x3F800000#32 - Ideal.logistic (Ideal.div ((Ideal.log (shapeCast S6250x128 e _ (ix2 r l))
      - Ideal.log1p (Ideal.ofBits .f32 0x00000000#32 - shapeCast S6250x128 e _ (ix2 r l))) + shapeCast S6250x128 w _ (ix2 r l))
      (Ideal.ofBits .f32 0x3F000000#32)) = _
  rw [shapeCast_11ab_ab_apply, shapeCast_11ab_ab_apply, Ideal.ofBits_zero_f32, zero_sub, Ideal.logistic, ofBits_one_f32]

/-- The running total after a block, read at its one entry: what was there plus the block's total of shares,
    row by row and lane by lane. -/
theorem step1_apply (w e : Vec Ideal S1x1x6250x128 .f32) (a : Vec Ideal S1x1 .f32) :
    step1 (F := Ideal) w e a (ix2 0 0) = a (ix2 0 0) + ∑ r : Fin 6250, ∑ l : Fin 128, share (e (ix4 0 0 r l)) (w (ix4 0 0 r l)) := by
  unfold step1 k1_pay5
  rw [shapeCast_self]
  show a (ix2 0 0) + shapeCast S1x1 _ _ (ix2 (0 : Fin 1) (0 : Fin 1)) = _
  refine congrArg (a (ix2 0 0) + ·) ?_
  refine (shapeCast_a_1a_apply _ _ (0 : Fin 1) (0 : Fin 1)).trans ?_
  refine (Ideal.multiReduction_add_single _ _ reduces_S6250x1_S1 _ _ (ix1 (0 : Fin 1))).trans ?_
  refine Finset.sum_congr rfl fun (r : Fin 6250) _ => ?_
  have hl : reduces_S6250x1_S1.lift (ix1 (0 : Fin 1)) r = ix2 r (0 : Fin 1) := by
    funext d; match d with | ⟨0, _⟩ => rfl | ⟨1, _⟩ => rfl
  refine (congrArg _ hl).trans ?_
  refine (shapeCast_a_a1_apply _ _ r (0 : Fin 1)).trans ?_
  refine (Ideal.multiReduction_add_single _ _ reduces_S6250x128_S6250 _ _ (ix1 r)).trans ?_
  refine Finset.sum_congr rfl fun (l : Fin 128) _ => ?_
  have hl2 : reduces_S6250x128_S6250.lift (ix1 r) l = ix2 r l := by
    funext d; match d with | ⟨0, _⟩ => rfl | ⟨1, _⟩ => rfl
  refine (congrArg _ hl2).trans ?_
  exact pay3_apply w e r l

/-- After the last host stretch before the edge gate, the summed scores by halves and blocks are the flat sum laid
    out row-major, whatever the stretch started from. -/
theorem after13_v18 (V : Valuation τ sig (Elt Ideal)) :
    StableHlo.after hostOps1_3 V (Proc.devRef .tc main_v18)
      = fun i => shapeCast S2x2x6250x128 (StableHlo.after hostOps1_3 V (Proc.devRef .tc main_v17)) shapeCasts_S3200000_S2x2x6250x128 i := by
  after_results
  rfl

/-- … and the noise by halves and blocks is the flat noise argument laid out row-major. -/
theorem after13_v19 (V : Valuation τ sig (Elt Ideal)) :
    StableHlo.after hostOps1_3 V (Proc.devRef .tc main_v19)
      = fun i => shapeCast S2x2x6250x128 (V (Proc.devRef .tc main_arg3)) shapeCasts_S3200000_S2x2x6250x128 i := by
  after_results
  rfl

section Region

variable (V : (c : Dev nD) → (b : Ref sig .tc) → Buf (Elt Ideal) ((c : Thread nD τ).loc b))

/-- The printed index maps, decided over the four points: the score and noise blocks at point `t` are block
    `(t / 2, t % 2)`, the totals' block is row `t / 2`. -/
theorem idx_facts1 : ∀ t : Fin cfg1.N,
    win1_0.index t (0 : Fin 4) = t.val / 2 ∧ win1_0.index t (1 : Fin 4) = t.val % 2 ∧ win1_0.index t (2 : Fin 4) = 0 ∧ win1_0.index t (3 : Fin 4) = 0
    ∧ win1_1.index t (0 : Fin 4) = t.val / 2 ∧ win1_1.index t (1 : Fin 4) = t.val % 2 ∧ win1_1.index t (2 : Fin 4) = 0 ∧ win1_1.index t (3 : Fin 4) = 0
    ∧ win1_3.index t (0 : Fin 3) = t.val / 2 ∧ win1_3.index t (1 : Fin 3) = 0 ∧ win1_3.index t (2 : Fin 3) = 0 :=
  (by decide +kernel : ∀ t : Fin grid1.N, _)

/-- The score block at point `t = 2a + b`, read at an edge, is the scores' array at `(a, b, r, l)`. -/
theorem iblk_w (c : Dev nD) (t : Fin cfg1.N) (a b : Fin 2) (ht : t.val = 2 * a.val + b.val) (r : Fin 6250) (l : Fin 128) :
    (iblk1 V c 0 t : Vec Ideal S1x1x6250x128 .f32) (ix4 0 0 r l) = (V c main_v18 : Vec Ideal S2x2x6250x128 .f32) (ix4 a b r l) := by
  show V c main_v18 (((cfg1.win 0).blk t).view.emb (ix4 (0 : Fin 1) (0 : Fin 1) r l)) = _
  obtain ⟨e0, e1, e2, e3, -⟩ := idx_facts1 t
  refine congrArg (V c main_v18) ?_
  funext d; apply Fin.ext
  have ha := a.isLt; have hb := b.isLt
  match d with
  | ⟨0, _⟩ => show win1_0.index t (0 : Fin 4) * 1 + 1 * 0 = a.val; omega
  | ⟨1, _⟩ => show win1_0.index t (1 : Fin 4) * 1 + 1 * 0 = b.val; omega
  | ⟨2, _⟩ => show win1_0.index t (2 : Fin 4) * 6250 + 1 * r.val = r.val; omega
  | ⟨3, _⟩ => show win1_0.index t (3 : Fin 4) * 128 + 1 * l.val = l.val; omega

/-- The noise block likewise. -/
theorem iblk_e (c : Dev nD) (t : Fin cfg1.N) (a b : Fin 2) (ht : t.val = 2 * a.val + b.val) (r : Fin 6250) (l : Fin 128) :
    (iblk1 V c 1 t : Vec Ideal S1x1x6250x128 .f32) (ix4 0 0 r l) = (V c main_v19 : Vec Ideal S2x2x6250x128 .f32) (ix4 a b r l) := by
  show V c main_v19 (((cfg1.win 1).blk t).view.emb (ix4 (0 : Fin 1) (0 : Fin 1) r l)) = _
  obtain ⟨-, -, -, -, e0, e1, e2, e3, -⟩ := idx_facts1 t
  refine congrArg (V c main_v19) ?_
  funext d; apply Fin.ext
  have ha := a.isLt; have hb := b.isLt
  match d with
  | ⟨0, _⟩ => show win1_1.index t (0 : Fin 4) * 1 + 1 * 0 = a.val; omega
  | ⟨1, _⟩ => show win1_1.index t (1 : Fin 4) * 1 + 1 * 0 = b.val; omega
  | ⟨2, _⟩ => show win1_1.index t (2 : Fin 4) * 6250 + 1 * r.val = r.val; omega
  | ⟨3, _⟩ => show win1_1.index t (3 : Fin 4) * 128 + 1 * l.val = l.val; omega

/-- The total of the shares over block `(a, b)` of the region's entry arrays. -/
def blockTotal (c : Dev nD) (a b : Fin 2) : EReal :=
  ∑ r : Fin 6250, ∑ l : Fin 128, share ((V c main_v19 : Vec Ideal S2x2x6250x128 .f32) (ix4 a b r l)) ((V c main_v18 : Vec Ideal S2x2x6250x128 .f32) (ix4 a b r l))

/-- One step of the running total at point `t = 2a + b`: what was there plus block `(a, b)`'s total. -/
theorem step1_blk (c : Dev nD) (t : Fin cfg1.N) (a b : Fin 2) (ht : t.val = 2 * a.val + b.val) (x : Vec Ideal S1x1 .f32) :
    step1 (F := Ideal) (iblk1 V c 0 t) (iblk1 V c 1 t) x (ix2 0 0) = x (ix2 0 0) + blockTotal V c a b := by
  rw [step1_apply]
  refine congrArg (x (ix2 0 0) + ·) ?_
  refine Finset.sum_congr rfl fun r _ => Finset.sum_congr rfl fun l _ => ?_
  rw [iblk_w V c t a b ht r l, iblk_e V c t a b ht r l]

theorem hN1 : cfg1.N = 4 := N_1

/-- The scratch after the second block of the first half: zero, plus block (0,0)'s total, plus block (0,1)'s. -/
theorem acc1_one (c : Dev nD) (h : 1 < cfg1.N) :
    acc1 V c 1 h (ix2 0 0) = (Ideal.ofBits .f32 0x00000000#32 + blockTotal V c 0 0) + blockTotal V c 0 1 := by
  have e1 : acc1 V c 1 h = step1 (iblk1 V c 0 ⟨1, h⟩) (iblk1 V c 1 ⟨1, h⟩) (acc1 V c 0 (Nat.lt_of_succ_lt h)) := by
    show acc1 V c (0 + 1) h = _
    rw [acc1]; exact if_neg (by decide)
  have e0 : acc1 V c 0 (Nat.lt_of_succ_lt h) = step1 (iblk1 V c 0 ⟨0, Nat.lt_of_succ_lt h⟩) (iblk1 V c 1 ⟨0, Nat.lt_of_succ_lt h⟩) (k1_pay2 (F := Ideal)) := by
    rw [acc1]
  rw [e1, step1_blk V c ⟨1, h⟩ 0 1 rfl, e0, step1_blk V c ⟨0, _⟩ 0 0 rfl]
  rfl

/-- The scratch after the second block of the second half. -/
theorem acc1_three (c : Dev nD) (h : 3 < cfg1.N) :
    acc1 V c 3 h (ix2 0 0) = (Ideal.ofBits .f32 0x00000000#32 + blockTotal V c 1 0) + blockTotal V c 1 1 := by
  have e3 : acc1 V c 3 h = step1 (iblk1 V c 0 ⟨3, h⟩) (iblk1 V c 1 ⟨3, h⟩) (acc1 V c 2 (Nat.lt_of_succ_lt h)) := by
    show acc1 V c (2 + 1) h = _
    rw [acc1]; exact if_neg (by decide)
  have e2 : acc1 V c 2 (Nat.lt_of_succ_lt h) = step1 (iblk1 V c 0 ⟨2, Nat.lt_of_succ_lt h⟩) (iblk1 V c 1 ⟨2, Nat.lt_of_succ_lt h⟩) (k1_pay2 (F := Ideal)) := by
    show acc1 V c (1 + 1) _ = _
    rw [acc1]; exact if_pos (by decide)
  rw [e3, step1_blk V c ⟨3, h⟩ 1 1 rfl, e2, step1_blk V c ⟨2, _⟩ 1 0 rfl]
  rfl

end Region

section Totals

variable (V : (c : Dev nD) → (b : Ref sig .tc) → Buf (Elt Ideal) ((c : Thread nD τ).loc b))

/-- The half's block of the second output is the running total at every entry. -/
theorem tot1_apply (x : Vec Ideal S1x1 .f32) (y : S1x8x128.Idx) : tot1 (F := Ideal) x y = x (ix2 0 0) := by
  rw [eq_ix3 y]
  unfold tot1 k1_pay1
  refine (shapeCast_ab_1ab_apply _ _ _ _ _).trans ?_
  show x _ = x _
  refine congrArg x ?_
  funext d; match d with | ⟨0, _⟩ => rfl | ⟨1, _⟩ => rfl

/-- What the totals' array holds where a write-back covers it: row 0 the first half's total, row 1 the second's. -/
def totArr (c : Dev nD) : Vec Ideal S2x8x128 .f32 := fun i =>
  if (i 0).val = 0 then acc1 V c 1 (by rw [hN1]; decide) (ix2 0 0) else acc1 V c 3 (by rw [hN1]; decide) (ix2 0 0)

/-- What a write-back of the totals' window moves is its block of `totArr`. -/
theorem flushed3_eq (c : Dev nD) (t : Fin cfg1.N) (hf : (cfg1.win 3).flush t = true) :
    (dat1 V c).flushed 3 t = ((cfg1.win 3).blk t).view.read (Elt Ideal) (totArr V c) := by
  have ho := (flush1_3 t).mp hf
  show (cfg1.win 3).cut (grid1.coords t) ((dat1 V c).after 3 t) = _
  rw [after1_3]
  funext y
  show tot1 (F := Ideal) (acc1 V c t.val t.isLt) y = totArr V c (((cfg1.win 3).blk t).view.emb y)
  rw [tot1_apply]
  have hy : (y 0).val < 1 := (y 0).isLt
  obtain ⟨-, -, -, -, -, -, -, -, e0, -⟩ := idx_facts1 t
  have hemb : ((((cfg1.win 3).blk t).view.emb y) 0).val = win1_3.index t (0 : Fin 3) * 1 + 1 * (y 0).val := rfl
  unfold totArr
  rcases fin_N1 t with rfl | rfl | rfl | rfl
  · exact absurd ho (by decide)
  · rw [if_pos (by rw [hemb, e0]; show 1 / 2 * 1 + 1 * (y 0).val = 0; omega)]; rfl
  · exact absurd ho (by decide)
  · rw [if_neg (by rw [hemb, e0]; show ¬ (3 / 2 * 1 + 1 * (y 0).val = 0); omega)]; rfl

/-- An index of the totals' array is in point `t`'s block iff each coordinate is in the block's range. -/
theorem mem_blk3 (t : Fin cfg1.N) (i : S2x8x128.Idx) :
    i ∈ ((cfg1.win 3).blk t).view.set ↔ ∀ a : Fin 3, win1_3.index t a * S1x8x128.size a ≤ (i a).val ∧ (i a).val < win1_3.index t a * S1x8x128.size a + S1x8x128.size a := by
  show i ∈ ((View.whole main_v20_1).slice (win1_3.rect t)).set ↔ _
  rw [View.set_slice_whole, Rect.mem_set_unit]
  exact Iff.rfl

/-- After the run the totals' array holds, at the head of row `a`, that half's running total. -/
theorem arr3_head (c : Dev nD) (a : Fin 2) :
    ((dat1 V c).arrAt 3 cfg1.N : Vec Ideal S2x8x128 .f32) (ix3 a 0 0) = totArr V c (ix3 a 0 0) := by
  have hN := hN1
  have ha := a.isLt
  have ht : 2 * a.val + 1 < cfg1.N := by omega
  refine (dat1 V c).arrAt_apply_of_mem 3 (totArr V c) (flushed3_eq V c) cfg1.N ⟨2 * a.val + 1, ht⟩ (ix3 a 0 0) ht
    ((flush1_3 _).mpr (by show (2 * a.val + 1) % 2 = 1; omega)) ?_
  rw [mem_blk3]
  obtain ⟨-, -, -, -, -, -, -, -, e0, e1, e2⟩ := idx_facts1 ⟨2 * a.val + 1, ht⟩
  intro d
  match d with
  | ⟨0, _⟩ => show win1_3.index _ (0 : Fin 3) * 1 ≤ a.val ∧ a.val < win1_3.index _ (0 : Fin 3) * 1 + 1; rw [e0]; show (2 * a.val + 1) / 2 * 1 ≤ a.val ∧ a.val < (2 * a.val + 1) / 2 * 1 + 1; omega
  | ⟨1, _⟩ => show win1_3.index _ (1 : Fin 3) * 8 ≤ 0 ∧ 0 < win1_3.index _ (1 : Fin 3) * 8 + 8; rw [e1]; omega
  | ⟨2, _⟩ => show win1_3.index _ (2 : Fin 3) * 128 ≤ 0 ∧ 0 < win1_3.index _ (2 : Fin 3) * 128 + 128; rw [e2]; omega

end Totals

/-- The flat array laid out by halves and blocks reads, at `(a, b, r, l)`, the flat entry at the row-major position. -/
theorem shapeCast_flat_apply {α : Type} (x : (⟨1, ![3200000]⟩ : Shape).Idx → α)
    (h : (⟨1, ![3200000]⟩ : Shape).ShapeCasts ⟨4, ![2, 2, 6250, 128]⟩) (a b : Fin 2) (r : Fin 6250) (l : Fin 128)
    (hlt : ((a.val * 2 + b.val) * 6250 + r.val) * 128 + l.val < 3200000) :
    shapeCast ⟨4, ![2, 2, 6250, 128]⟩ x h (ix4 a b r l) = x (ix1 ⟨((a.val * 2 + b.val) * 6250 + r.val) * 128 + l.val, hlt⟩) :=
  shapeCast_apply x h _ _ (by rw [Shape.rowMajor_val_four, Shape.rowMajor_val_one]; rfl)

/-- The heads of the two rows of a `[2, 8, 128]` array, sliced out and laid flat: entry `k` is the head of row `k`. -/
theorem head_apply {α : Type} (A : (⟨3, ![2, 8, 128]⟩ : Shape).Idx → α)
    (hs : (⟨3, ![2, 8, 128]⟩ : Shape).Slices ![0, 0, 0] ⟨3, ![2, 1, 1]⟩) (hc : (⟨3, ![2, 1, 1]⟩ : Shape).ShapeCasts ⟨1, ![2]⟩) (k : Fin 2) :
    shapeCast ⟨1, ![2]⟩ (extractStridedSlice ⟨3, ![2, 1, 1]⟩ ![0, 0, 0] A hs) hc (ix1 k) = A (ix3 k (0 : Fin 8) (0 : Fin 128)) := by
  refine (shapeCast_apply _ hc (ix1 k) (ix3 k (0 : Fin 1) (0 : Fin 1)) (by
    rw [Shape.rowMajor_val_three, Shape.rowMajor_val_one]; show (k.val * 1 + 0) * 1 + 0 = k.val; omega)).trans ?_
  exact extractStridedSlice_apply _ _ hs _ (ix3 k (0 : Fin 8) (0 : Fin 128)) (fun ax => by
    match ax with
    | ⟨0, _⟩ => exact (Nat.zero_add _).symm
    | ⟨1, _⟩ => rfl
    | ⟨2, _⟩ => rfl)

section Run

variable (m : (ℓ : Loc nD τ sig) → Buf (Elt Ideal) ℓ)

/-- Nothing before the edge gate writes the noise argument. -/
theorem W5_arg3 (c : Dev nD) : W5 (F := Ideal) m c (Proc.devRef .tc main_arg3) = m ((c : Thread nD τ).loc main_arg3) := by
  show StableHlo.after hostOps1_2 (StableHlo.after hostOps1_1 (StableHlo.after hostOps1 (W2 m c))) (Proc.devRef .tc main_arg3) = _
  after_results
  rw [W2_of_ne m c main_arg3 (by decide)]
  show StableHlo.after hostOps0 (W0 m c) (Proc.devRef .tc main_arg3) = _
  after_results

/-- The edge gate's score array at `(a, b, r, l)` is the flat summed scores at the row-major position. -/
theorem V6_v18_apply (c : Dev nD) (a b : Fin 2) (r : Fin 6250) (l : Fin 128)
    (hlt : ((a.val * 2 + b.val) * 6250 + r.val) * 128 + l.val < 3200000) :
    (V6 (F := Ideal) m c main_v18 : Vec Ideal S2x2x6250x128 .f32) (ix4 a b r l)
      = (W6 (F := Ideal) m c (Proc.devRef .tc main_v17) : Vec Ideal S3200000 .f32) (ix1 ⟨((a.val * 2 + b.val) * 6250 + r.val) * 128 + l.val, hlt⟩) :=
  (congrFun (after13_v18 (W5 m c)) (ix4 a b r l)).trans (shapeCast_flat_apply _ _ a b r l hlt)

/-- The edge gate's noise array at `(a, b, r, l)` is the flat noise argument at the row-major position. -/
theorem V6_v19_apply (c : Dev nD) (a b : Fin 2) (r : Fin 6250) (l : Fin 128)
    (hlt : ((a.val * 2 + b.val) * 6250 + r.val) * 128 + l.val < 3200000) :
    (V6 (F := Ideal) m c main_v19 : Vec Ideal S2x2x6250x128 .f32) (ix4 a b r l)
      = (m ((c : Thread nD τ).loc main_arg3) : Vec Ideal S3200000 .f32) (ix1 ⟨((a.val * 2 + b.val) * 6250 + r.val) * 128 + l.val, hlt⟩) := by
  refine (congrFun (after13_v19 (W5 m c)) (ix4 a b r l)).trans ?_
  rw [W5_arg3]
  exact shapeCast_flat_apply _ _ a b r l hlt

/-- After the edge gate the head of row `k` of the totals is zero plus the half's two block totals in turn. -/
theorem heads (c : Dev nD) (k : Fin 2) :
    (W7 (F := Ideal) m c (Proc.devRef .tc main_v20_1) : Vec Ideal S2x8x128 .f32) (ix3 k 0 0)
      = (Ideal.ofBits .f32 0x00000000#32 + blockTotal (V6 m) c k 0) + blockTotal (V6 m) c k 1 := by
  rw [show W7 (F := Ideal) m c (Proc.devRef .tc main_v20_1) = (dat1 (V6 m) c).arrAt 3 cfg1.N from W7_arr m c 3]
  rw [arr3_head]
  unfold totArr
  match k with
  | ⟨0, _⟩ => rw [if_pos rfl]; exact acc1_one (V6 m) c _
  | ⟨1, _⟩ => rw [if_neg (show ¬ ((1 : ℕ) = 0) from Nat.one_ne_zero)]; exact acc1_three (V6 m) c _

end Run

/-- A buffer's contents read as extended reals. -/
abbrev rd {S : Shape} (x : Vec Ideal S .f32) : S.Idx → EReal := x

/-- The indices of a vector are its positions. -/
def idxEquiv1 {n : ℕ} : (⟨1, ![n]⟩ : Shape).Idx ≃ Fin n where
  toFun j := j 0
  invFun := ix1
  left_inv j := (eq_ix1 j).symm
  right_inv _ := rfl

/-- The host's sum of a vector into a scalar, at the ideal values: the initial value plus the sum over the positions. -/
theorem hostReduceAdd_vec {n : ℕ} {t : Shape} (h' : (⟨1, ![n]⟩ : Shape).ReducesTo [0] t) (ht : ∀ b, t.size b = 1)
    (x : (⟨1, ![n]⟩ : Shape).Idx → EReal) (init : EReal) (j : t.Idx) :
    Ideal.hostReduceAdd h' x init j = init + ∑ k : Fin n, x (ix1 k) := by
  rw [Ideal.hostReduceAdd_total h' ht]
  exact congrArg (init + ·) (Fintype.sum_equiv idxEquiv1 x (fun k => x (ix1 k)) fun i => congrArg x (eq_ix1 i))

/-- The reference's regulariser at its one index: zero plus the total of every edge's share, divided by the
    number of edges. -/
theorem mean1m_apply (eps w : Cert.Spec.FV Cert.ReferenceIdeal.S3200000) (j : Cert.ReferenceIdeal.S_.Idx) :
    Cert.Spec.mean1m (Cert.Spec.gate eps w) j
      = Ideal.div (Ideal.ofBits .f32 0x00000000#32 + ∑ i : Fin 3200000, share (eps (ix1 i)) (w (ix1 i))) (Ideal.ofBits .f32 0x4A435000#32) := by
  unfold Cert.Spec.mean1m
  show Ideal.div (Ideal.hostReduceAdd _ _ (Ideal.ofBits .f32 0x00000000#32) j) (Ideal.ofBits .f32 0x4A435000#32) = _
  refine congrArg (fun z => Ideal.div z (Ideal.ofBits .f32 0x4A435000#32)) ?_
  refine (hostReduceAdd_vec _ (fun b => b.elim0) _ _ j).trans ?_
  rfl

/-- The closing host stretch at its one index, whatever it starts from: zero plus the two row heads of the totals,
    divided by the number of edges. -/
theorem after2_v25_apply (V : Valuation τ sig (Elt Ideal)) (j : S_.Idx) :
    rd (StableHlo.after hostOps2 V (Proc.devRef .tc main_v25)) j
      = Ideal.div (Ideal.ofBits .f32 0x00000000#32 + ∑ k : Fin 2, rd (V (Proc.devRef .tc main_v20_1) : Vec Ideal S2x8x128 .f32) (ix3 k 0 0)) (Ideal.ofBits .f32 0x4A435000#32) := by
  after_results
  show Ideal.div (Ideal.hostReduceAdd _ _ (Ideal.ofBits .f32 0x00000000#32) j) (Ideal.ofBits .f32 0x4A435000#32) = _
  refine congrArg (fun z => Ideal.div z (Ideal.ofBits .f32 0x4A435000#32)) ?_
  refine (hostReduceAdd_vec _ (fun b => b.elim0) _ _ j).trans ?_
  refine congrArg (Ideal.ofBits .f32 0x00000000#32 + ·) ?_
  refine Finset.sum_congr rfl fun (k : Fin 2) _ => ?_
  exact head_apply _ _ _ k

section Final

variable (m : (ℓ : Loc nD τ sig) → Buf (Elt Ideal) ℓ)

/-- A block's total over the edge gate's entry arrays is the total of the flat arrays' shares over the block's
    row-major positions. -/
theorem blockTotal_flat (c : Dev nD) (a b : Fin 2) :
    blockTotal (V6 m) c a b = ∑ r : Fin 6250, ∑ l : Fin 128,
      share (rd (m ((c : Thread nD τ).loc main_arg3)) (ix1 ⟨((a.val * 2 + b.val) * 6250 + r.val) * 128 + l.val, by omega⟩))
        (rd (W6 (F := Ideal) m c (Proc.devRef .tc main_v17)) (ix1 ⟨((a.val * 2 + b.val) * 6250 + r.val) * 128 + l.val, by omega⟩)) := by
  unfold blockTotal
  refine Finset.sum_congr rfl fun r _ => Finset.sum_congr rfl fun l _ => ?_
  rw [V6_v19_apply m c a b r l (by omega), V6_v18_apply m c a b r l (by omega)]

/-- The head of row `k` of the totals after the edge gate, as extended reals. -/
theorem heads_rd (c : Dev nD) (k : Fin 2) :
    rd (W7 (F := Ideal) m c (Proc.devRef .tc main_v20_1) : Vec Ideal S2x8x128 .f32) (ix3 k 0 0)
      = (Ideal.ofBits .f32 0x00000000#32 + blockTotal (V6 m) c k 0) + blockTotal (V6 m) c k 1 := heads m c k

end Final

end Lemmas

variable (m : (ℓ : Loc nD τ sig) → Buf (Elt Ideal) ℓ)

theorem out_v25 (c : Dev nD) :
    W8 (F := Ideal) m c (Proc.devRef .tc main_v25)
      = Cert.Spec.mean1m (Cert.Spec.gate (m ((c : Thread nD τ).loc main_arg3)) (W6 (F := Ideal) m c (Proc.devRef .tc main_v17))) := by
  funext j
  refine Eq.trans (after2_v25_apply (W7 m c) j) ?_
  refine Eq.trans ?_ (mean1m_apply _ _ j).symm
  refine congrArg (fun z => Ideal.div z (Ideal.ofBits .f32 0x4A435000#32)) ?_
  refine congrArg (Ideal.ofBits .f32 0x00000000#32 + ·) ?_
  rw [Fin.sum_univ_two, heads_rd, heads_rd, sum_flat_2x2x6250x128]
  simp only [Fin.sum_univ_two, blockTotal_flat, Ideal.ofBits_zero_f32, zero_add]

end Cert.KernelIdeal.Hand

end
-- ==== Proof.lean ====
/-
  The kernel computes, for 3.2 million edges over 100000 nodes, the gate `σ((log ε − log1p(−ε) + s[src] + d[dst]) / 0.5)`
  of every edge and the mean of `1 − gate`, where `s` and `d` are two two-layer perceptrons of the node features. It
  does so in two kernel regions — one perceptron with the two heads' weights fused (first layers side by side, second
  layers block-diagonally), in twenty row blocks; then the gates block by block with a running total per half of the
  edges — around host operations that fuse the weights, look the scores up at the edges' indices and add the halves'
  totals. The reference computes the same with two separate perceptrons and one sum over all edges.

  The two agree over the extended reals once every index lies in `[0, 100000)`: there the kernel's guarded look-up
  (which would fill an out-of-range entry with a not-a-number) is the reference's plain one. The fused perceptron's
  column `q` is head `q`'s perceptron because the other head's hidden units meet a zero weight (`x · 0 = 0` on the
  extended reals, infinities included); the kernel's logistic is the reference's `1 / (1 + exp(−z))`; and the total
  over all edges is the total of the blocks' totals, addition of extended reals being commutative and associative.
  No law used needs the inputs finite.

  The frames: each program terminates, faults nowhere and leaves its arguments as launched — for the kernel at both
  instances by running `@main` as host stretches and the two regions in order, for the reference by its run.
-/
import proofs.«422726_j71648644431894_3_alg».proof.Defs
import proofs.«422726_j71648644431894_3_alg».proof.Proof.Gen.Kernel
import proofs.«422726_j71648644431894_3_alg».proof.Proof.Gen.KernelIdeal
import proofs.«422726_j71648644431894_3_alg».proof.Proof.Gen.ReferenceIdeal
import proofs.«422726_j71648644431894_3_alg».proof.Proof.Gen.Pre_finite_inputs
import proofs.«422726_j71648644431894_3_alg».proof.Proof.Gen.ReferenceIdeal.Run
import proofs.«422726_j71648644431894_3_alg».proof.Proof.Frame
import proofs.«422726_j71648644431894_3_alg».proof.Proof.KFrame
import proofs.«422726_j71648644431894_3_alg».proof.Proof.ScoresAlg
import proofs.«422726_j71648644431894_3_alg».proof.Proof.Take
import proofs.«422726_j71648644431894_3_alg».proof.Proof.GateOut
import proofs.«422726_j71648644431894_3_alg».proof.Proof.TotalOut

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- Every edge's gate as a function of the kernel's argument arrays on core `c`. -/
def gates (m : (ℓ : Loc Cert.KernelIdeal.nD Cert.KernelIdeal.τ Cert.KernelIdeal.sig) → Buf (Elt Ideal) ℓ) (c : Dev Cert.KernelIdeal.nD) :
    Cert.Spec.FV Cert.ReferenceIdeal.S3200000 :=
  Cert.Spec.gate (m ((c.tc : Thread Cert.KernelIdeal.nD Cert.KernelIdeal.τ).loc Cert.KernelIdeal.main_arg3))
    (addf (F := Ideal)
      (Cert.Spec.lookup (Cert.Spec.score (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)))
      (Cert.Spec.lookup (Cert.Spec.score (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) (m ((c.tc : Thread Cert.KernelIdeal.nD Cert.KernelIdeal.τ).loc Cert.KernelIdeal.main_arg2))))

open Cert.KernelIdeal Cert.KernelIdeal.Hand in
/-- With the indices in range the summed end scores the edge gate is handed are the reference's. -/
theorem weight_spec (m : (ℓ : Loc Cert.KernelIdeal.nD Cert.KernelIdeal.τ Cert.KernelIdeal.sig) → Buf (Elt Ideal) ℓ)
    (hr : InRange m) (c : Dev Cert.KernelIdeal.nD) :
    Cert.Spec.gate (m ((c : Thread nD τ).loc main_arg3)) (W6 (F := Ideal) m c (Proc.devRef .tc main_v17)) = gates m c := by
  rw [weight_eq m hr c, score_col0 m c, score_col1 m c]; rfl

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the kernel's own text read over the extended reals. -/
theorem preserves : Cert.preserves_Kernel_KernelIdeal := trivial

open Cert.KernelIdeal Cert.KernelIdeal.Hand in
/-- Both programs end with the mean of `1 − gate` and the column of gates of the same arguments. -/
theorem algebraic : Cert.algebraic_KernelIdeal_ReferenceIdeal := by
  intro m ρ m' ρ' hpre hagree
  have hr : InRange m := inRange_of_pre m hpre
  refine ⟨fun c => Cert.Spec.mean1m (gates m c), fun c => Cert.Spec.out2 (gates m c), ?_, ?_⟩
  · refine (θ_run Cert.KernelIdeal.defs _ _).mono (fun r h c => ⟨?_, ?_,
      (h c _ (mem_uc main_arg0 (by decide))).trans (W8_main_arg0 m c),
      (h c _ (mem_uc main_arg1 (by decide))).trans (W8_main_arg1 m c),
      (h c _ (mem_uc main_arg2 (by decide))).trans (W8_main_arg2 m c),
      (h c _ (mem_uc main_arg3 (by decide))).trans (W8_main_arg3 m c),
      (h c _ (mem_uc main_arg4 (by decide))).trans (W8_main_arg4 m c),
      (h c _ (mem_uc main_arg5 (by decide))).trans (W8_main_arg5 m c),
      (h c _ (mem_uc main_arg6 (by decide))).trans (W8_main_arg6 m c),
      (h c _ (mem_uc main_arg7 (by decide))).trans (W8_main_arg7 m c),
      (h c _ (mem_uc main_arg8 (by decide))).trans (W8_main_arg8 m c),
      (h c _ (mem_uc main_arg9 (by decide))).trans (W8_main_arg9 m c),
      (h c _ (mem_uc main_arg10 (by decide))).trans (W8_main_arg10 m c),
      (h c _ (mem_uc main_arg11 (by decide))).trans (W8_main_arg11 m c)⟩)
      (run_all (F := Ideal) m ρ)
    · exact (h c _ (mem_uc main_v25 (by decide))).trans ((out_v25 m c).trans (congrArg Cert.Spec.mean1m (weight_spec m hr c)))
    · exact (h c _ (mem_uc main_v26 (by decide))).trans ((out_v26 m c).trans (congrArg Cert.Spec.out2 (weight_spec m hr c)))
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11⟩ := hagree c
      rw [e0, e1, e2, e3, e4, e5, e6, e7, e8, e9, e10, e11]; rfl
    · obtain ⟨e0, e1, e2, e3, e4, e5, e6, e7, e8, e9, e10, e11⟩ := hagree c
      rw [e0, e1, e2, e3, e4, e5, e6, e7, e8, e9, e10, e11]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
